-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1210000x128 : Shape := ⟨2, ![1210000, 128]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S128x1 : Shape := ⟨2, ![128, 1]⟩
abbrev S1100000 : Shape := ⟨1, ![1100000]⟩
abbrev S100000 : Shape := ⟨1, ![100000]⟩
abbrev S_ : Shape := ⟨0, ![]⟩

class Facts : Prop where
  bcast_S_S1210000x128 : S_.BroadcastsInDim S1210000x128 (![] : Fin 0 → Fin S1210000x128.rank)
  reducesTo_S1210000x128_S_d0_1 : S1210000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S256x128 .f32) (main_arg5 : FVec F S128 .f32) (main_arg6 : FVec F S128x1 .f32) (main_v13 : IVec S_ 1) (main_v16 : IVec S256x1 1) : IVec S_ 1 :=
  let main_c_5 : IVec S_ 1 := constantI S_ 1 1#1
  let main_v17 : IVec S_ 1 := (fun x v => Host.reduce IntOp.andi x v reducesTo_S256x1_S_d0_1 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  main_v33

def fn {F : FTy → Type} [FloatOps F] (main_arg0 : FVec F S1210000x128 .f32) (main_arg1 : FVec F S128x256 .f32) (main_arg2 : FVec F S256 .f32) (main_arg3 : FVec F S256x1 .f32) (main_arg4 : FVec F S256x128 .f32) (main_arg5 : FVec F S128 .f32) (main_arg6 : FVec F S128x1 .f32) (main_arg7 : IVec S1100000 32) (main_arg8 : IVec S1100000 32) (main_arg9 : IVec S100000 32) (main_arg10 : IVec S100000 32) : IVec S_ 1 :=
  let main_v0 : FVec F S1210000x128 .f32 := Host.absf main_arg0
  let main_cst : FVec F S_ .f32 := constant S_ .f32 0x7F800000#32
  let main_v1 : FVec F S1210000x128 .f32 := broadcastInDim S1210000x128 ![] bcast_S_S1210000x128 main_cst
  let main_v2 : IVec S1210000x128 1 := cmpf .olt main_v0 main_v1
  let main_c : IVec S_ 1 := constantI S_ 1 1#1
  let main_v3 : IVec S_ 1 := (fun x v => Host.reduce IntOp.andi x v reducesTo_S1210000x128_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x1 .f32 := Host.absf main_arg3
  let main_cst_4 : FVec F S_ .f32 := constant S_ .f32 0x7F800000#32
  let main_v15 : FVec F S256x1 .f32 := broadcastInDim S256x1 ![] bcast_S_S256x1 main_cst_4
  let main_v16 : IVec S256x1 1 := cmpf .olt main_v14 main_v15
  fn_part1 (F := F) main_arg4 main_arg5 main_arg6 main_v13 main_v16
-- ==== Kernel.lean ====
abbrev S1210000x128 : Shape := ⟨2, ![1210000, 128]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S128x1 : Shape := ⟨2, ![128, 1]⟩
abbrev S1100000 : Shape := ⟨1, ![1100000]⟩
abbrev S100000 : Shape := ⟨1, ![100000]⟩
abbrev S_ : Shape := ⟨0, ![]⟩
abbrev S1210000 : Shape := ⟨1, ![1210000]⟩
abbrev S1100000x1 : Shape := ⟨2, ![1100000, 1]⟩
abbrev S110000 : Shape := ⟨1, ![110000]⟩
abbrev S1210000x1 : Shape := ⟨2, ![1210000, 1]⟩
abbrev S10000x128 : Shape := ⟨2, ![10000, 128]⟩
abbrev S10000x1 : Shape := ⟨2, ![10000, 1]⟩
abbrev S1100000x128 : Shape := ⟨2, ![1100000, 128]⟩
abbrev S110000x128 : Shape := ⟨2, ![110000, 128]⟩
abbrev S110000x1 : Shape := ⟨2, ![110000, 1]⟩
abbrev S1x256 : Shape := ⟨2, ![1, 256]⟩
abbrev S110000x256 : Shape := ⟨2, ![110000, 256]⟩
abbrev S10000x256 : Shape := ⟨2, ![10000, 256]⟩
abbrev S100000x1 : Shape := ⟨2, ![100000, 1]⟩
abbrev S10000 : Shape := ⟨1, ![10000]⟩
abbrev S5000x256 : Shape := ⟨2, ![5000, 256]⟩
abbrev S5000x1 : Shape := ⟨2, ![5000, 1]⟩
abbrev S100000x256 : Shape := ⟨2, ![100000, 256]⟩
abbrev S1x128 : Shape := ⟨2, ![1, 128]⟩

abbrev nBuf : Space → Nat
  | .hbm => 87
  | .vmem => 30
  | .smem => 0
  | _ => 0

abbrev bufTy : (tb : Table) → Fin (tcTables nBuf tb) → BufTy
  | .hbm, ⟨0, _⟩ => ⟨S1210000x128, .f32⟩
  | .hbm, ⟨1, _⟩ => ⟨S128x256, .f32⟩
  | .hbm, ⟨2, _⟩ => ⟨S256, .f32⟩
  | .hbm, ⟨3, _⟩ => ⟨S256x1, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1100000, .i32⟩
  | .hbm, ⟨8, _⟩ => ⟨S1100000, .i32⟩
  | .hbm, ⟨9, _⟩ => ⟨S100000, .i32⟩
  | .hbm, ⟨10, _⟩ => ⟨S100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S1210000, .f32⟩
  | .hbm, ⟨15, _⟩ => ⟨S1100000x1, .i32⟩
  | .hbm, ⟨16, _⟩ => ⟨S1210000, .f32⟩
  | .hbm, ⟨17, _⟩ => ⟨S_, .f32⟩
  | .hbm, ⟨18, _⟩ => ⟨S_, .f32⟩
  | .hbm, ⟨19, _⟩ => ⟨S1210000, .f32⟩
  | .hbm, ⟨20, _⟩ => ⟨S1210000, .f32⟩
  | .hbm, ⟨21, _⟩ => ⟨S_, .f32⟩
  | .hbm, ⟨22, _⟩ => ⟨S110000, .f32⟩
  | .hbm, ⟨23, _⟩ => ⟨S1100000x1, .i32⟩
  | .hbm, ⟨24, _⟩ => ⟨S110000, .f32⟩
  | .hbm, ⟨25, _⟩ => ⟨S_, .f32⟩
  | .hbm, ⟨26, _⟩ => ⟨S_, .f32⟩
  | .hbm, ⟨27, _⟩ => ⟨S110000, .f32⟩
  | .hbm, ⟨28, _⟩ => ⟨S110000, .f32⟩
  | .hbm, ⟨29, _⟩ => ⟨S1210000, .f32⟩
  | .hbm, ⟨30, _⟩ => ⟨S1210000x1, .f32⟩
  | .hbm, ⟨31, _⟩ => ⟨S1210000x128, .f32⟩
  | .hbm, ⟨32, _⟩ => ⟨S_, .i32⟩
  | .hbm, ⟨33, _⟩ => ⟨S1100000, .i32⟩
  | .hbm, ⟨34, _⟩ => ⟨S1100000, .i1⟩
  | .hbm, ⟨35, _⟩ => ⟨S_, .i32⟩
  | .hbm, ⟨36, _⟩ => ⟨S1100000, .i32⟩
  | .hbm, ⟨37, _⟩ => ⟨S1100000, .i32⟩
  | .hbm, ⟨38, _⟩ => ⟨S1100000, .i32⟩
  | .hbm, ⟨39, _⟩ => ⟨S1100000x1, .i32⟩
  | .hbm, ⟨40, _⟩ => ⟨S1100000x128, .f32⟩
  | .hbm, ⟨41, _⟩ => ⟨S_, .f32⟩
  | .hbm, ⟨42, _⟩ => ⟨S110000x128, .f32⟩
  | .hbm, ⟨43, _⟩ => ⟨S1100000x1, .i32⟩
  | .hbm, ⟨44, _⟩ => ⟨S110000x128, .f32⟩
  | .hbm, ⟨45, _⟩ => ⟨S110000x1, .f32⟩
  | .hbm, ⟨46, _⟩ => ⟨S1x256, .f32⟩
  | .hbm, ⟨47, _⟩ => ⟨S110000x256, .f32⟩
  | .hbm, ⟨48, _⟩ => ⟨S110000x1, .f32⟩
  | .hbm, ⟨49, _⟩ => ⟨S_, .f32⟩
  | .hbm, ⟨50, _⟩ => ⟨S100000, .f32⟩
  | .hbm, ⟨51, _⟩ => ⟨S_, .f32⟩
  | .hbm, ⟨52, _⟩ => ⟨S110000, .f32⟩
  | .hbm, ⟨53, _⟩ => ⟨S100000x1, .i32⟩
  | .hbm, ⟨54, _⟩ => ⟨S110000, .f32⟩
  | .hbm, ⟨55, _⟩ => ⟨S_, .f32⟩
  | .hbm, ⟨56, _⟩ => ⟨S_, .f32⟩
  | .hbm, ⟨57, _⟩ => ⟨S110000, .f32⟩
  | .hbm, ⟨58, _⟩ => ⟨S110000, .f32⟩
  | .hbm, ⟨59, _⟩ => ⟨S_, .f32⟩
  | .hbm, ⟨60, _⟩ => ⟨S10000, .f32⟩
  | .hbm, ⟨61, _⟩ => ⟨S100000x1, .i32⟩
  | .hbm, ⟨62, _⟩ => ⟨S10000, .f32⟩
  | .hbm, ⟨63, _⟩ => ⟨S_, .f32⟩
  | .hbm, ⟨64, _⟩ => ⟨S_, .f32⟩
  | .hbm, ⟨65, _⟩ => ⟨S10000, .f32⟩
  | .hbm, ⟨66, _⟩ => ⟨S10000, .f32⟩
  | .hbm, ⟨67, _⟩ => ⟨S110000, .f32⟩
  | .hbm, ⟨68, _⟩ => ⟨S110000x1, .f32⟩
  | .hbm, ⟨69, _⟩ => ⟨S110000x256, .f32⟩
  | .hbm, ⟨70, _⟩ => ⟨S_, .i32⟩
  | .hbm, ⟨71, _⟩ => ⟨S100000, .i32⟩
  | .hbm, ⟨72, _⟩ => ⟨S100000, .i1⟩
  | .hbm, ⟨73, _⟩ => ⟨S_, .i32⟩
  | .hbm, ⟨74, _⟩ => ⟨S100000, .i32⟩
  | .hbm, ⟨75, _⟩ => ⟨S100000, .i32⟩
  | .hbm, ⟨76, _⟩ => ⟨S100000, .i32⟩
  | .hbm, ⟨77, _⟩ => ⟨S100000x1, .i32⟩
  | .hbm, ⟨78, _⟩ => ⟨S100000x256, .f32⟩
  | .hbm, ⟨79, _⟩ => ⟨S_, .f32⟩
  | .hbm, ⟨80, _⟩ => ⟨S10000x256, .f32⟩
  | .hbm, ⟨81, _⟩ => ⟨S100000x1, .i32⟩
  | .hbm, ⟨82, _⟩ => ⟨S10000x256, .f32⟩
  | .hbm, ⟨83, _⟩ => ⟨S10000x1, .f32⟩
  | .hbm, ⟨84, _⟩ => ⟨S1x128, .f32⟩
  | .hbm, ⟨85, _⟩ => ⟨S10000x128, .f32⟩
  | .hbm, ⟨86, _⟩ => ⟨S10000x1, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x256, .f32⟩
  | .local _ .vmem, ⟨11, _⟩ => ⟨S1x256, .f32⟩
  | .local _ .vmem, ⟨12, _⟩ => ⟨S256x1, .f32⟩
  | .local _ .vmem, ⟨13, _⟩ => ⟨S10000x256, .f32⟩
  | .local _ .vmem, ⟨14, _⟩ => ⟨S10000x256, .f32⟩
  | .local _ .vmem, ⟨15, _⟩ => ⟨S10000x1, .f32⟩
  | .local _ .vmem, ⟨16, _⟩ => ⟨S10000x1, .f32⟩
  | .local _ .vmem, ⟨17, _⟩ => ⟨S5000x256, .f32⟩
  | .local _ .vmem, ⟨18, _⟩ => ⟨S5000x256, .f32⟩
  | .local _ .vmem, ⟨19, _⟩ => ⟨S5000x1, .f32⟩
  | .local _ .vmem, ⟨20, _⟩ => ⟨S5000x1, .f32⟩
  | .local _ .vmem, ⟨21, _⟩ => ⟨S5000x256, .f32⟩
  | .local _ .vmem, ⟨22, _⟩ => ⟨S5000x256, .f32⟩
  | .local _ .vmem, ⟨23, _⟩ => ⟨S10000x256, .f32⟩
  | .local _ .vmem, ⟨24, _⟩ => ⟨S10000x1, .f32⟩
  | .local _ .vmem, ⟨25, _⟩ => ⟨S256x128, .f32⟩
  | .local _ .vmem, ⟨26, _⟩ => ⟨S1x128, .f32⟩
  | .local _ .vmem, ⟨27, _⟩ => ⟨S128x1, .f32⟩
  | .local _ .vmem, ⟨28, _⟩ => ⟨S10000x128, .f32⟩
  | .local _ .vmem, ⟨29, _⟩ => ⟨S10000x1, .f32⟩
  | _, _ => ⟨S1210000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_cst_6 : Ref sig .tc := ⟨.hbm, 49, rfl⟩
abbrev main_v25 : Ref sig .tc := ⟨.hbm, 50, rfl⟩
abbrev main_cst_7 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_cst_8 : Ref sig .tc := ⟨.hbm, 55, rfl⟩
abbrev main_call2_v0 : Ref sig .tc := ⟨.hbm, 56, rfl⟩
abbrev main_call2_v1 : Ref sig .tc := ⟨.hbm, 57, rfl⟩
abbrev main_v29 : Ref sig .tc := ⟨.hbm, 58, rfl⟩
abbrev main_cst_9 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_10 : Ref sig .tc := ⟨.hbm, 63, rfl⟩
abbrev main_call3_v0 : Ref sig .tc := ⟨.hbm, 64, rfl⟩
abbrev main_call3_v1 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_c_11 : Ref sig .tc := ⟨.hbm, 70, rfl⟩
abbrev main_v37 : Ref sig .tc := ⟨.hbm, 71, rfl⟩
abbrev main_v38 : Ref sig .tc := ⟨.hbm, 72, rfl⟩
abbrev main_c_12 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_13 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49_0 : Ref sig .tc := ⟨.hbm, 85, rfl⟩
abbrev main_v49_1 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg6_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29

abbrev nD : Nat := 1
abbrev τ : Topo := Topo.v7x

variable {F : FTy → Type} [FloatOps F]

abbrev grid0 : Pipeline.Grid := ⟨1, ![121], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![11], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![22], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S10000x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S10000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S256x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S10000x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S10000x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

class Facts₀ : Prop where
  bcast_S_S1100000 : S_.BroadcastsInDim S1100000 (![] : Fin 0 → Fin S1100000.rank)
  bcast_S_S1210000 : S_.BroadcastsInDim S1210000 (![] : Fin 0 → Fin S1210000.rank)
  bcast_S1100000_S1100000x1_0 : S1100000.BroadcastsInDim S1100000x1 (![0] : Fin 1 → Fin S1100000x1.rank)
  bcast_S_S110000 : S_.BroadcastsInDim S110000 (![] : Fin 0 → Fin S110000.rank)
  bcast_S1210000_S1210000x1_0 : S1210000.BroadcastsInDim S1210000x1 (![0] : Fin 1 → Fin S1210000x1.rank)
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S110000x128 : S_.BroadcastsInDim S110000x128 (![] : Fin 0 → Fin S110000x128.rank)
  bcast_S110000_S110000x1_0 : S110000.BroadcastsInDim S110000x1 (![0] : Fin 1 → Fin S110000x1.rank)
  shapeCasts_S256_S1x256 : S256.ShapeCasts S1x256
  shapeCasts_S10000x128_S10000x128 : S10000x128.ShapeCasts S10000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x1_S256x1_0_0 : ∀ a, (![0, 0] : Fin 2 → Nat) a + S256x1.size a ≤ S256x1.size a
  h_S256x1 : 0 < S256x1.numel
  broadcasts_S10000x1_S10000x256 : S10000x1.Broadcasts S10000x256
  inb_S10000x256_S10000x256_0_0 : ∀ a, (![0, 0] : Fin 2 → Nat) a + S10000x256.size a ≤ S10000x256.size a
  h_S10000x256 : 0 < S10000x256.numel
  bcast_S_S100000 : S_.BroadcastsInDim S100000 (![] : Fin 0 → Fin S100000.rank)
  bcast_S100000_S100000x1_0 : S100000.BroadcastsInDim S100000x1 (![0] : Fin 1 → Fin S100000x1.rank)
  bcast_S_S10000 : S_.BroadcastsInDim S10000 (![] : Fin 0 → Fin S10000.rank)
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  bcast_S_S10000x256 : S_.BroadcastsInDim S10000x256 (![] : Fin 0 → Fin S10000x256.rank)
  bcast_S10000_S10000x1_0 : S10000.BroadcastsInDim S10000x1 (![0] : Fin 1 → Fin S10000x1.rank)
  shapeCasts_S128_S1x128 : S128.ShapeCasts S1x128
  shapeCasts_S10000x256_S10000x256 : S10000x256.ShapeCasts S10000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x1_S128x1_0_0 : ∀ a, (![0, 0] : Fin 2 → Nat) a + S128x1.size a ≤ S128x1.size a
  h_S128x1 : 0 < S128x1.numel
  scatter_S1210000_S1100000x1_S1100000_n_0_0_1_wf : ScatterDims.WF S1210000 S1100000x1 S1100000 [] [0] [0] 1
  scatter_S110000_S1100000x1_S1100000_n_0_0_1_wf : ScatterDims.WF S110000 S1100000x1 S1100000 [] [0] [0] 1
  gather_S1210000x128_S1100000x1_S1100000x128_1_0_n_n_0_1_1128_wf : GatherDims.WF S1210000x128 S1100000x1 S1100000x128 [1] [0] [] [0] [] 1 ![1, 128]
  scatter_S110000x128_S1100000x1_S1100000x128_1_0_0_1_wf : ScatterDims.WF S110000x128 S1100000x1 S1100000x128 [1] [0] [0] 1
  dot_S10000x128_S128x256_S10000x256_1_0_0_1_n_n_wf : DotDims.WF S10000x128 S128x256 S10000x256 [1] [0] [0] [1] [] []
  dot_S10000x256_S256x1_S10000x1_1_0_0_1_n_n_wf : DotDims.WF S10000x256 S256x1 S10000x1 [1] [0] [0] [1] [] []
  scatter_S110000_S100000x1_S100000_n_0_0_1_wf : ScatterDims.WF S110000 S100000x1 S100000 [] [0] [0] 1
  scatter_S10000_S100000x1_S100000_n_0_0_1_wf : ScatterDims.WF S10000 S100000x1 S100000 [] [0] [0] 1
  gather_S110000x256_S100000x1_S100000x256_1_0_n_n_0_1_1256_wf : GatherDims.WF S110000x256 S100000x1 S100000x256 [1] [0] [] [0] [] 1 ![1, 256]
  scatter_S10000x256_S100000x1_S100000x256_1_0_0_1_wf : ScatterDims.WF S10000x256 S100000x1 S100000x256 [1] [0] [0] 1
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S1210000x128.size a
  hwx0_0 : ∀ i : grid0.Coords, EltTy.bits .f32 = 32 ∨ (Rect.block (s := S1210000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1210000x1.size a
  hwx0_1 : ∀ i : grid0.Coords, EltTy.bits .f32 = 32 ∨ (Rect.block (s := S1210000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S1210000x128.size a
  hwx0_2 : ∀ i : grid0.Coords, EltTy.bits .f32 = 32 ∨ (Rect.block (s := S1210000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S110000x128.size a
  hwx1_0 : ∀ i : grid1.Coords, EltTy.bits .f32 = 32 ∨ (Rect.block (s := S110000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S110000x1.size a
  hwx1_1 : ∀ i : grid1.Coords, EltTy.bits .f32 = 32 ∨ (Rect.block (s := S110000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x1.size a ≤ S256x1.size a
  hwx1_4 : ∀ i : grid1.Coords, EltTy.bits .f32 = 32 ∨ (Rect.block (s := S256x1) S256x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x256.size a ≤ S110000x256.size a
  hwx1_5 : ∀ i : grid1.Coords, EltTy.bits .f32 = 32 ∨ (Rect.block (s := S110000x256) S10000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S110000x1.size a
  hwx1_6 : ∀ i : grid1.Coords, EltTy.bits .f32 = 32 ∨ (Rect.block (s := S110000x1) S10000x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S110000x256.size a
  hwx2_0 : ∀ i : grid2.Coords, EltTy.bits .f32 = 32 ∨ (Rect.block (s := S110000x256) S5000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S110000x1.size a
  hwx2_1 : ∀ i : grid2.Coords, EltTy.bits .f32 = 32 ∨ (Rect.block (s := S110000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S110000x256.size a
  hwx2_2 : ∀ i : grid2.Coords, EltTy.bits .f32 = 32 ∨ (Rect.block (s := S110000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S10000x256.size a
  hwx3_0 : ∀ i : grid3.Coords, EltTy.bits .f32 = 32 ∨ (Rect.block (s := S10000x256) S10000x256.size (cc3_transform_0 i) (hinb3_0 i)).WholeWords (EltTy.packing .f32)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S10000x1.size a
  hwx3_1 : ∀ i : grid3.Coords, EltTy.bits .f32 = 32 ∨ (Rect.block (s := S10000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S256x128.size a
  hwx3_2 : ∀ i : grid3.Coords, EltTy.bits .f32 = 32 ∨ (Rect.block (s := S256x128) S256x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x1.size a ≤ S128x1.size a
  hwx3_4 : ∀ i : grid3.Coords, EltTy.bits .f32 = 32 ∨ (Rect.block (s := S128x1) S128x1.size (cc3_transform_4 i) (hinb3_4 i)).WholeWords (EltTy.packing .f32)
  hstage3_5 : ∀ j, (stage3_5 j).IsWhole
  nbuf3_5 : grid3.bufCount reads3_5 false = 1
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S10000x128.size a
  hwx3_5 : ∀ i : grid3.Coords, EltTy.bits .f32 = 32 ∨ (Rect.block (s := S10000x128) S10000x128.size (cc3_transform_5 i) (hinb3_5 i)).WholeWords (EltTy.packing .f32)
  hstage3_6 : ∀ j, (stage3_6 j).IsWhole
  nbuf3_6 : grid3.bufCount reads3_6 false = 1
  hreads3_6 : ∀ i i' : grid3.Coords, (∀ a, reads3_6 a = true → i a = i' a) → cc3_transform_6 i = cc3_transform_6 i'
  hinb3_6 : ∀ (i : grid3.Coords) a, (cc3_transform_6 i a + 1) * S10000x1.size a ≤ S10000x1.size a
  hwx3_6 : ∀ i : grid3.Coords, EltTy.bits .f32 = 32 ∨ (Rect.block (s := S10000x1) S10000x1.size (cc3_transform_6 i) (hinb3_6 i)).WholeWords (EltTy.packing .f32)

variable [Facts₀]

def scatter_S1210000_S1100000x1_S1100000_n_0_0_1 : ScatterDims S1210000 S1100000x1 S1100000 where
  updateWindowDims := []
  insertedWindowDims := [0]
  scatterDimsToOperandDims := [0]
  indexVectorDim := 1
  wf := scatter_S1210000_S1100000x1_S1100000_n_0_0_1_wf
def scatter_S110000_S1100000x1_S1100000_n_0_0_1 : ScatterDims S110000 S1100000x1 S1100000 where
  updateWindowDims := []
  insertedWindowDims := [0]
  scatterDimsToOperandDims := [0]
  indexVectorDim := 1
  wf := scatter_S110000_S1100000x1_S1100000_n_0_0_1_wf
def gather_S1210000x128_S1100000x1_S1100000x128_1_0_n_n_0_1_1128 : GatherDims S1210000x128 S1100000x1 S1100000x128 where
  offsetDims := [1]
  collapsedSliceDims := [0]
  operandBatchingDims := []
  startIndicesBatchingDims := []
  startIndexMap := [0]
  indexVectorDim := 1
  sliceSizes := ![1, 128]
  wf := gather_S1210000x128_S1100000x1_S1100000x128_1_0_n_n_0_1_1128_wf
def scatter_S110000x128_S1100000x1_S1100000x128_1_0_0_1 : ScatterDims S110000x128 S1100000x1 S1100000x128 where
  updateWindowDims := [1]
  insertedWindowDims := [0]
  scatterDimsToOperandDims := [0]
  indexVectorDim := 1
  wf := scatter_S110000x128_S1100000x1_S1100000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x1_S10000x1_1_0_0_1_n_n : DotDims S10000x256 S256x1 S10000x1 where
  lhsContracting := [1]
  rhsContracting := [0]
  lhsNonContracting := [0]
  rhsNonContracting := [1]
  lhsBatch := []
  rhsBatch := []
  wf := dot_S10000x256_S256x1_S10000x1_1_0_0_1_n_n_wf
def scatter_S110000_S100000x1_S100000_n_0_0_1 : ScatterDims S110000 S100000x1 S100000 where
  updateWindowDims := []
  insertedWindowDims := [0]
  scatterDimsToOperandDims := [0]
  indexVectorDim := 1
  wf := scatter_S110000_S100000x1_S100000_n_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def gather_S110000x256_S100000x1_S100000x256_1_0_n_n_0_1_1256 : GatherDims S110000x256 S100000x1 S100000x256 where
  offsetDims := [1]
  collapsedSliceDims := [0]
  operandBatchingDims := []
  startIndicesBatchingDims := []
  startIndexMap := [0]
  indexVectorDim := 1
  sliceSizes := ![1, 256]
  wf := gather_S110000x256_S100000x1_S100000x256_1_0_n_n_0_1_1256_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S256x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24_0) S10000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v24_1) S10000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v24_0) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v46) S10000x256.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v47) S10000x1.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v48) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S128x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49_0) S10000x128.size cc3_transform_5 reads3_5 true false 1 stage3_5 sem3_5
    hrank3 hreads3_5 hinb3_5 nbuf3_5 (Memref.isWhole_whole _) hwx3_5 hstage3_5

abbrev win3_6 : Pipeline.Window sig grid3 :=
  Pipeline.Window.ofSpec (Memref.whole main_v49_1) S10000x1.size cc3_transform_6 reads3_6 true false 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S1210000x128 : Shape := ⟨2, ![1210000, 128]⟩
abbrev S128x256 : Shape := ⟨2, ![128, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S128x1 : Shape := ⟨2, ![128, 1]⟩
abbrev S1100000 : Shape := ⟨1, ![1100000]⟩
abbrev S100000 : Shape := ⟨1, ![100000]⟩
abbrev S_ : Shape := ⟨0, ![]⟩
abbrev S1210000 : Shape := ⟨1, ![1210000]⟩
abbrev S1100000x1 : Shape := ⟨2, ![1100000, 1]⟩
abbrev S110000 : Shape := ⟨1, ![110000]⟩
abbrev S1210000x1 : Shape := ⟨2, ![1210000, 1]⟩
abbrev S1100000x128 : Shape := ⟨2, ![1100000, 128]⟩
abbrev S110000x128 : Shape := ⟨2, ![110000, 128]⟩
abbrev S110000x1 : Shape := ⟨2, ![110000, 1]⟩
abbrev S110000x256 : Shape := ⟨2, ![110000, 256]⟩
abbrev S1x256 : Shape := ⟨2, ![1, 256]⟩
abbrev S100000x1 : Shape := ⟨2, ![100000, 1]⟩
abbrev S10000 : Shape := ⟨1, ![10000]⟩
abbrev S100000x256 : Shape := ⟨2, ![100000, 256]⟩
abbrev S10000x256 : Shape := ⟨2, ![10000, 256]⟩
abbrev S10000x1 : Shape := ⟨2, ![10000, 1]⟩
abbrev S10000x128 : Shape := ⟨2, ![10000, 128]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S1210000x128, .f32⟩
  | .hbm, ⟨1, _⟩ => ⟨S128x256, .f32⟩
  | .hbm, ⟨2, _⟩ => ⟨S256, .f32⟩
  | .hbm, ⟨3, _⟩ => ⟨S256x1, .f32⟩
  | .hbm, ⟨4, _⟩ => ⟨S256x128, .f32⟩
  | .hbm, ⟨5, _⟩ => ⟨S128, .f32⟩
  | .hbm, ⟨6, _⟩ => ⟨S128x1, .f32⟩
  | .hbm, ⟨7, _⟩ => ⟨S1100000, .i32⟩
  | .hbm, ⟨8, _⟩ => ⟨S1100000, .i32⟩
  | .hbm, ⟨9, _⟩ => ⟨S100000, .i32⟩
  | .hbm, ⟨10, _⟩ => ⟨S100000, .i32⟩
  | .hbm, ⟨11, _⟩ => ⟨S_, .f32⟩
  | .hbm, ⟨12, _⟩ => ⟨S1100000, .f32⟩
  | .hbm, ⟨13, _⟩ => ⟨S_, .f32⟩
  | .hbm, ⟨14, _⟩ => ⟨S1210000, .f32⟩
  | .hbm, ⟨15, _⟩ => ⟨S1100000x1, .i32⟩
  | .hbm, ⟨16, _⟩ => ⟨S1210000, .f32⟩
  | .hbm, ⟨17, _⟩ => ⟨S_, .f32⟩
  | .hbm, ⟨18, _⟩ => ⟨S_, .f32⟩
  | .hbm, ⟨19, _⟩ => ⟨S1210000, .f32⟩
  | .hbm, ⟨20, _⟩ => ⟨S1210000, .f32⟩
  | .hbm, ⟨21, _⟩ => ⟨S_, .f32⟩
  | .hbm, ⟨22, _⟩ => ⟨S110000, .f32⟩
  | .hbm, ⟨23, _⟩ => ⟨S1100000x1, .i32⟩
  | .hbm, ⟨24, _⟩ => ⟨S110000, .f32⟩
  | .hbm, ⟨25, _⟩ => ⟨S_, .f32⟩
  | .hbm, ⟨26, _⟩ => ⟨S_, .f32⟩
  | .hbm, ⟨27, _⟩ => ⟨S110000, .f32⟩
  | .hbm, ⟨28, _⟩ => ⟨S110000, .f32⟩
  | .hbm, ⟨29, _⟩ => ⟨S1210000, .f32⟩
  | .hbm, ⟨30, _⟩ => ⟨S1210000x1, .f32⟩
  | .hbm, ⟨31, _⟩ => ⟨S1210000x128, .f32⟩
  | .hbm, ⟨32, _⟩ => ⟨S1210000x128, .f32⟩
  | .hbm, ⟨33, _⟩ => ⟨S_, .i32⟩
  | .hbm, ⟨34, _⟩ => ⟨S1100000, .i32⟩
  | .hbm, ⟨35, _⟩ => ⟨S1100000, .i1⟩
  | .hbm, ⟨36, _⟩ => ⟨S_, .i32⟩
  | .hbm, ⟨37, _⟩ => ⟨S1100000, .i32⟩
  | .hbm, ⟨38, _⟩ => ⟨S1100000, .i32⟩
  | .hbm, ⟨39, _⟩ => ⟨S1100000, .i32⟩
  | .hbm, ⟨40, _⟩ => ⟨S1100000x1, .i32⟩
  | .hbm, ⟨41, _⟩ => ⟨S1100000x128, .f32⟩
  | .hbm, ⟨42, _⟩ => ⟨S_, .f32⟩
  | .hbm, ⟨43, _⟩ => ⟨S110000x128, .f32⟩
  | .hbm, ⟨44, _⟩ => ⟨S1100000x1, .i32⟩
  | .hbm, ⟨45, _⟩ => ⟨S110000x128, .f32⟩
  | .hbm, ⟨46, _⟩ => ⟨S110000, .f32⟩
  | .hbm, ⟨47, _⟩ => ⟨S110000x1, .f32⟩
  | .hbm, ⟨48, _⟩ => ⟨S110000x128, .f32⟩
  | .hbm, ⟨49, _⟩ => ⟨S110000x128, .f32⟩
  | .hbm, ⟨50, _⟩ => ⟨S110000x256, .f32⟩
  | .hbm, ⟨51, _⟩ => ⟨S1x256, .f32⟩
  | .hbm, ⟨52, _⟩ => ⟨S110000x256, .f32⟩
  | .hbm, ⟨53, _⟩ => ⟨S110000x256, .f32⟩
  | .hbm, ⟨54, _⟩ => ⟨S110000x1, .f32⟩
  | .hbm, ⟨55, _⟩ => ⟨S110000x1, .f32⟩
  | .hbm, ⟨56, _⟩ => ⟨S110000x1, .f32⟩
  | .hbm, ⟨57, _⟩ => ⟨S_, .f32⟩
  | .hbm, ⟨58, _⟩ => ⟨S110000x1, .f32⟩
  | .hbm, ⟨59, _⟩ => ⟨S110000x1, .f32⟩
  | .hbm, ⟨60, _⟩ => ⟨S_, .f32⟩
  | .hbm, ⟨61, _⟩ => ⟨S110000x1, .f32⟩
  | .hbm, ⟨62, _⟩ => ⟨S110000x1, .f32⟩
  | .hbm, ⟨63, _⟩ => ⟨S110000x256, .f32⟩
  | .hbm, ⟨64, _⟩ => ⟨S110000x256, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S110000, .f32⟩
  | .hbm, ⟨69, _⟩ => ⟨S100000x1, .i32⟩
  | .hbm, ⟨70, _⟩ => ⟨S110000, .f32⟩
  | .hbm, ⟨71, _⟩ => ⟨S_, .f32⟩
  | .hbm, ⟨72, _⟩ => ⟨S_, .f32⟩
  | .hbm, ⟨73, _⟩ => ⟨S110000, .f32⟩
  | .hbm, ⟨74, _⟩ => ⟨S110000, .f32⟩
  | .hbm, ⟨75, _⟩ => ⟨S_, .f32⟩
  | .hbm, ⟨76, _⟩ => ⟨S10000, .f32⟩
  | .hbm, ⟨77, _⟩ => ⟨S100000x1, .i32⟩
  | .hbm, ⟨78, _⟩ => ⟨S10000, .f32⟩
  | .hbm, ⟨79, _⟩ => ⟨S_, .f32⟩
  | .hbm, ⟨80, _⟩ => ⟨S_, .f32⟩
  | .hbm, ⟨81, _⟩ => ⟨S10000, .f32⟩
  | .hbm, ⟨82, _⟩ => ⟨S10000, .f32⟩
  | .hbm, ⟨83, _⟩ => ⟨S110000, .f32⟩
  | .hbm, ⟨84, _⟩ => ⟨S110000x1, .f32⟩
  | .hbm, ⟨85, _⟩ => ⟨S110000x256, .f32⟩
  | .hbm, ⟨86, _⟩ => ⟨S110000x256, .f32⟩
  | .hbm, ⟨87, _⟩ => ⟨S_, .i32⟩
  | .hbm, ⟨88, _⟩ => ⟨S100000, .i32⟩
  | .hbm, ⟨89, _⟩ => ⟨S100000, .i1⟩
  | .hbm, ⟨90, _⟩ => ⟨S_, .i32⟩
  | .hbm, ⟨91, _⟩ => ⟨S100000, .i32⟩
  | .hbm, ⟨92, _⟩ => ⟨S100000, .i32⟩
  | .hbm, ⟨93, _⟩ => ⟨S100000, .i32⟩
  | .hbm, ⟨94, _⟩ => ⟨S100000x1, .i32⟩
  | .hbm, ⟨95, _⟩ => ⟨S100000x256, .f32⟩
  | .hbm, ⟨96, _⟩ => ⟨S_, .f32⟩
  | .hbm, ⟨97, _⟩ => ⟨S10000x256, .f32⟩
  | .hbm, ⟨98, _⟩ => ⟨S100000x1, .i32⟩
  | .hbm, ⟨99, _⟩ => ⟨S10000x256, .f32⟩
  | .hbm, ⟨100, _⟩ => ⟨S10000, .f32⟩
  | .hbm, ⟨101, _⟩ => ⟨S10000x1, .f32⟩
  | .hbm, ⟨102, _⟩ => ⟨S10000x256, .f32⟩
  | .hbm, ⟨103, _⟩ => ⟨S10000x256, .f32⟩
  | .hbm, ⟨104, _⟩ => ⟨S10000x128, .f32⟩
  | .hbm, ⟨105, _⟩ => ⟨S1x128, .f32⟩
  | .hbm, ⟨106, _⟩ => ⟨S10000x128, .f32⟩
  | .hbm, ⟨107, _⟩ => ⟨S10000x128, .f32⟩
  | .hbm, ⟨108, _⟩ => ⟨S10000x1, .f32⟩
  | .hbm, ⟨109, _⟩ => ⟨S10000x1, .f32⟩
  | .hbm, ⟨110, _⟩ => ⟨S10000x1, .f32⟩
  | .hbm, ⟨111, _⟩ => ⟨S_, .f32⟩
  | .hbm, ⟨112, _⟩ => ⟨S10000x1, .f32⟩
  | .hbm, ⟨113, _⟩ => ⟨S10000x1, .f32⟩
  | .hbm, ⟨114, _⟩ => ⟨S_, .f32⟩
  | .hbm, ⟨115, _⟩ => ⟨S10000x1, .f32⟩
  | .hbm, ⟨116, _⟩ => ⟨S10000x1, .f32⟩
  | .hbm, ⟨117, _⟩ => ⟨S10000x128, .f32⟩
  | .hbm, ⟨118, _⟩ => ⟨S10000x128, .f32⟩
  | _, _ => ⟨S1210000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v4 : Ref sig .tc := ⟨.hbm, 20, rfl⟩
abbrev main_cst_2 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_3 : Ref sig .tc := ⟨.hbm, 25, rfl⟩
abbrev main_call1_v0 : Ref sig .tc := ⟨.hbm, 26, rfl⟩
abbrev main_call1_v1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_cst_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_call2_v0 : Ref sig .tc := ⟨.hbm, 72, rfl⟩
abbrev main_call2_v1 : Ref sig .tc := ⟨.hbm, 73, rfl⟩
abbrev main_v44 : Ref sig .tc := ⟨.hbm, 74, rfl⟩
abbrev main_cst_11 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_12 : Ref sig .tc := ⟨.hbm, 79, rfl⟩
abbrev main_call3_v0 : Ref sig .tc := ⟨.hbm, 80, rfl⟩
abbrev main_call3_v1 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_13 : Ref sig .tc := ⟨.hbm, 87, rfl⟩
abbrev main_v53 : Ref sig .tc := ⟨.hbm, 88, rfl⟩
abbrev main_v54 : Ref sig .tc := ⟨.hbm, 89, rfl⟩
abbrev main_c_14 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_15 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_16 : Ref sig .tc := ⟨.hbm, 111, rfl⟩
abbrev main_v74 : Ref sig .tc := ⟨.hbm, 112, rfl⟩
abbrev main_v75 : Ref sig .tc := ⟨.hbm, 113, rfl⟩
abbrev main_cst_17 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩

abbrev nD : Nat := 1
abbrev τ : Topo := Topo.v7x

variable {F : FTy → Type} [FloatOps F]

class Facts₀ : Prop where
  bcast_S_S1100000 : S_.BroadcastsInDim S1100000 (![] : Fin 0 → Fin S1100000.rank)
  bcast_S_S1210000 : S_.BroadcastsInDim S1210000 (![] : Fin 0 → Fin S1210000.rank)
  bcast_S1100000_S1100000x1_0 : S1100000.BroadcastsInDim S1100000x1 (![0] : Fin 1 → Fin S1100000x1.rank)
  bcast_S_S110000 : S_.BroadcastsInDim S110000 (![] : Fin 0 → Fin S110000.rank)
  bcast_S1210000_S1210000x1_0 : S1210000.BroadcastsInDim S1210000x1 (![0] : Fin 1 → Fin S1210000x1.rank)
  bcast_S1210000x1_S1210000x128_0_1 : S1210000x1.BroadcastsInDim S1210000x128 (![0, 1] : Fin 2 → Fin S1210000x128.rank)
  bcast_S_S110000x128 : S_.BroadcastsInDim S110000x128 (![] : Fin 0 → Fin S110000x128.rank)
  bcast_S110000_S110000x1_0 : S110000.BroadcastsInDim S110000x1 (![0] : Fin 1 → Fin S110000x1.rank)
  bcast_S110000x1_S110000x128_0_1 : S110000x1.BroadcastsInDim S110000x128 (![0, 1] : Fin 2 → Fin S110000x128.rank)
  bcast_S256_S1x256_1 : S256.BroadcastsInDim S1x256 (![1] : Fin 1 → Fin S1x256.rank)
  bcast_S1x256_S110000x256_0_1 : S1x256.BroadcastsInDim S110000x256 (![0, 1] : Fin 2 → Fin S110000x256.rank)
  bcast_S_S110000x1 : S_.BroadcastsInDim S110000x1 (![] : Fin 0 → Fin S110000x1.rank)
  bcast_S110000x1_S110000x256_0_1 : S110000x1.BroadcastsInDim S110000x256 (![0, 1] : Fin 2 → Fin S110000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S10000 : S_.BroadcastsInDim S10000 (![] : Fin 0 → Fin S10000.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  scatter_S1210000_S1100000x1_S1100000_n_0_0_1_wf : ScatterDims.WF S1210000 S1100000x1 S1100000 [] [0] [0] 1
  scatter_S110000_S1100000x1_S1100000_n_0_0_1_wf : ScatterDims.WF S110000 S1100000x1 S1100000 [] [0] [0] 1
  gather_S1210000x128_S1100000x1_S1100000x128_1_0_n_n_0_1_1128_wf : GatherDims.WF S1210000x128 S1100000x1 S1100000x128 [1] [0] [] [0] [] 1 ![1, 128]
  scatter_S110000x128_S1100000x1_S1100000x128_1_0_0_1_wf : ScatterDims.WF S110000x128 S1100000x1 S1100000x128 [1] [0] [0] 1
  dot_S110000x128_S128x256_S110000x256_1_0_0_1_n_n_wf : DotDims.WF S110000x128 S128x256 S110000x256 [1] [0] [0] [1] [] []
  dot_S110000x256_S256x1_S110000x1_1_0_0_1_n_n_wf : DotDims.WF S110000x256 S256x1 S110000x1 [1] [0] [0] [1] [] []
  scatter_S110000_S100000x1_S100000_n_0_0_1_wf : ScatterDims.WF S110000 S100000x1 S100000 [] [0] [0] 1
  scatter_S10000_S100000x1_S100000_n_0_0_1_wf : ScatterDims.WF S10000 S100000x1 S100000 [] [0] [0] 1
  gather_S110000x256_S100000x1_S100000x256_1_0_n_n_0_1_1256_wf : GatherDims.WF S110000x256 S100000x1 S100000x256 [1] [0] [] [0] [] 1 ![1, 256]
  scatter_S10000x256_S100000x1_S100000x256_1_0_0_1_wf : ScatterDims.WF S10000x256 S100000x1 S100000x256 [1] [0] [0] 1
  dot_S10000x256_S256x128_S10000x128_1_0_0_1_n_n_wf : DotDims.WF S10000x256 S256x128 S10000x128 [1] [0] [0] [1] [] []
  dot_S10000x128_S128x1_S10000x1_1_0_0_1_n_n_wf : DotDims.WF S10000x128 S128x1 S10000x1 [1] [0] [0] [1] [] []

variable [Facts₀]

def scatter_S1210000_S1100000x1_S1100000_n_0_0_1 : ScatterDims S1210000 S1100000x1 S1100000 where
  updateWindowDims := []
  insertedWindowDims := [0]
  scatterDimsToOperandDims := [0]
  indexVectorDim := 1
  wf := scatter_S1210000_S1100000x1_S1100000_n_0_0_1_wf
def scatter_S110000_S1100000x1_S1100000_n_0_0_1 : ScatterDims S110000 S1100000x1 S1100000 where
  updateWindowDims := []
  insertedWindowDims := [0]
  scatterDimsToOperandDims := [0]
  indexVectorDim := 1
  wf := scatter_S110000_S1100000x1_S1100000_n_0_0_1_wf
def gather_S1210000x128_S1100000x1_S1100000x128_1_0_n_n_0_1_1128 : GatherDims S1210000x128 S1100000x1 S1100000x128 where
  offsetDims := [1]
  collapsedSliceDims := [0]
  operandBatchingDims := []
  startIndicesBatchingDims := []
  startIndexMap := [0]
  indexVectorDim := 1
  sliceSizes := ![1, 128]
  wf := gather_S1210000x128_S1100000x1_S1100000x128_1_0_n_n_0_1_1128_wf
def scatter_S110000x128_S1100000x1_S1100000x128_1_0_0_1 : ScatterDims S110000x128 S1100000x1 S1100000x128 where
  updateWindowDims := [1]
  insertedWindowDims := [0]
  scatterDimsToOperandDims := [0]
  indexVectorDim := 1
  wf := scatter_S110000x128_S1100000x1_S1100000x128_1_0_0_1_wf
def dot_S110000x128_S128x256_S110000x256_1_0_0_1_n_n : DotDims S110000x128 S128x256 S110000x256 where
  lhsContracting := [1]
  rhsContracting := [0]
  lhsNonContracting := [0]
  rhsNonContracting := [1]
  lhsBatch := []
  rhsBatch := []
  wf := dot_S110000x128_S128x256_S110000x256_1_0_0_1_n_n_wf
def dot_S110000x256_S256x1_S110000x1_1_0_0_1_n_n : DotDims S110000x256 S256x1 S110000x1 where
  lhsContracting := [1]
  rhsContracting := [0]
  lhsNonContracting := [0]
  rhsNonContracting := [1]
  lhsBatch := []
  rhsBatch := []
  wf := dot_S110000x256_S256x1_S110000x1_1_0_0_1_n_n_wf
def scatter_S110000_S100000x1_S100000_n_0_0_1 : ScatterDims S110000 S100000x1 S100000 where
  updateWindowDims := []
  insertedWindowDims := [0]
  scatterDimsToOperandDims := [0]
  indexVectorDim := 1
  wf := scatter_S110000_S100000x1_S100000_n_0_0_1_wf
def scatter_S10000_S100000x1_S100000_n_0_0_1 : ScatterDims S10000 S100000x1 S100000 where
  updateWindowDims := []
  insertedWindowDims := [0]
  scatterDimsToOperandDims := [0]
  indexVectorDim := 1
  wf := scatter_S10000_S100000x1_S100000_n_0_0_1_wf
def gather_S110000x256_S100000x1_S100000x256_1_0_n_n_0_1_1256 : GatherDims S110000x256 S100000x1 S100000x256 where
  offsetDims := [1]
  collapsedSliceDims := [0]
  operandBatchingDims := []
  startIndicesBatchingDims := []
  startIndexMap := [0]
  indexVectorDim := 1
  sliceSizes := ![1, 256]
  wf := gather_S110000x256_S100000x1_S100000x256_1_0_n_n_0_1_1256_wf
def scatter_S10000x256_S100000x1_S100000x256_1_0_0_1 : ScatterDims S10000x256 S100000x1 S100000x256 where
  updateWindowDims := [1]
  insertedWindowDims := [0]
  scatterDimsToOperandDims := [0]
  indexVectorDim := 1
  wf := scatter_S10000x256_S100000x1_S100000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.Spec.lean ====
/-
  The mathematics both programs compute, index by index, at the ideal values (extended reals).

  One layer of the network takes node features h : [n, d], an out-degree vector over the n source rows, an
  in-degree vector over the destination rows, a weight matrix W : [d, e], a bias b : [e] and an attention column
  attn : [e, 1]. Source rows are scaled by the inverse square root of their out-degree; the scaled rows are
  gathered along the edges and summed into their destination rows (that aggregation is shared host code and is
  never opened here); a destination row is scaled by the inverse square root of its in-degree, multiplied by W
  and shifted by b; the gate of a row is the logistic function of the row's inner product with attn; and the
  layer's output is the row times its gate. The four pieces below are those formulas, for any extents.
-/
import Idealize.ShloMosaic.Lib.ValueIdx
import Idealize.ShloMosaic.PureOps.Ideal
import Idealize.ShloMosaic.PureOps.Ideal.Laws

noncomputable section

namespace Cert.Gcn

open Idealize.ShloMosaic Idealize.ShloMosaic.ValueIdx

/-- An array [a, b] of ideal f32 values. -/
abbrev Mat (a b : ℕ) : Type := FVec Ideal (⟨2, ![a, b]⟩ : Shape) .f32
/-- A vector [a] of ideal f32 values. -/
abbrev Vec1 (a : ℕ) : Type := FVec Ideal (⟨1, ![a]⟩ : Shape) .f32

variable {n d e : ℕ}

/-- Row p of h times the inverse square root of the degree of p. -/
def scale (h : Mat n d) (deg : Vec1 n) : Mat n d :=
  fun i => h i * Ideal.rsqrt (deg (ix1 (n := n) (i 0)))

/-- The linear stage: entry (p, q) is the sum over k of agg (p, k) · rsqrt (deg p) · W (k, q), plus b q. -/
def lin (agg : Mat n d) (deg : Vec1 n) (W : Mat d e) (b : Vec1 e) : Mat n e :=
  fun i => (∑ k : Fin d, agg (ix2 (n0 := n) (i 0) k) * Ideal.rsqrt (deg (ix1 (n := n) (i 0))) * W (ix2 k (n1 := e) (i 1)))
    + b (ix1 (n := e) (i 1))

/-- The gate of row p: the logistic function of the inner product of row p of hd with the attention column. -/
def gate (hd : Mat n e) (attn : Mat e 1) : Mat n 1 :=
  fun i => Ideal.logistic (∑ k : Fin e, hd (ix2 (n0 := n) (i 0) k) * attn (ix2 k (0 : Fin 1)))

/-- Row p of hd times the gate of p. -/
def gated (hd : Mat n e) (al : Mat n 1) : Mat n e :=
  fun i => hd i * al (ix2 (n0 := n) (i 0) (0 : Fin 1))

theorem scale_apply (h : Mat n d) (deg : Vec1 n) (p : Fin n) (q : Fin d) :
    scale h deg (ix2 p q) = h (ix2 p q) * Ideal.rsqrt (deg (ix1 p)) := rfl

theorem lin_apply (agg : Mat n d) (deg : Vec1 n) (W : Mat d e) (b : Vec1 e) (p : Fin n) (q : Fin e) :
    lin agg deg W b (ix2 p q) = (∑ k : Fin d, agg (ix2 p k) * Ideal.rsqrt (deg (ix1 p)) * W (ix2 k q)) + b (ix1 q) := rfl

theorem gate_apply (hd : Mat n e) (attn : Mat e 1) (p : Fin n) :
    gate hd attn (ix2 p (0 : Fin 1)) = Ideal.logistic (∑ k : Fin e, hd (ix2 p k) * attn (ix2 k (0 : Fin 1))) := rfl

theorem gated_apply (hd : Mat n e) (al : Mat n 1) (p : Fin n) (q : Fin e) :
    gated hd al (ix2 p q) = hd (ix2 p q) * al (ix2 p (0 : Fin 1)) := rfl

end Cert.Gcn

end
-- ==== Proof.Chain.lean ====
/-
  The whole program as one composition, at the ideal values.

  Each layer: the out-degree of a source row is the number of edges leaving it, at least one (a sum of ones
  scattered along the source indices, then a maximum with one); likewise the in-degree of a destination row.
  The source rows are scaled by the inverse square root of their out-degree, gathered along the edges (a negative
  source index counts from the end) and summed into their destination rows; the destination rows go through the
  linear stage, the gate and the gated product of the specification. The second layer takes the first layer's
  gated output as its features. The results of the program are the second layer's gated output and its gate.
  The degree and aggregation terms are the host operations' own, never opened: both programs apply them alike.
-/
import proofs.«155848_j37503654429370_1_alg».proof.Proof.Gen.KernelIdeal
import proofs.«155848_j37503654429370_1_alg».proof.Proof.Spec

noncomputable section

namespace Cert.KernelIdeal.GcnChain

open Cert.KernelIdeal Cert.KernelIdeal.Facts₀ Idealize.ShloMosaic Cert.Gcn

/-- A float array of the given shape at the ideal values. -/
abbrev F32 (s : Shape) : Type := FVec Ideal s .f32
/-- An array of 32-bit integers of the given shape. -/
abbrev I32 (s : Shape) : Type := IVec s 32

/-! ## Degrees -/

/-- Out-degrees of the first layer's 1210000 source rows over its 1100000 edges, at least one. -/
def degOut1 (src : I32 S1100000) : F32 S1210000 :=
  maximumf (broadcastInDim S1210000 ![] bcast_S_S1210000 (constant S_ .f32 0x3F800000#32))
    (Host.scatterAdd scatter_S1210000_S1100000x1_S1100000_n_0_0_1
      (broadcastInDim S1210000 ![] bcast_S_S1210000 (constant S_ .f32 0x00000000#32))
      (broadcastInDim S1100000x1 ![0] bcast_S1100000_S1100000x1_0 src)
      (broadcastInDim S1100000 ![] bcast_S_S1100000 (constant S_ .f32 0x3F800000#32)))

/-- In-degrees of the first layer's 110000 destination rows, at least one. -/
def degIn1 (dst : I32 S1100000) : F32 S110000 :=
  maximumf (broadcastInDim S110000 ![] bcast_S_S110000 (constant S_ .f32 0x3F800000#32))
    (Host.scatterAdd scatter_S110000_S1100000x1_S1100000_n_0_0_1
      (broadcastInDim S110000 ![] bcast_S_S110000 (constant S_ .f32 0x00000000#32))
      (broadcastInDim S1100000x1 ![0] bcast_S1100000_S1100000x1_0 dst)
      (broadcastInDim S1100000 ![] bcast_S_S1100000 (constant S_ .f32 0x3F800000#32)))

/-- Out-degrees of the second layer's 110000 source rows over its 100000 edges, at least one. -/
def degOut2 (src : I32 S100000) : F32 S110000 :=
  maximumf (broadcastInDim S110000 ![] bcast_S_S110000 (constant S_ .f32 0x3F800000#32))
    (Host.scatterAdd scatter_S110000_S100000x1_S100000_n_0_0_1
      (broadcastInDim S110000 ![] bcast_S_S110000 (constant S_ .f32 0x00000000#32))
      (broadcastInDim S100000x1 ![0] bcast_S100000_S100000x1_0 src)
      (broadcastInDim S100000 ![] bcast_S_S100000 (constant S_ .f32 0x3F800000#32)))

/-- In-degrees of the second layer's 10000 destination rows, at least one. -/
def degIn2 (dst : I32 S100000) : F32 S10000 :=
  maximumf (broadcastInDim S10000 ![] bcast_S_S10000 (constant S_ .f32 0x3F800000#32))
    (Host.scatterAdd scatter_S10000_S100000x1_S100000_n_0_0_1
      (broadcastInDim S10000 ![] bcast_S_S10000 (constant S_ .f32 0x00000000#32))
      (broadcastInDim S100000x1 ![0] bcast_S100000_S100000x1_0 dst)
      (broadcastInDim S100000 ![] bcast_S_S100000 (constant S_ .f32 0x3F800000#32)))

/-! ## Aggregation along the edges -/

/-- First layer: rows of hs gathered at the source indices (a negative index counts from the end) and summed
    into the destination rows. -/
def agg1 (hs : F32 S1210000x128) (src dst : I32 S1100000) : F32 S110000x128 :=
  Host.scatterAdd scatter_S110000x128_S1100000x1_S1100000x128_1_0_0_1
    (broadcastInDim S110000x128 ![] bcast_S_S110000x128 (constant S_ .f32 0x00000000#32))
    (broadcastInDim S1100000x1 ![0] bcast_S1100000_S1100000x1_0 dst)
    (Host.gather gather_S1210000x128_S1100000x1_S1100000x128_1_0_n_n_0_1_1128 hs
      (broadcastInDim S1100000x1 ![0] bcast_S1100000_S1100000x1_0
        (select (cmpi .slt src (broadcastInDim S1100000 ![] bcast_S_S1100000 (constantI S_ 32 0#32)))
          (addi src (broadcastInDim S1100000 ![] bcast_S_S1100000 (constantI S_ 32 1210000#32)))
          src)))

/-- Second layer: the same over 100000 edges, from 110000 source rows into 10000 destination rows. -/
def agg2 (hs : F32 S110000x256) (src dst : I32 S100000) : F32 S10000x256 :=
  Host.scatterAdd scatter_S10000x256_S100000x1_S100000x256_1_0_0_1
    (broadcastInDim S10000x256 ![] bcast_S_S10000x256 (constant S_ .f32 0x00000000#32))
    (broadcastInDim S100000x1 ![0] bcast_S100000_S100000x1_0 dst)
    (Host.gather gather_S110000x256_S100000x1_S100000x256_1_0_n_n_0_1_1256 hs
      (broadcastInDim S100000x1 ![0] bcast_S100000_S100000x1_0
        (select (cmpi .slt src (broadcastInDim S100000 ![] bcast_S_S100000 (constantI S_ 32 0#32)))
          (addi src (broadcastInDim S100000 ![] bcast_S_S100000 (constantI S_ 32 110000#32)))
          src)))

/-! ## The two layers -/

variable (x0 : F32 S1210000x128) (x1 : F32 S128x256) (x2 : F32 S256) (x3 : F32 S256x1)
  (x4 : F32 S256x128) (x5 : F32 S128) (x6 : F32 S128x1) (x7 x8 : I32 S1100000) (x9 x10 : I32 S100000)

/-- First layer's scaled source rows. -/
def hs1 : F32 S1210000x128 := scale x0 (degOut1 x7)
/-- First layer's linear stage. -/
def hd1 : F32 S110000x256 := lin (agg1 (hs1 x0 x7) x7 x8) (degIn1 x8) x1 x2
/-- First layer's gate. -/
def al1 : F32 S110000x1 := gate (hd1 x0 x1 x2 x7 x8) x3
/-- First layer's output: the second layer's features. -/
def h1 : F32 S110000x256 := gated (hd1 x0 x1 x2 x7 x8) (al1 x0 x1 x2 x3 x7 x8)
/-- Second layer's scaled source rows. -/
def hs2 : F32 S110000x256 := scale (h1 x0 x1 x2 x3 x7 x8) (degOut2 x9)
/-- Second layer's linear stage. -/
def hd2 : F32 S10000x128 := lin (agg2 (hs2 x0 x1 x2 x3 x7 x8 x9) x9 x10) (degIn2 x10) x4 x5
/-- The program's second result: the second layer's gate. -/
def al2 : F32 S10000x1 := gate (hd2 x0 x1 x2 x3 x4 x5 x7 x8 x9 x10) x6
/-- The program's first result: the second layer's gated output. -/
def out : F32 S10000x128 := gated (hd2 x0 x1 x2 x3 x4 x5 x7 x8 x9 x10) (al2 x0 x1 x2 x3 x4 x5 x6 x7 x8 x9 x10)

end Cert.KernelIdeal.GcnChain

end
-- ==== Proof.KHost.lean ====
/-
  The host operations of the kernel program between its regions, read buffer by buffer.

  Before and between the four regions the program computes, with plain array operations, the clipped degrees (a
  sum of ones scattered along an index array, then a maximum with one, the maximum inside a called function), the
  column forms of those degrees and of their inverse square roots, the edge aggregation of a region's result, and
  the bias as a row. Each lemma says what one buffer holds at one boundary, in terms of the argument arrays as
  launched or of the previous region's result; an argument array holds its launch contents at every boundary,
  because nothing writes it. A called function is read once over arbitrary contents at its entry.
-/
import proofs.«155848_j37503654429370_1_alg».proof.Proof.Gen.KernelIdeal.Frame
import proofs.«155848_j37503654429370_1_alg».proof.Proof.Chain
import Idealize.ShloMosaic.Lib.ValueIdx
import Idealize.ShloMosaic.Lib.Pipeline.Value

set_option maxRecDepth 16384

noncomputable section

namespace Cert.KernelIdeal.GcnHost

open Cert.KernelIdeal Cert.KernelIdeal.Gen Cert.KernelIdeal.GcnChain
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Unfold the folds of the host stretches down to the last region boundary and read each operation's result. -/
macro "host_read" : tactic =>
  `(tactic| (dsimp only [W1, W2, W3, W4, W5, W7, W9, W10, W11, W12, W13, W15, hostOps0, hostOps0_1, hostOps0_2, hostOps0_3, hostOps0_4,
      hostOps1, hostOps2, hostOps2_1, hostOps2_2, hostOps2_3, hostOps2_4, hostOps3]; after_results))

/-! ## Two layout forms read at an index -/

/-- A vector [n] as a column [n, 1]: at (p, 0), the vector at p. -/
theorem column_apply {α : Type} {n : ℕ} (v : (⟨1, ![n]⟩ : Shape).Idx → α)
    (h : (⟨1, ![n]⟩ : Shape).BroadcastsInDim ⟨2, ![n, 1]⟩ ![0]) (p : Fin n) :
    broadcastInDim ⟨2, ![n, 1]⟩ ![0] h v (ix2 p (0 : Fin 1)) = v (ix1 p) :=
  broadcastInDim_apply _ h v (ix2 p (0 : Fin 1)) (ix1 p) (fun a => match a with
    | ⟨0, _⟩ => by
      show p.val = if n = 1 then 0 else p.val
      split
      · have := p.isLt; omega
      · rfl)

/-- A vector [b] cast to a row [1, b]: at (0, q), the vector at q. -/
theorem row_apply {α : Type} {b : ℕ} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) := by
  refine shapeCast_apply v h _ _ ?_
  rw [Shape.rowMajor_val_one, Shape.rowMajor_val_two]
  show q.val = 0 * b + q.val
  omega

/-! ## The four calls of the clip function, each over any contents at its entry -/

theorem clip_v4 (Vv : Valuation τ sig (Elt Ideal)) :
    StableHlo.after (hostOps0_1 (F := Ideal)) Vv (Proc.devRef .tc main_v4)
      = maximumf (F := Ideal) (φ := .f32) (broadcastInDim S1210000 ![] Facts₀.bcast_S_S1210000 (Vv (Proc.devRef .tc main_cst_1) : FVec Ideal S_ .f32))
          (Vv (Proc.devRef .tc main_v3) : FVec Ideal S1210000 .f32) := by
  dsimp only [hostOps0_1]; after_results; rfl

theorem clip_v8 (Vv : Valuation τ sig (Elt Ideal)) :
    StableHlo.after (hostOps0_3 (F := Ideal)) Vv (Proc.devRef .tc main_v8)
      = maximumf (F := Ideal) (φ := .f32) (broadcastInDim S110000 ![] Facts₀.bcast_S_S110000 (Vv (Proc.devRef .tc main_cst_3) : FVec Ideal S_ .f32))
          (Vv (Proc.devRef .tc main_v7) : FVec Ideal S110000 .f32) := by
  dsimp only [hostOps0_3]; after_results; rfl

theorem clip_v29 (Vv : Valuation τ sig (Elt Ideal)) :
    StableHlo.after (hostOps2_1 (F := Ideal)) Vv (Proc.devRef .tc main_v29)
      = maximumf (F := Ideal) (φ := .f32) (broadcastInDim S110000 ![] Facts₀.bcast_S_S110000 (Vv (Proc.devRef .tc main_cst_8) : FVec Ideal S_ .f32))
          (Vv (Proc.devRef .tc main_v28) : FVec Ideal S110000 .f32) := by
  dsimp only [hostOps2_1]; after_results; rfl

theorem clip_v33 (Vv : Valuation τ sig (Elt Ideal)) :
    StableHlo.after (hostOps2_3 (F := Ideal)) Vv (Proc.devRef .tc main_v33)
      = maximumf (F := Ideal) (φ := .f32) (broadcastInDim S10000 ![] Facts₀.bcast_S_S10000 (Vv (Proc.devRef .tc main_cst_10) : FVec Ideal S_ .f32))
          (Vv (Proc.devRef .tc main_v32) : FVec Ideal S10000 .f32) := by
  dsimp only [hostOps2_3]; after_results; rfl

/-! ## The two edge aggregations, each over any contents at its stretch's entry -/

set_option maxHeartbeats 2000000 in
theorem agg1_read (Vv : Valuation τ sig (Elt Ideal)) :
    StableHlo.after (hostOps1 (F := Ideal)) Vv (Proc.devRef .tc main_v21)
      = agg1 (Vv (Proc.devRef .tc main_v11) : F32 S1210000x128) (Vv (Proc.devRef .tc main_arg7) : I32 S1100000)
          (Vv (Proc.devRef .tc main_arg8) : I32 S1100000) := by
  dsimp only [hostOps1]; after_results; rfl

set_option maxHeartbeats 2000000 in
theorem agg2_read (Vv : Valuation τ sig (Elt Ideal)) :
    StableHlo.after (hostOps3 (F := Ideal)) Vv (Proc.devRef .tc main_v46)
      = agg2 (Vv (Proc.devRef .tc main_v36) : F32 S110000x256) (Vv (Proc.devRef .tc main_arg9) : I32 S100000)
          (Vv (Proc.devRef .tc main_arg10) : I32 S100000) := by
  dsimp only [hostOps3]; after_results; rfl

/-! ## Up to the first region -/

theorem W5_arg0 (c : Dev nD) : W5 (F := Ideal) m ρ c (Proc.devRef .tc main_arg0) = m ((c : Thread nD τ).loc main_arg0) := by
  host_read <;> rfl
theorem W5_arg1 (c : Dev nD) : W5 (F := Ideal) m ρ c (Proc.devRef .tc main_arg1) = m ((c : Thread nD τ).loc main_arg1) := by
  host_read <;> rfl
theorem W5_arg2 (c : Dev nD) : W5 (F := Ideal) m ρ c (Proc.devRef .tc main_arg2) = m ((c : Thread nD τ).loc main_arg2) := by
  host_read <;> rfl
theorem W5_arg3 (c : Dev nD) : W5 (F := Ideal) m ρ c (Proc.devRef .tc main_arg3) = m ((c : Thread nD τ).loc main_arg3) := by
  host_read <;> rfl
theorem W5_arg4 (c : Dev nD) : W5 (F := Ideal) m ρ c (Proc.devRef .tc main_arg4) = m ((c : Thread nD τ).loc main_arg4) := by
  host_read <;> rfl
theorem W5_arg5 (c : Dev nD) : W5 (F := Ideal) m ρ c (Proc.devRef .tc main_arg5) = m ((c : Thread nD τ).loc main_arg5) := by
  host_read <;> rfl
theorem W5_arg6 (c : Dev nD) : W5 (F := Ideal) m ρ c (Proc.devRef .tc main_arg6) = m ((c : Thread nD τ).loc main_arg6) := by
  host_read <;> rfl
theorem W5_arg7 (c : Dev nD) : W5 (F := Ideal) m ρ c (Proc.devRef .tc main_arg7) = m ((c : Thread nD τ).loc main_arg7) := by
  host_read <;> rfl
theorem W5_arg8 (c : Dev nD) : W5 (F := Ideal) m ρ c (Proc.devRef .tc main_arg8) = m ((c : Thread nD τ).loc main_arg8) := by
  host_read <;> rfl
theorem W5_arg9 (c : Dev nD) : W5 (F := Ideal) m ρ c (Proc.devRef .tc main_arg9) = m ((c : Thread nD τ).loc main_arg9) := by
  host_read <;> rfl
theorem W5_arg10 (c : Dev nD) : W5 (F := Ideal) m ρ c (Proc.devRef .tc main_arg10) = m ((c : Thread nD τ).loc main_arg10) := by
  host_read <;> rfl

theorem W1_cst_1 (c : Dev nD) : W1 (F := Ideal) m ρ c (Proc.devRef .tc main_cst_1) = constant (F := Ideal) S_ .f32 0x3F800000#32 := by
  dsimp only [W1, hostOps0]; after_results

theorem W1_v3 (c : Dev nD) : W1 (F := Ideal) m ρ c (Proc.devRef .tc main_v3)
    = Host.scatterAdd (F := Ideal) scatter_S1210000_S1100000x1_S1100000_n_0_0_1
      (broadcastInDim S1210000 ![] Facts₀.bcast_S_S1210000 (constant S_ .f32 0x00000000#32))
      (broadcastInDim S1100000x1 ![0] Facts₀.bcast_S1100000_S1100000x1_0 (m ((c : Thread nD τ).loc main_arg7)))
      (broadcastInDim S1100000 ![] Facts₀.bcast_S_S1100000 (constant S_ .f32 0x3F800000#32)) := by
  dsimp only [W1, hostOps0]; after_results <;> rfl

/-- The first layer's out-degrees, after the first call. -/
theorem W2_v4 (c : Dev nD) : W2 (F := Ideal) m ρ c (Proc.devRef .tc main_v4) = degOut1 (m ((c : Thread nD τ).loc main_arg7)) := by
  show StableHlo.after hostOps0_1 (W1 m ρ c) (Proc.devRef .tc main_v4) = _
  rw [clip_v4, W1_cst_1, W1_v3]
  rfl

theorem W3_cst_3 (c : Dev nD) : W3 (F := Ideal) m ρ c (Proc.devRef .tc main_cst_3) = constant (F := Ideal) S_ .f32 0x3F800000#32 := by
  dsimp only [W3, hostOps0_2]; generalize W2 (F := Ideal) m ρ c = Vv; after_results

theorem W3_v7 (c : Dev nD) : W3 (F := Ideal) m ρ c (Proc.devRef .tc main_v7)
    = Host.scatterAdd (F := Ideal) scatter_S110000_S1100000x1_S1100000_n_0_0_1
      (broadcastInDim S110000 ![] Facts₀.bcast_S_S110000 (constant S_ .f32 0x00000000#32))
      (broadcastInDim S1100000x1 ![0] Facts₀.bcast_S1100000_S1100000x1_0 (m ((c : Thread nD τ).loc main_arg8)))
      (broadcastInDim S1100000 ![] Facts₀.bcast_S_S1100000 (constant S_ .f32 0x3F800000#32)) := by
  host_read <;> rfl

/-- The first layer's in-degrees, after the second call. -/
theorem W4_v8 (c : Dev nD) : W4 (F := Ideal) m ρ c (Proc.devRef .tc main_v8) = degIn1 (m ((c : Thread nD τ).loc main_arg8)) := by
  show StableHlo.after hostOps0_3 (W3 m ρ c) (Proc.devRef .tc main_v8) = _
  rw [clip_v8, W3_cst_3, W3_v7]
  rfl

theorem W5_v8 (c : Dev nD) : W5 (F := Ideal) m ρ c (Proc.devRef .tc main_v8) = degIn1 (m ((c : Thread nD τ).loc main_arg8)) := by
  rw [← W4_v8 m ρ c]
  dsimp only [W5, hostOps0_4]
  generalize W4 (F := Ideal) m ρ c = Vv
  after_results

/-- The first region's column operand: the inverse square roots of the out-degrees as a column. -/
theorem W5_v10 (c : Dev nD) : W5 (F := Ideal) m ρ c (Proc.devRef .tc main_v10)
    = broadcastInDim S1210000x1 ![0] Facts₀.bcast_S1210000_S1210000x1_0 (Host.rsqrt (degOut1 (m ((c : Thread nD τ).loc main_arg7)))) := by
  rw [← W2_v4 m ρ c]
  dsimp only [W5, W4, W3, hostOps0_4, hostOps0_3, hostOps0_2]
  generalize W2 (F := Ideal) m ρ c = Vv
  after_results

/-! ## Across the first region (it writes only its result) and up to the second -/

theorem W6_arg1 (c : Dev nD) : W6 (F := Ideal) m ρ c (Proc.devRef .tc main_arg1) = m ((c : Thread nD τ).loc main_arg1) :=
  (W6_of_ne m ρ c main_arg1 (by decide)).trans (W5_arg1 m ρ c)
theorem W6_arg2 (c : Dev nD) : W6 (F := Ideal) m ρ c (Proc.devRef .tc main_arg2) = m ((c : Thread nD τ).loc main_arg2) :=
  (W6_of_ne m ρ c main_arg2 (by decide)).trans (W5_arg2 m ρ c)
theorem W6_arg3 (c : Dev nD) : W6 (F := Ideal) m ρ c (Proc.devRef .tc main_arg3) = m ((c : Thread nD τ).loc main_arg3) :=
  (W6_of_ne m ρ c main_arg3 (by decide)).trans (W5_arg3 m ρ c)
theorem W6_arg4 (c : Dev nD) : W6 (F := Ideal) m ρ c (Proc.devRef .tc main_arg4) = m ((c : Thread nD τ).loc main_arg4) :=
  (W6_of_ne m ρ c main_arg4 (by decide)).trans (W5_arg4 m ρ c)
theorem W6_arg5 (c : Dev nD) : W6 (F := Ideal) m ρ c (Proc.devRef .tc main_arg5) = m ((c : Thread nD τ).loc main_arg5) :=
  (W6_of_ne m ρ c main_arg5 (by decide)).trans (W5_arg5 m ρ c)
theorem W6_arg6 (c : Dev nD) : W6 (F := Ideal) m ρ c (Proc.devRef .tc main_arg6) = m ((c : Thread nD τ).loc main_arg6) :=
  (W6_of_ne m ρ c main_arg6 (by decide)).trans (W5_arg6 m ρ c)
theorem W6_arg7 (c : Dev nD) : W6 (F := Ideal) m ρ c (Proc.devRef .tc main_arg7) = m ((c : Thread nD τ).loc main_arg7) :=
  (W6_of_ne m ρ c main_arg7 (by decide)).trans (W5_arg7 m ρ c)
theorem W6_arg8 (c : Dev nD) : W6 (F := Ideal) m ρ c (Proc.devRef .tc main_arg8) = m ((c : Thread nD τ).loc main_arg8) :=
  (W6_of_ne m ρ c main_arg8 (by decide)).trans (W5_arg8 m ρ c)
theorem W6_arg9 (c : Dev nD) : W6 (F := Ideal) m ρ c (Proc.devRef .tc main_arg9) = m ((c : Thread nD τ).loc main_arg9) :=
  (W6_of_ne m ρ c main_arg9 (by decide)).trans (W5_arg9 m ρ c)
theorem W6_arg10 (c : Dev nD) : W6 (F := Ideal) m ρ c (Proc.devRef .tc main_arg10) = m ((c : Thread nD τ).loc main_arg10) :=
  (W6_of_ne m ρ c main_arg10 (by decide)).trans (W5_arg10 m ρ c)

theorem W6_v8 (c : Dev nD) : W6 (F := Ideal) m ρ c (Proc.devRef .tc main_v8) = degIn1 (m ((c : Thread nD τ).loc main_arg8)) :=
  (W6_of_ne m ρ c main_v8 (by decide)).trans (W5_v8 m ρ c)

/-- The second region's feature operand: the edge aggregation of the first region's result. -/
theorem W7_v21 (c : Dev nD) : W7 (F := Ideal) m ρ c (Proc.devRef .tc main_v21)
    = agg1 (W6 m ρ c (Proc.devRef .tc main_v11)) (m ((c : Thread nD τ).loc main_arg7)) (m ((c : Thread nD τ).loc main_arg8)) := by
  show StableHlo.after hostOps1 (W6 m ρ c) (Proc.devRef .tc main_v21) = _
  rw [agg1_read, W6_arg7, W6_arg8]

/-- The second region's column operand: the in-degrees as a column. -/
theorem W7_v22 (c : Dev nD) : W7 (F := Ideal) m ρ c (Proc.devRef .tc main_v22)
    = broadcastInDim S110000x1 ![0] Facts₀.bcast_S110000_S110000x1_0 (degIn1 (m ((c : Thread nD τ).loc main_arg8))) := by
  host_read
  rw [W6_v8]

/-- The second region's row operand: the first bias as a row. -/
theorem W7_v23 (c : Dev nD) (q : Fin 256) : W7 (F := Ideal) m ρ c (Proc.devRef .tc main_v23) (ix2 (0 : Fin 1) q)
    = (m ((c : Thread nD τ).loc main_arg2)) (ix1 q) := by
  rw [← W6_arg2 m ρ c]
  host_read
  generalize W6 (F := Ideal) m ρ c (Proc.devRef .tc main_arg2) = x
  exact row_apply (α := Ideal .f32) (b := 256) x Facts₀.shapeCasts_S256_S1x256 q

theorem W7_arg1 (c : Dev nD) : W7 (F := Ideal) m ρ c (Proc.devRef .tc main_arg1) = m ((c : Thread nD τ).loc main_arg1) := by
  host_read; exact W6_arg1 m ρ c
theorem W7_arg3 (c : Dev nD) : W7 (F := Ideal) m ρ c (Proc.devRef .tc main_arg3) = m ((c : Thread nD τ).loc main_arg3) := by
  host_read; exact W6_arg3 m ρ c
theorem W7_arg4 (c : Dev nD) : W7 (F := Ideal) m ρ c (Proc.devRef .tc main_arg4) = m ((c : Thread nD τ).loc main_arg4) := by
  host_read; exact W6_arg4 m ρ c
theorem W7_arg5 (c : Dev nD) : W7 (F := Ideal) m ρ c (Proc.devRef .tc main_arg5) = m ((c : Thread nD τ).loc main_arg5) := by
  host_read; exact W6_arg5 m ρ c
theorem W7_arg6 (c : Dev nD) : W7 (F := Ideal) m ρ c (Proc.devRef .tc main_arg6) = m ((c : Thread nD τ).loc main_arg6) := by
  host_read; exact W6_arg6 m ρ c
theorem W7_arg9 (c : Dev nD) : W7 (F := Ideal) m ρ c (Proc.devRef .tc main_arg9) = m ((c : Thread nD τ).loc main_arg9) := by
  host_read; exact W6_arg9 m ρ c
theorem W7_arg10 (c : Dev nD) : W7 (F := Ideal) m ρ c (Proc.devRef .tc main_arg10) = m ((c : Thread nD τ).loc main_arg10) := by
  host_read; exact W6_arg10 m ρ c

/-! ## Across the second region and up to the third -/

theorem W8_arg4 (c : Dev nD) : W8 (F := Ideal) m ρ c (Proc.devRef .tc main_arg4) = m ((c : Thread nD τ).loc main_arg4) :=
  (W8_of_ne m ρ c main_arg4 (by decide)).trans (W7_arg4 m ρ c)
theorem W8_arg5 (c : Dev nD) : W8 (F := Ideal) m ρ c (Proc.devRef .tc main_arg5) = m ((c : Thread nD τ).loc main_arg5) :=
  (W8_of_ne m ρ c main_arg5 (by decide)).trans (W7_arg5 m ρ c)
theorem W8_arg6 (c : Dev nD) : W8 (F := Ideal) m ρ c (Proc.devRef .tc main_arg6) = m ((c : Thread nD τ).loc main_arg6) :=
  (W8_of_ne m ρ c main_arg6 (by decide)).trans (W7_arg6 m ρ c)
theorem W8_arg9 (c : Dev nD) : W8 (F := Ideal) m ρ c (Proc.devRef .tc main_arg9) = m ((c : Thread nD τ).loc main_arg9) :=
  (W8_of_ne m ρ c main_arg9 (by decide)).trans (W7_arg9 m ρ c)
theorem W8_arg10 (c : Dev nD) : W8 (F := Ideal) m ρ c (Proc.devRef .tc main_arg10) = m ((c : Thread nD τ).loc main_arg10) :=
  (W8_of_ne m ρ c main_arg10 (by decide)).trans (W7_arg10 m ρ c)

theorem W9_cst_8 (c : Dev nD) : W9 (F := Ideal) m ρ c (Proc.devRef .tc main_cst_8) = constant (F := Ideal) S_ .f32 0x3F800000#32 := by
  dsimp only [W9, hostOps2]; after_results

theorem W9_v28 (c : Dev nD) : W9 (F := Ideal) m ρ c (Proc.devRef .tc main_v28)
    = Host.scatterAdd (F := Ideal) scatter_S110000_S100000x1_S100000_n_0_0_1
      (broadcastInDim S110000 ![] Facts₀.bcast_S_S110000 (constant S_ .f32 0x00000000#32))
      (broadcastInDim S100000x1 ![0] Facts₀.bcast_S100000_S100000x1_0 (m ((c : Thread nD τ).loc main_arg9)))
      (broadcastInDim S100000 ![] Facts₀.bcast_S_S100000 (constant S_ .f32 0x3F800000#32)) := by
  dsimp only [W9, hostOps2]; after_results
  rw [W8_arg9]

/-- The second layer's out-degrees, after the third call. -/
theorem W10_v29 (c : Dev nD) : W10 (F := Ideal) m ρ c (Proc.devRef .tc main_v29) = degOut2 (m ((c : Thread nD τ).loc main_arg9)) := by
  show StableHlo.after hostOps2_1 (W9 m ρ c) (Proc.devRef .tc main_v29) = _
  rw [clip_v29, W9_cst_8, W9_v28]
  rfl

theorem W11_cst_10 (c : Dev nD) : W11 (F := Ideal) m ρ c (Proc.devRef .tc main_cst_10) = constant (F := Ideal) S_ .f32 0x3F800000#32 := by
  dsimp only [W11, hostOps2_2]; generalize W10 (F := Ideal) m ρ c = Vv; after_results

theorem W11_v32 (c : Dev nD) : W11 (F := Ideal) m ρ c (Proc.devRef .tc main_v32)
    = Host.scatterAdd (F := Ideal) scatter_S10000_S100000x1_S100000_n_0_0_1
      (broadcastInDim S10000 ![] Facts₀.bcast_S_S10000 (constant S_ .f32 0x00000000#32))
      (broadcastInDim S100000x1 ![0] Facts₀.bcast_S100000_S100000x1_0 (m ((c : Thread nD τ).loc main_arg10)))
      (broadcastInDim S100000 ![] Facts₀.bcast_S_S100000 (constant S_ .f32 0x3F800000#32)) := by
  host_read
  rw [W8_arg10]

/-- The second layer's in-degrees, after the fourth call. -/
theorem W12_v33 (c : Dev nD) : W12 (F := Ideal) m ρ c (Proc.devRef .tc main_v33) = degIn2 (m ((c : Thread nD τ).loc main_arg10)) := by
  show StableHlo.after hostOps2_3 (W11 m ρ c) (Proc.devRef .tc main_v33) = _
  rw [clip_v33, W11_cst_10, W11_v32]
  rfl

theorem W13_v33 (c : Dev nD) : W13 (F := Ideal) m ρ c (Proc.devRef .tc main_v33) = degIn2 (m ((c : Thread nD τ).loc main_arg10)) := by
  rw [← W12_v33 m ρ c]
  dsimp only [W13, hostOps2_4]
  generalize W12 (F := Ideal) m ρ c = Vv
  after_results

/-- The third region's column operand: the inverse square roots of the second layer's out-degrees as a column. -/
theorem W13_v35 (c : Dev nD) : W13 (F := Ideal) m ρ c (Proc.devRef .tc main_v35)
    = broadcastInDim S110000x1 ![0] Facts₀.bcast_S110000_S110000x1_0 (Host.rsqrt (degOut2 (m ((c : Thread nD τ).loc main_arg9)))) := by
  rw [← W10_v29 m ρ c]
  dsimp only [W13, W12, W11, hostOps2_4, hostOps2_3, hostOps2_2]
  generalize W10 (F := Ideal) m ρ c = Vv
  after_results

/-- The third region's feature operand is the second region's result: no host operation writes it. -/
theorem W13_v24_0 (c : Dev nD) : W13 (F := Ideal) m ρ c (Proc.devRef .tc main_v24_0) = W8 m ρ c (Proc.devRef .tc main_v24_0) := by
  host_read

theorem W13_arg4 (c : Dev nD) : W13 (F := Ideal) m ρ c (Proc.devRef .tc main_arg4) = m ((c : Thread nD τ).loc main_arg4) := by
  host_read; exact W8_arg4 m ρ c
theorem W13_arg5 (c : Dev nD) : W13 (F := Ideal) m ρ c (Proc.devRef .tc main_arg5) = m ((c : Thread nD τ).loc main_arg5) := by
  host_read; exact W8_arg5 m ρ c
theorem W13_arg6 (c : Dev nD) : W13 (F := Ideal) m ρ c (Proc.devRef .tc main_arg6) = m ((c : Thread nD τ).loc main_arg6) := by
  host_read; exact W8_arg6 m ρ c
theorem W13_arg9 (c : Dev nD) : W13 (F := Ideal) m ρ c (Proc.devRef .tc main_arg9) = m ((c : Thread nD τ).loc main_arg9) := by
  host_read; exact W8_arg9 m ρ c
theorem W13_arg10 (c : Dev nD) : W13 (F := Ideal) m ρ c (Proc.devRef .tc main_arg10) = m ((c : Thread nD τ).loc main_arg10) := by
  host_read; exact W8_arg10 m ρ c

/-! ## Across the third region and up to the fourth -/

theorem W14_arg4 (c : Dev nD) : W14 (F := Ideal) m ρ c (Proc.devRef .tc main_arg4) = m ((c : Thread nD τ).loc main_arg4) :=
  (W14_of_ne m ρ c main_arg4 (by decide)).trans (W13_arg4 m ρ c)
theorem W14_arg5 (c : Dev nD) : W14 (F := Ideal) m ρ c (Proc.devRef .tc main_arg5) = m ((c : Thread nD τ).loc main_arg5) :=
  (W14_of_ne m ρ c main_arg5 (by decide)).trans (W13_arg5 m ρ c)
theorem W14_arg6 (c : Dev nD) : W14 (F := Ideal) m ρ c (Proc.devRef .tc main_arg6) = m ((c : Thread nD τ).loc main_arg6) :=
  (W14_of_ne m ρ c main_arg6 (by decide)).trans (W13_arg6 m ρ c)
theorem W14_arg9 (c : Dev nD) : W14 (F := Ideal) m ρ c (Proc.devRef .tc main_arg9) = m ((c : Thread nD τ).loc main_arg9) :=
  (W14_of_ne m ρ c main_arg9 (by decide)).trans (W13_arg9 m ρ c)
theorem W14_arg10 (c : Dev nD) : W14 (F := Ideal) m ρ c (Proc.devRef .tc main_arg10) = m ((c : Thread nD τ).loc main_arg10) :=
  (W14_of_ne m ρ c main_arg10 (by decide)).trans (W13_arg10 m ρ c)

theorem W14_v33 (c : Dev nD) : W14 (F := Ideal) m ρ c (Proc.devRef .tc main_v33) = degIn2 (m ((c : Thread nD τ).loc main_arg10)) :=
  (W14_of_ne m ρ c main_v33 (by decide)).trans (W13_v33 m ρ c)

/-- The fourth region's feature operand: the edge aggregation of the third region's result. -/
theorem W15_v46 (c : Dev nD) : W15 (F := Ideal) m ρ c (Proc.devRef .tc main_v46)
    = agg2 (W14 m ρ c (Proc.devRef .tc main_v36)) (m ((c : Thread nD τ).loc main_arg9)) (m ((c : Thread nD τ).loc main_arg10)) := by
  show StableHlo.after hostOps3 (W14 m ρ c) (Proc.devRef .tc main_v46) = _
  rw [agg2_read, W14_arg9, W14_arg10]

/-- The fourth region's column operand: the second layer's in-degrees as a column. -/
theorem W15_v47 (c : Dev nD) : W15 (F := Ideal) m ρ c (Proc.devRef .tc main_v47)
    = broadcastInDim S10000x1 ![0] Facts₀.bcast_S10000_S10000x1_0 (degIn2 (m ((c : Thread nD τ).loc main_arg10))) := by
  host_read
  rw [W14_v33]

/-- The fourth region's row operand: the second bias as a row. -/
theorem W15_v48 (c : Dev nD) (q : Fin 128) : W15 (F := Ideal) m ρ c (Proc.devRef .tc main_v48) (ix2 (0 : Fin 1) q)
    = (m ((c : Thread nD τ).loc main_arg5)) (ix1 q) := by
  rw [← W14_arg5 m ρ c]
  host_read
  generalize W14 (F := Ideal) m ρ c (Proc.devRef .tc main_arg5) = x
  exact row_apply (α := Ideal .f32) (b := 128) x Facts₀.shapeCasts_S128_S1x128 q

theorem W15_arg4 (c : Dev nD) : W15 (F := Ideal) m ρ c (Proc.devRef .tc main_arg4) = m ((c : Thread nD τ).loc main_arg4) := by
  host_read; exact W14_arg4 m ρ c
theorem W15_arg6 (c : Dev nD) : W15 (F := Ideal) m ρ c (Proc.devRef .tc main_arg6) = m ((c : Thread nD τ).loc main_arg6) := by
  host_read; exact W14_arg6 m ρ c

end Cert.KernelIdeal.GcnHost

end
-- ==== Proof.Scale0.lean ====
/-
  The first scaling region, read as one function of the arrays it is given.

  The feature array h : [1210000, 128] is cut along its rows into 121 blocks of 10000 rows, and the column
  [1210000, 1] of scaling factors into the 121 blocks of the same rows. At block t the body multiplies every entry
  of the feature block by the factor of its row: entry (p, q) of the result block is h (10000 t + p, q) times the
  column's entry in row 10000 t + p, and depends on nothing else. Block t goes back to rows 10000 t … 10000 t + 9999
  of the result, so row r of the result is written by block r / 10000 and by no other, and the 121 blocks tile the
  array. When the column holds in row r the inverse square root of deg r, the result is h with row r scaled by the
  inverse square root of deg r.
-/
import proofs.«155848_j37503654429370_1_alg».proof.Proof.Gen.KernelIdeal.Frame
import proofs.«155848_j37503654429370_1_alg».proof.Proof.Spec
import Idealize.ShloMosaic.Lib.ValueIdx
import Idealize.ShloMosaic.Lib.Pipeline.Value

noncomputable section

namespace Cert.KernelIdeal.GcnValue

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- Both offsets of a whole-block access are zero. -/
theorem scale0_offsets : (![0, 0] : Fin 2 → Nat) = fun _ => 0 := funext fun a => by fin_cases a <;> rfl

/-- A column [a, 1] broadcast across the columns of [a, b]: at (p, q), the column's entry in row p. -/
theorem scale0_column_across {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at (p, q): the feature block's entry times the column block's entry in row p. -/
theorem scale0_body_apply (x0 : Vec Ideal S10000x128 .f32) (x1 : Vec Ideal S10000x1 .f32) (p : Fin 10000) (q : Fin 128) :
    k0_pay1 x0 x1 (ix2 p q) = x0 (ix2 p q) * x1 (ix2 p (0 : Fin 1)) := by
  unfold k0_pay1
  refine (mulf_apply _ _ _).trans (congrArg (x0 (ix2 p q) * ·) ?_)
  exact (scale0_column_across _ _ p q).trans (congrFun (shapeCast_self x1 _) _)

/-- The printed index maps, decided over the grid: at point t every window is on block row t, block column 0. -/
theorem scale0_block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Entry (p, q) of the feature block at point t is entry (10000 t + p, q) of the feature array. -/
theorem scale0_feature_block (c : Dev nD) (t : Fin cfg0.N) (p : Fin 10000) (q : Fin 128) (k : S1210000x128.Idx)
    (hk0 : (k 0).val = 10000 * t.val + p.val) (hk1 : (k 1).val = q.val) :
    (iblk0 V c 0 t : Vec Ideal S10000x128 .f32) (ix2 p q) = (V c main_arg0 : S1210000x128.Idx → EReal) k := by
  obtain ⟨e0, e1, -⟩ := scale0_block_index t
  unfold iblk0
  rw [View.read_apply]
  show (V c main_arg0 : S1210000x128.Idx → EReal) _ = _
  congr 1
  funext a
  apply Fin.ext
  match a with
  | ⟨0, _⟩ => show win0_0.index t (0 : Fin 2) * 10000 + 1 * p.val = (k 0).val; rw [e0, hk0]; omega
  | ⟨1, _⟩ => show win0_0.index t (1 : Fin 2) * 128 + 1 * q.val = (k 1).val; rw [e1, hk1]; omega

/-- Entry (p, 0) of the column block at point t is entry (10000 t + p, 0) of the column. -/
theorem scale0_column_block (c : Dev nD) (t : Fin cfg0.N) (p : Fin 10000) (k : S1210000x1.Idx)
    (hk0 : (k 0).val = 10000 * t.val + p.val) :
    (iblk0 V c 1 t : Vec Ideal S10000x1 .f32) (ix2 p (0 : Fin 1)) = (V c main_v10 : S1210000x1.Idx → EReal) k := by
  obtain ⟨-, -, e0, e1, -⟩ := scale0_block_index t
  unfold iblk0
  rw [View.read_apply]
  show (V c main_v10 : S1210000x1.Idx → EReal) _ = _
  congr 1
  funext a
  apply Fin.ext
  match a with
  | ⟨0, _⟩ => show win0_1.index t (0 : Fin 2) * 10000 + 1 * p.val = (k 0).val; rw [e0, hk0]; omega
  | ⟨1, _⟩ => show win0_1.index t (1 : Fin 2) * 1 + 1 * (0 : Fin 1).val = (k 1).val; have hk1 : (k 1).val < 1 := (k 1).isLt; rw [e1]; show 0 * 1 + 1 * 0 = (k 1).val; omega

/-- One entry, over any blocks: if the feature block's entry (p, q) is the array's entry (r, q) and the column block's
    entry in row p is the column's in row r, and the column holds the inverse square roots of the degrees, then the
    body's product at (p, q) is the scaled array's entry (r, q). -/
theorem scale0_entry (h : Cert.Gcn.Mat 1210000 128) (col : Cert.Gcn.Mat 1210000 1) (deg : Cert.Gcn.Vec1 1210000)
    (hcol : ∀ p : Fin 1210000, col (ix2 p (0 : Fin 1)) = Ideal.rsqrt (deg (ix1 p)))
    (x0 : Vec Ideal S10000x128 .f32) (x1 : Vec Ideal S10000x1 .f32) (r : Fin 1210000) (p : Fin 10000) (q : Fin 128)
    (h0 : x0 (ix2 p q) = h (ix2 r q)) (h1 : x1 (ix2 p (0 : Fin 1)) = col (ix2 r (0 : Fin 1))) :
    k0_pay1 x0 x1 (ix2 p q) = Cert.Gcn.scale h deg (ix2 r q) := by
  rw [scale0_body_apply, h0, h1, hcol, Cert.Gcn.scale_apply]

/-- WHAT POINT t WRITES BACK is block t of the feature array scaled row by row. -/
theorem scale0_written (c : Dev nD) (deg : Cert.Gcn.Vec1 1210000)
    (hcol : ∀ p : Fin 1210000, V c main_v10 (ix2 p (0 : Fin 1)) = Ideal.rsqrt (deg (ix1 p))) (t : Fin cfg0.N) :
    (dat0 (F := Ideal) V c).flushed 2 t
      = ((cfg0.win 2).blk t).view.read (Elt Ideal) (Cert.Gcn.scale (V c main_arg0) deg) := by
  show (cfg0.win 2).cut (grid0.coords t) ((dat0 V c).after 2 t) = _
  rw [after0_2]
  unfold out0_2
  rw [View.canon_unit_zero scale0_offsets]
  simp only [View.ld_unit_zero (S := S10000x128) scale0_offsets, View.ld_unit_zero (S := S10000x1) scale0_offsets]
  refine funext fun (j : S10000x128.Idx) => ?_
  obtain ⟨p, q, rfl⟩ : ∃ (p : Fin 10000) (q : Fin 128), j = ix2 p q := ⟨j 0, j 1, eq_ix2 j⟩
  have hN : cfg0.N = 121 := N_0
  have hr : 10000 * t.val + p.val < 1210000 := by have := t.isLt; have := p.isLt; omega
  obtain ⟨-, -, -, -, e0, e1⟩ := scale0_block_index t
  have hemb : ((cfg0.win 2).blk t).view.emb (ix2 p q) = ix2 (⟨10000 * t.val + p.val, hr⟩ : Fin 1210000) q := by
    funext a
    apply Fin.ext
    match a with
    | ⟨0, _⟩ => show win0_2.index t (0 : Fin 2) * 10000 + 1 * p.val = 10000 * t.val + p.val; rw [e0]; omega
    | ⟨1, _⟩ => show win0_2.index t (1 : Fin 2) * 128 + 1 * q.val = q.val; rw [e1]; omega
  show k0_pay1 (iblk0 V c 0 t) (iblk0 V c 1 t) (ix2 p q)
    = Cert.Gcn.scale (V c main_arg0) deg (((cfg0.win 2).blk t).view.emb (ix2 p q))
  rw [hemb]
  exact scale0_entry (V c main_arg0) (V c main_v10) deg hcol (iblk0 V c 0 t) (iblk0 V c 1 t) ⟨_, hr⟩ p q
    (scale0_feature_block V c t p q _ rfl rfl) (scale0_column_block V c t p _ rfl)

/-- An index of the result array is in point t's block iff each coordinate is in the block's range on its axis. -/
theorem scale0_mem_block (t : Fin cfg0.N) (i : S1210000x128.Idx) :
    i ∈ ((cfg0.win 2).blk t).view.set
      ↔ ∀ a : Fin 2, win0_2.index t a * S10000x128.size a ≤ (i a).val
          ∧ (i a).val < win0_2.index t a * S10000x128.size a + S10000x128.size a := by
  show i ∈ ((View.whole main_v11).slice (win0_2.rect t)).set ↔ _
  rw [View.set_slice_whole, Rect.mem_set_unit]
  exact Iff.rfl

/-- THE BLOCKS TILE THE ARRAY: row r lies in the block of point r / 10000, which is written back. -/
theorem scale0_tiled (i : S1210000x128.Idx) :
    ∃ t : Fin cfg0.N, (cfg0.win 2).flush t = true ∧ i ∈ ((cfg0.win 2).blk t).view.set := by
  have hi0 : (i 0).val < 1210000 := (i 0).isLt
  have hi1 : (i 1).val < 128 := (i 1).isLt
  have hN : cfg0.N = 121 := N_0
  have ht : (i 0).val / 10000 < cfg0.N := by rw [hN]; omega
  obtain ⟨-, -, -, -, e0, e1⟩ := scale0_block_index ⟨(i 0).val / 10000, ht⟩
  refine ⟨⟨(i 0).val / 10000, ht⟩, flush0_2 _, ?_⟩
  rw [scale0_mem_block]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e0]
    show (i 0).val / 10000 * 10000 ≤ (i 0).val ∧ (i 0).val < (i 0).val / 10000 * 10000 + 10000
    omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e1]
    omega

/-- THE RESULT ARRAY after the region: the feature array with row p scaled by the inverse square root of deg p. -/
theorem scale0_value (c : Dev nD) (deg : Cert.Gcn.Vec1 1210000)
    (hcol : ∀ p : Fin 1210000, V c main_v10 (ix2 p (0 : Fin 1)) = Ideal.rsqrt (deg (ix1 p))) :
    (dat0 (F := Ideal) V c).arrAt 2 cfg0.N = Cert.Gcn.scale (V c main_arg0) deg :=
  (dat0 (F := Ideal) V c).arrAt_eq_of_cover 2 (Cert.Gcn.scale (V c main_arg0) deg)
    (fun t _ => scale0_written V c deg hcol t) scale0_tiled

end Cert.KernelIdeal.GcnValue

end
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.Gate1.lean ====
/-
  The first gate region of the two-layer graph convolution, read as mathematics.

  The region runs over eleven blocks of 10000 rows. At each block it takes the aggregated features agg [10000, 128],
  the in-degree column [10000, 1], the weights W [128, 256], the bias row [1, 256] and the attention column [256, 1],
  and computes, with hd (p, q) = (sum over k of agg (p, k) * rsqrt (deg p) * W (k, q)) + bias q, the gate
  logistic (sum over k of hd (p, k) * attn (k, 0)) of every row p and the product hd (p, q) * gate p. The blocks of
  both results tile their arrays, so after the region the result array holds the gated rows and the gate column
  holds the gates, as functions of the arrays the region found.
-/
import proofs.«155848_j37503654429370_1_alg».proof.Proof.Gen.KernelIdeal.Frame
import proofs.«155848_j37503654429370_1_alg».proof.Proof.Spec
import proofs.«155848_j37503654429370_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GcnValue

open Cert.KernelIdeal Cert.KernelIdeal.Gen Idealize.ShloMosaic Idealize.ShloMosaic.ValueIdx Idealize.ShloMosaic.TcCoe

/-! ## A column broadcast across the columns -/

/-- A column [a, 1] broadcast across the columns of [a, b]: at (p, q), the column at p. -/
theorem column_bcast1_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two products of the body, each a plain sum over the contracted axis -/

theorem lhs_dotA1_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem lhs_dotA1_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
theorem rhs_dotA1_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
theorem rhs_dotA1_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- The [10000, 128] by [128, 256] product into a zero accumulator, at (p, q): the sum over k of x (p, k) * w (k, q). -/
theorem dotA1_apply (x : FVec Ideal S10000x128 .bf16) (w : FVec Ideal S128x256 .bf16) (p : Fin 10000) (q : Fin 256) :
    matmul dot_S10000x128_S128x256_S10000x256_1_0_0_1_n_n none x w (constant (F := Ideal) S10000x256 .f32 0x00000000#32) (ix2 p q)
      = ∑ k : Fin 128, x (ix2 p k) * w (ix2 k q) := by
  simp only [matmul]
  rw [Ideal.matmul_constant_zero_apply, ← Equiv.sum_comp (ValueIdx.contrEquiv1 dot_S10000x128_S128x256_S10000x256_1_0_0_1_n_n 128 rfl rfl).symm]
  refine Finset.sum_congr rfl fun k _ => ?_
  have hk := ValueIdx.contrEquiv1_symm_val dot_S10000x128_S128x256_S10000x256_1_0_0_1_n_n 128 rfl rfl k
  have el : dot_S10000x128_S128x256_S10000x256_1_0_0_1_n_n.lhsIdx (ix2 p q) ((ValueIdx.contrEquiv1 dot_S10000x128_S128x256_S10000x256_1_0_0_1_n_n 128 rfl rfl).symm k) = ix2 p k := funext fun a => Fin.ext (by
    match a with
    | ⟨0, _⟩ => exact lhs_dotA1_0 _ _
    | ⟨1, _⟩ => exact (lhs_dotA1_1 _ _).trans hk)
  have er : dot_S10000x128_S128x256_S10000x256_1_0_0_1_n_n.rhsIdx (ix2 p q) ((ValueIdx.contrEquiv1 dot_S10000x128_S128x256_S10000x256_1_0_0_1_n_n 128 rfl rfl).symm k) = ix2 k q := funext fun a => Fin.ext (by
    match a with
    | ⟨0, _⟩ => exact (rhs_dotA1_0 _ _).trans hk
    | ⟨1, _⟩ => exact rhs_dotA1_1 _ _)
  rw [el, er]

theorem lhs_dotB1_0 (i : S10000x1.Idx) (q : dot_S10000x256_S256x1_S10000x1_1_0_0_1_n_n.contr.Idx) :
    (dot_S10000x256_S256x1_S10000x1_1_0_0_1_n_n.lhsIdx i q 0).val = (i 0).val := by
  unfold DotDims.lhsIdx
  rw [dif_neg (show ¬(0 : Fin S10000x256.rank) ∈ dot_S10000x256_S256x1_S10000x1_1_0_0_1_n_n.lhsBatch by decide), dif_pos (show (0 : Fin S10000x256.rank) ∈ dot_S10000x256_S256x1_S10000x1_1_0_0_1_n_n.lhsNonContracting by decide)]
  rfl
theorem lhs_dotB1_1 (i : S10000x1.Idx) (q : dot_S10000x256_S256x1_S10000x1_1_0_0_1_n_n.contr.Idx) :
    (dot_S10000x256_S256x1_S10000x1_1_0_0_1_n_n.lhsIdx i q 1).val = (q ⟨0, by decide⟩).val :=
  dot_S10000x256_S256x1_S10000x1_1_0_0_1_n_n.lhsIdx_val_of_single rfl i q
theorem rhs_dotB1_0 (i : S10000x1.Idx) (q : dot_S10000x256_S256x1_S10000x1_1_0_0_1_n_n.contr.Idx) :
    (dot_S10000x256_S256x1_S10000x1_1_0_0_1_n_n.rhsIdx i q 0).val = (q ⟨0, by decide⟩).val :=
  dot_S10000x256_S256x1_S10000x1_1_0_0_1_n_n.rhsIdx_val_of_single rfl i q
theorem rhs_dotB1_1 (i : S10000x1.Idx) (q : dot_S10000x256_S256x1_S10000x1_1_0_0_1_n_n.contr.Idx) :
    (dot_S10000x256_S256x1_S10000x1_1_0_0_1_n_n.rhsIdx i q 1).val = (i 1).val := by
  unfold DotDims.rhsIdx
  rw [dif_neg (show ¬(1 : Fin S256x1.rank) ∈ dot_S10000x256_S256x1_S10000x1_1_0_0_1_n_n.rhsBatch by decide), dif_pos (show (1 : Fin S256x1.rank) ∈ dot_S10000x256_S256x1_S10000x1_1_0_0_1_n_n.rhsNonContracting by decide)]
  rfl

/-- The [10000, 256] by [256, 1] product into a zero accumulator, at (p, 0): the sum over k of x (p, k) * w (k, 0). -/
theorem dotB1_apply (x : FVec Ideal S10000x256 .bf16) (w : FVec Ideal S256x1 .bf16) (p : Fin 10000) :
    matmul dot_S10000x256_S256x1_S10000x1_1_0_0_1_n_n none x w (constant (F := Ideal) S10000x1 .f32 0x00000000#32) (ix2 p (0 : Fin 1))
      = ∑ k : Fin 256, x (ix2 p k) * w (ix2 k (0 : Fin 1)) := by
  simp only [matmul]
  rw [Ideal.matmul_constant_zero_apply, ← Equiv.sum_comp (ValueIdx.contrEquiv1 dot_S10000x256_S256x1_S10000x1_1_0_0_1_n_n 256 rfl rfl).symm]
  refine Finset.sum_congr rfl fun k _ => ?_
  have hk := ValueIdx.contrEquiv1_symm_val dot_S10000x256_S256x1_S10000x1_1_0_0_1_n_n 256 rfl rfl k
  have el : dot_S10000x256_S256x1_S10000x1_1_0_0_1_n_n.lhsIdx (ix2 p (0 : Fin 1)) ((ValueIdx.contrEquiv1 dot_S10000x256_S256x1_S10000x1_1_0_0_1_n_n 256 rfl rfl).symm k) = ix2 p k := funext fun a => Fin.ext (by
    match a with
    | ⟨0, _⟩ => exact lhs_dotB1_0 _ _
    | ⟨1, _⟩ => exact (lhs_dotB1_1 _ _).trans hk)
  have er : dot_S10000x256_S256x1_S10000x1_1_0_0_1_n_n.rhsIdx (ix2 p (0 : Fin 1)) ((ValueIdx.contrEquiv1 dot_S10000x256_S256x1_S10000x1_1_0_0_1_n_n 256 rfl rfl).symm k) = ix2 k (0 : Fin 1) := funext fun a => Fin.ext (by
    match a with
    | ⟨0, _⟩ => exact (rhs_dotB1_0 _ _).trans hk
    | ⟨1, _⟩ => exact rhs_dotB1_1 _ _)
  rw [el, er]

/-! ## The body's three values at an index -/

/-- The linear stage of a block at (p, q): the sum over k of agg (p, k) * rsqrt (deg p) * W (k, q), plus the bias at q. -/
theorem lin1_apply (v0 : Vec Ideal S10000x1 .f32) (v3 : Vec Ideal S10000x128 .f32) (v8 : Vec Ideal S128x256 .f32) (v11 : Vec Ideal S1x256 .f32)
    (p : Fin 10000) (q : Fin 256) :
    k1_pay1 (F := Ideal) v0 v3 v8 v11 (ix2 p q)
      = (∑ k : Fin 128, v3 (ix2 p k) * Ideal.rsqrt (v0 (ix2 p (0 : Fin 1))) * v8 (ix2 k q)) + v11 (ix2 (0 : Fin 1) q) := by
  unfold k1_pay1
  refine (addf_apply _ _ _).trans ?_
  refine congrArg₂ (· + ·) ?_ ?_
  · refine (dotA1_apply _ _ p q).trans (Finset.sum_congr rfl fun k _ => ?_)
    refine congrArg₂ (· * ·) ?_ rfl
    refine (mulf_apply _ _ _).trans ?_
    refine congrArg₂ (· * ·) (congrFun (shapeCast_self v3 _) _) ?_
    refine (column_bcast1_apply _ _ p k).trans ?_
    show Ideal.rsqrt (shapeCast S10000x1 v0 _ (ix2 p (0 : Fin 1))) = _
    rw [shapeCast_self]
  · exact Cert.LibKeepdims.row_broadcast_apply v11 _ _ p q

/-- The gate of a block's row p: the logistic function of the sum over k of hd (p, k) * attn (k, 0). -/
theorem gate1_apply (v0 : Vec Ideal S10000x1 .f32) (v3 : Vec Ideal S10000x128 .f32) (v8 : Vec Ideal S128x256 .f32) (v11 : Vec Ideal S1x256 .f32)
    (v16 : Vec Ideal S256x1 .f32) (p : Fin 10000) :
    k1_pay2 (F := Ideal) v0 v3 v8 v11 v16 (ix2 p (0 : Fin 1))
      = Ideal.logistic (∑ k : Fin 256, k1_pay1 (F := Ideal) v0 v3 v8 v11 (ix2 p k) * v16 (ix2 k (0 : Fin 1))) := by
  unfold k1_pay2
  show Ideal.logistic (matmul (F := Ideal) _ none _ _ _ (ix2 p (0 : Fin 1))) = _
  rw [dotB1_apply]
  rfl

/-- The gated block at (p, q): hd (p, q) times the gate of row p. -/
theorem gated1_apply (v0 : Vec Ideal S10000x1 .f32) (v3 : Vec Ideal S10000x128 .f32) (v8 : Vec Ideal S128x256 .f32) (v11 : Vec Ideal S1x256 .f32)
    (v16 : Vec Ideal S256x1 .f32) (p : Fin 10000) (q : Fin 256) :
    k1_pay3 (F := Ideal) v0 v3 v8 v11 v16 (ix2 p q)
      = k1_pay1 (F := Ideal) v0 v3 v8 v11 (ix2 p q) * k1_pay2 (F := Ideal) v0 v3 v8 v11 v16 (ix2 p (0 : Fin 1)) := by
  unfold k1_pay3
  refine (mulf_apply _ _ _).trans ?_
  exact congrArg₂ (· * ·) rfl (column_bcast1_apply _ _ p q)

/-! ## From the blocks to the arrays -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The printed index maps over the eleven points: the row blocks of agg, of the degree column, of the result and of
    the gate column are at block row t; W, the bias row and the attention column are read whole at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- Row p of the block of agg at point t is row 10000 t + p of agg. -/
theorem agg_block1_apply (c : Dev nD) (t : Fin cfg1.N) (p : Fin 10000) (k : Fin 128) (r : Fin 110000)
    (hr : r.val = t.val * 10000 + p.val) :
    (iblk1 V c 0 t : Vec Ideal S10000x128 .f32) (ix2 p k) = (V c main_v21 : S110000x128.Idx → EReal) (ix2 r k) := by
  obtain ⟨e0, e1, -⟩ := idx_facts1 t
  unfold iblk1
  rw [View.read_apply]
  show V c main_v21 _ = V c main_v21 _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Row p of the block of the degree column at point t is row 10000 t + p of the column. -/
theorem deg_block1_apply (c : Dev nD) (t : Fin cfg1.N) (p : Fin 10000) (r : Fin 110000)
    (hr : r.val = t.val * 10000 + p.val) :
    (iblk1 V c 1 t : Vec Ideal S10000x1 .f32) (ix2 p (0 : Fin 1)) = (V c main_v22 : S110000x1.Idx → EReal) (ix2 r (0 : Fin 1)) := by
  obtain ⟨-, -, e0, e1, -⟩ := idx_facts1 t
  unfold iblk1
  rw [View.read_apply]
  show V c main_v22 _ = V c main_v22 _
  congr 1
  funext a
  apply Fin.ext
  match a with
  | ⟨0, _⟩ => show win1_1.index t (0 : Fin 2) * 10000 + 1 * p.val = r.val; rw [e0, hr]; omega
  | ⟨1, _⟩ => show win1_1.index t (1 : Fin 2) * 1 + 1 * 0 = 0; rw [e1]

/-- The block of W at every point is W. -/
theorem W_block1_eq (c : Dev nD) (t : Fin cfg1.N) :
    (iblk1 V c 2 t : Vec Ideal S128x256 .f32) = (V c main_arg1 : S128x256.Idx → EReal) := by
  obtain ⟨-, -, -, -, e0, e1, -⟩ := idx_facts1 t
  funext y
  unfold iblk1
  rw [View.read_apply]
  show V c main_arg1 _ = V c main_arg1 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 256 + 1 * (y 1).val = (y 1).val; rw [e1]; omega

/-- The block of the bias row at every point is the bias row. -/
theorem bias_block1_eq (c : Dev nD) (t : Fin cfg1.N) :
    (iblk1 V c 3 t : Vec Ideal S1x256 .f32) = (V c main_v23 : S1x256.Idx → EReal) := by
  obtain ⟨-, -, -, -, -, -, e0, e1, -⟩ := idx_facts1 t
  funext y
  unfold iblk1
  rw [View.read_apply]
  show V c main_v23 _ = V c main_v23 y
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 256 + 1 * (y 1).val = (y 1).val; rw [e1]; omega

/-- The block of the attention column at every point is the attention column. -/
theorem attn_block1_eq (c : Dev nD) (t : Fin cfg1.N) :
    (iblk1 V c 4 t : Vec Ideal S256x1 .f32) = (V c main_arg3 : S256x1.Idx → EReal) := by
  obtain ⟨-, -, -, -, -, -, -, -, e0, e1, -⟩ := idx_facts1 t
  funext y
  unfold iblk1
  rw [View.read_apply]
  show V c main_arg3 _ = V c main_arg3 y
  congr 1
  funext a
  apply Fin.ext
  match a with
  | ⟨0, _⟩ => show win1_4.index t (0 : Fin 2) * 256 + 1 * (y 0).val = (y 0).val; rw [e0]; omega
  | ⟨1, _⟩ => show win1_4.index t (1 : Fin 2) * 1 + 1 * (y 1).val = (y 1).val; rw [e1]; omega

/-- One row of a block, over any arrays: if row p of the agg block is row r of agg, the degree block at p is the
    degree of r and the bias block is the bias, then on row p the body's linear stage is hd on row r, its gate the
    gate of r, and its product the gated row r. -/
theorem row_values1 (agg : Cert.Gcn.Mat 110000 128) (W : Cert.Gcn.Mat 128 256) (attn : Cert.Gcn.Mat 256 1)
    (deg : Cert.Gcn.Vec1 110000) (bias : Cert.Gcn.Vec1 256)
    (x0 : Vec Ideal S10000x128 .f32) (x1 : Vec Ideal S10000x1 .f32) (x3 : Vec Ideal S1x256 .f32)
    (r : Fin 110000) (p : Fin 10000)
    (h0 : ∀ k : Fin 128, x0 (ix2 p k) = agg (ix2 r k))
    (h1 : x1 (ix2 p (0 : Fin 1)) = deg (ix1 r))
    (h3 : ∀ q : Fin 256, x3 (ix2 (0 : Fin 1) q) = bias (ix1 q)) :
    (∀ q : Fin 256, k1_pay1 (F := Ideal) x1 x0 W x3 (ix2 p q) = Cert.Gcn.lin agg deg W bias (ix2 r q))
    ∧ k1_pay2 (F := Ideal) x1 x0 W x3 attn (ix2 p (0 : Fin 1))
        = Cert.Gcn.gate (Cert.Gcn.lin agg deg W bias) attn (ix2 r (0 : Fin 1))
    ∧ (∀ q : Fin 256, k1_pay3 (F := Ideal) x1 x0 W x3 attn (ix2 p q)
        = Cert.Gcn.gated (Cert.Gcn.lin agg deg W bias) (Cert.Gcn.gate (Cert.Gcn.lin agg deg W bias) attn) (ix2 r q)) := by
  have hlin : ∀ q : Fin 256, k1_pay1 (F := Ideal) x1 x0 W x3 (ix2 p q) = Cert.Gcn.lin agg deg W bias (ix2 r q) := fun q => by
    rw [lin1_apply, Cert.Gcn.lin_apply, h1, h3 q]
    exact congrArg₂ (· + ·) (Finset.sum_congr rfl fun k _ => by rw [h0 k]) rfl
  have hgate : k1_pay2 (F := Ideal) x1 x0 W x3 attn (ix2 p (0 : Fin 1))
      = Cert.Gcn.gate (Cert.Gcn.lin agg deg W bias) attn (ix2 r (0 : Fin 1)) := by
    rw [gate1_apply, Cert.Gcn.gate_apply]
    exact congrArg Ideal.logistic (Finset.sum_congr rfl fun k _ => by rw [hlin k])
  refine ⟨hlin, hgate, fun q => ?_⟩
  rw [gated1_apply, Cert.Gcn.gated_apply, hlin q, hgate]

section Arrays

variable (c : Dev nD) (deg : Cert.Gcn.Vec1 110000) (bias : Cert.Gcn.Vec1 256)

/-- hd of the arrays the region finds. -/
abbrev hd1 : Cert.Gcn.Mat 110000 256 := Cert.Gcn.lin (V c main_v21) deg (V c main_arg1) bias

/-- On row p of the blocks at point t, the body's three values are those of row 10000 t + p of the arrays. -/
theorem point_values1
    (hcol : ∀ p : Fin 110000, V c main_v22 (ix2 p (0 : Fin 1)) = deg (ix1 p))
    (hrow : ∀ q : Fin 256, V c main_v23 (ix2 (0 : Fin 1) q) = bias (ix1 q))
    (t : Fin cfg1.N) (p : Fin 10000) (r : Fin 110000) (hr : r.val = t.val * 10000 + p.val) :
    k1_pay2 (F := Ideal) (iblk1 V c 1 t) (iblk1 V c 0 t) (iblk1 V c 2 t) (iblk1 V c 3 t) (iblk1 V c 4 t) (ix2 p (0 : Fin 1))
        = Cert.Gcn.gate (hd1 V c deg bias) (V c main_arg3) (ix2 r (0 : Fin 1))
    ∧ (∀ q : Fin 256, k1_pay3 (F := Ideal) (iblk1 V c 1 t) (iblk1 V c 0 t) (iblk1 V c 2 t) (iblk1 V c 3 t) (iblk1 V c 4 t) (ix2 p q)
        = Cert.Gcn.gated (hd1 V c deg bias) (Cert.Gcn.gate (hd1 V c deg bias) (V c main_arg3)) (ix2 r q)) := by
  rw [W_block1_eq V c t, bias_block1_eq V c t, attn_block1_eq V c t]
  exact (row_values1 (V c main_v21) (V c main_arg1) (V c main_arg3) deg bias (iblk1 V c 0 t) (iblk1 V c 1 t) (V c main_v23) r p
    (fun k => agg_block1_apply V c t p k r hr)
    ((deg_block1_apply V c t p r hr).trans (hcol r))
    hrow).2

end Arrays

section Final

variable (c : Dev nD) (deg : Cert.Gcn.Vec1 110000) (bias : Cert.Gcn.Vec1 256)
  (hcol : ∀ p : Fin 110000, V c main_v22 (ix2 p (0 : Fin 1)) = deg (ix1 p))
  (hrow : ∀ q : Fin 256, V c main_v23 (ix2 (0 : Fin 1) q) = bias (ix1 q))

include hcol hrow

/-- What point t writes back to the result window is block t of the gated rows of the arrays. -/
theorem gated_flushed1 (t : Fin cfg1.N) :
    (dat1 (F := Ideal) V c).flushed 5 t = ((cfg1.win 5).blk t).view.read (Elt Ideal)
      (Cert.Gcn.gated (hd1 V c deg bias) (Cert.Gcn.gate (hd1 V c deg bias) (V c main_arg3))) := by
  show (cfg1.win 5).cut (grid1.coords t) ((dat1 V c).after 5 t) = _
  rw [after1_5]
  unfold out1_5
  rw [View.canon_unit_zero zero_offsets1]
  simp only [View.ld_unit_zero (S := S10000x128) zero_offsets1, View.ld_unit_zero (S := S10000x1) zero_offsets1,
    View.ld_unit_zero (S := S128x256) zero_offsets1, View.ld_unit_zero (S := S1x256) zero_offsets1,
    View.ld_unit_zero (S := S256x1) zero_offsets1]
  funext j
  obtain ⟨p, q, rfl⟩ : ∃ (p : Fin 10000) (q : Fin 256), j = ix2 p q := ⟨j 0, j 1, eq_ix2 j⟩
  obtain ⟨-, -, -, -, -, -, -, -, -, -, e0, e1, -⟩ := idx_facts1 t
  have ht : t.val < 11 := lt_of_lt_of_eq t.isLt (show cfg1.N = 11 from N_1)
  have hr : (⟨t.val * 10000 + p.val, by have := p.isLt; omega⟩ : Fin 110000).val = t.val * 10000 + p.val := rfl
  rw [View.read_apply]
  refine ((point_values1 V c deg bias hcol hrow t p _ hr).2 q).trans ?_
  show _ = Cert.Gcn.gated (hd1 V c deg bias) (Cert.Gcn.gate (hd1 V c deg bias) (V c main_arg3)) (((cfg1.win 5).blk t).view.emb (ix2 p q))
  congr 1
  funext a
  apply Fin.ext
  match a with
  | ⟨0, _⟩ => show t.val * 10000 + p.val = win1_5.index t (0 : Fin 2) * 10000 + 1 * p.val; rw [e0]; omega
  | ⟨1, _⟩ => show q.val = win1_5.index t (1 : Fin 2) * 256 + 1 * q.val; rw [e1]; omega

/-- What point t writes back to the gate window is block t of the gate column of the arrays. -/
theorem gate_flushed1 (t : Fin cfg1.N) :
    (dat1 (F := Ideal) V c).flushed 6 t = ((cfg1.win 6).blk t).view.read (Elt Ideal)
      (Cert.Gcn.gate (hd1 V c deg bias) (V c main_arg3)) := by
  show (cfg1.win 6).cut (grid1.coords t) ((dat1 V c).after 6 t) = _
  rw [after1_6]
  unfold out1_6
  rw [View.canon_unit_zero zero_offsets1]
  simp only [View.ld_unit_zero (S := S10000x128) zero_offsets1, View.ld_unit_zero (S := S10000x1) zero_offsets1,
    View.ld_unit_zero (S := S128x256) zero_offsets1, View.ld_unit_zero (S := S1x256) zero_offsets1,
    View.ld_unit_zero (S := S256x1) zero_offsets1]
  funext j
  obtain ⟨p, q, rfl⟩ : ∃ (p : Fin 10000) (q : Fin 1), j = ix2 p q := ⟨j 0, j 1, eq_ix2 j⟩
  obtain rfl : q = 0 := Subsingleton.elim _ _
  obtain ⟨-, -, -, -, -, -, -, -, -, -, -, -, e0, e1⟩ := idx_facts1 t
  have ht : t.val < 11 := lt_of_lt_of_eq t.isLt (show cfg1.N = 11 from N_1)
  have hr : (⟨t.val * 10000 + p.val, by have := p.isLt; omega⟩ : Fin 110000).val = t.val * 10000 + p.val := rfl
  rw [View.read_apply]
  refine (point_values1 V c deg bias hcol hrow t p _ hr).1.trans ?_
  show _ = Cert.Gcn.gate (hd1 V c deg bias) (V c main_arg3) (((cfg1.win 6).blk t).view.emb (ix2 p (0 : Fin 1)))
  congr 1
  funext a
  apply Fin.ext
  match a with
  | ⟨0, _⟩ => show t.val * 10000 + p.val = win1_6.index t (0 : Fin 2) * 10000 + 1 * p.val; rw [e0]; omega
  | ⟨1, _⟩ => show 0 = win1_6.index t (1 : Fin 2) * 1 + 1 * 0; rw [e1]

omit hcol hrow

/-- An index of the result array is in point t's block iff each coordinate is in the block's range on its axis. -/
theorem mem_gated_blk1 (t : Fin cfg1.N) (i : S110000x256.Idx) :
    i ∈ ((cfg1.win 5).blk t).view.set ↔ ∀ a : Fin 2, win1_5.index t a * S10000x256.size a ≤ (i a).val ∧ (i a).val < win1_5.index t a * S10000x256.size a + S10000x256.size a := by
  show i ∈ ((View.whole main_v24_0).slice (win1_5.rect t)).set ↔ _
  rw [View.set_slice_whole, Rect.mem_set_unit]
  exact Iff.rfl

/-- An index of the gate column is in point t's block iff each coordinate is in the block's range on its axis. -/
theorem mem_gate_blk1 (t : Fin cfg1.N) (i : S110000x1.Idx) :
    i ∈ ((cfg1.win 6).blk t).view.set ↔ ∀ a : Fin 2, win1_6.index t a * S10000x1.size a ≤ (i a).val ∧ (i a).val < win1_6.index t a * S10000x1.size a + S10000x1.size a := by
  show i ∈ ((View.whole main_v24_1).slice (win1_6.rect t)).set ↔ _
  rw [View.set_slice_whole, Rect.mem_set_unit]
  exact Iff.rfl

/-- The blocks of the result window tile the array: row r is in the block of point r / 10000. -/
theorem gated_cover1 (i : S110000x256.Idx) :
    ∃ t : Fin cfg1.N, (cfg1.win 5).flush t = true ∧ i ∈ ((cfg1.win 5).blk t).view.set := by
  have hi0 : (i 0).val < 110000 := (i 0).isLt
  have hi1 : (i 1).val < 256 := (i 1).isLt
  have hN : cfg1.N = 11 := N_1
  have ht : (i 0).val / 10000 < cfg1.N := by rw [hN]; omega
  obtain ⟨-, -, -, -, -, -, -, -, -, -, e0, e1, -⟩ := idx_facts1 ⟨(i 0).val / 10000, ht⟩
  refine ⟨⟨(i 0).val / 10000, ht⟩, flush1_5 _, ?_⟩
  rw [mem_gated_blk1]
  intro a
  match a with
  | ⟨0, _⟩ =>
    show win1_5.index ⟨(i 0).val / 10000, ht⟩ (0 : Fin 2) * 10000 ≤ (i 0).val ∧ (i 0).val < win1_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_5.index ⟨(i 0).val / 10000, ht⟩ (1 : Fin 2) * 256 ≤ (i 1).val ∧ (i 1).val < win1_5.index ⟨(i 0).val / 10000, ht⟩ (1 : Fin 2) * 256 + 256
    rw [e1]; omega

/-- The blocks of the gate window tile the column: row r is in the block of point r / 10000. -/
theorem gate_cover1 (i : S110000x1.Idx) :
    ∃ t : Fin cfg1.N, (cfg1.win 6).flush t = true ∧ i ∈ ((cfg1.win 6).blk t).view.set := by
  have hi0 : (i 0).val < 110000 := (i 0).isLt
  have hi1 : (i 1).val < 1 := (i 1).isLt
  have hN : cfg1.N = 11 := N_1
  have ht : (i 0).val / 10000 < cfg1.N := by rw [hN]; omega
  obtain ⟨-, -, -, -, -, -, -, -, -, -, -, -, e0, e1⟩ := idx_facts1 ⟨(i 0).val / 10000, ht⟩
  refine ⟨⟨(i 0).val / 10000, ht⟩, flush1_6 _, ?_⟩
  rw [mem_gate_blk1]
  intro a
  match a with
  | ⟨0, _⟩ =>
    show win1_6.index ⟨(i 0).val / 10000, ht⟩ (0 : Fin 2) * 10000 ≤ (i 0).val ∧ (i 0).val < win1_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_6.index ⟨(i 0).val / 10000, ht⟩ (1 : Fin 2) * 1 ≤ (i 1).val ∧ (i 1).val < win1_6.index ⟨(i 0).val / 10000, ht⟩ (1 : Fin 2) * 1 + 1
    rw [e1]; omega

end Final

/-- AFTER THE REGION: if the degree column holds the in-degree of every row and the bias row holds the bias, the
    result array holds hd (p, q) times the gate of p and the gate column holds the gate of p, where
    hd (p, q) = (sum over k of agg (p, k) * rsqrt (deg p) * W (k, q)) + bias q and the gate of p is the logistic
    function of the sum over k of hd (p, k) * attn (k, 0). -/
theorem gate1_value (c : Dev nD) (deg : Cert.Gcn.Vec1 110000) (bias : Cert.Gcn.Vec1 256)
    (hcol : ∀ p : Fin 110000, V c main_v22 (ix2 p (0 : Fin 1)) = deg (ix1 p))
    (hrow : ∀ q : Fin 256, V c main_v23 (ix2 (0 : Fin 1) q) = bias (ix1 q)) :
    (dat1 (F := Ideal) V c).arrAt 5 cfg1.N
        = Cert.Gcn.gated (Cert.Gcn.lin (V c main_v21) deg (V c main_arg1) bias)
            (Cert.Gcn.gate (Cert.Gcn.lin (V c main_v21) deg (V c main_arg1) bias) (V c main_arg3))
    ∧ (dat1 (F := Ideal) V c).arrAt 6 cfg1.N
        = Cert.Gcn.gate (Cert.Gcn.lin (V c main_v21) deg (V c main_arg1) bias) (V c main_arg3) :=
  ⟨(dat1 (F := Ideal) V c).arrAt_eq_of_cover 5 _ (fun t _ => gated_flushed1 V c deg bias hcol hrow t) (gated_cover1),
   (dat1 (F := Ideal) V c).arrAt_eq_of_cover 6 _ (fun t _ => gate_flushed1 V c deg bias hcol hrow t) (gate_cover1)⟩

end Cert.KernelIdeal.GcnValue

end
-- ==== Proof.Scale2.lean ====
/-
  The second scaling region, read as one function of the arrays it is given.

  The feature array h : [110000, 256] is cut along its rows into 22 blocks of 5000 rows, and the column [110000, 1]
  of scaling factors into the 22 blocks of the same rows. At block t the body multiplies every entry of the feature
  block by the factor of its row: entry (p, q) of the result block is h (5000 t + p, q) times the column's entry in
  row 5000 t + p, and depends on nothing else. Block t goes back to rows 5000 t … 5000 t + 4999 of the result, so row
  r of the result is written by block r / 5000 and by no other, and the 22 blocks tile the array. When the column
  holds in row r the inverse square root of deg r, the result is h with row r scaled by the inverse square root of
  deg r.
-/
import proofs.«155848_j37503654429370_1_alg».proof.Proof.Gen.KernelIdeal.Frame
import proofs.«155848_j37503654429370_1_alg».proof.Proof.Spec
import Idealize.ShloMosaic.Lib.ValueIdx
import Idealize.ShloMosaic.Lib.Pipeline.Value

noncomputable section

namespace Cert.KernelIdeal.GcnValue

open Cert.KernelIdeal Cert.KernelIdeal.Gen Idealize.ShloMosaic Idealize.ShloMosaic.ValueIdx
open Idealize.ShloMosaic.TcCoe

variable (V : (c : Dev nD) → (b : Ref sig .tc) → Buf (Elt Ideal) ((c : Thread nD τ).loc b))

/-- Both offsets of a whole-block access are zero. -/
theorem scale2_offsets : (![0, 0] : Fin 2 → Nat) = fun _ => 0 := funext fun a => by fin_cases a <;> rfl

/-- A column [a, 1] broadcast across the columns of [a, b]: at (p, q), the column's entry in row p. -/
theorem scale2_column_across {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at (p, q): the feature block's entry times the column block's entry in row p (both blocks
    are first cast to their own shapes, which changes nothing). -/
theorem scale2_body_apply (x0 : Vec Ideal S5000x256 .f32) (x1 : Vec Ideal S5000x1 .f32) (p : Fin 5000) (q : Fin 256) :
    k2_pay1 x0 x1 (ix2 p q) = x0 (ix2 p q) * x1 (ix2 p (0 : Fin 1)) := by
  unfold k2_pay1
  refine (mulf_apply _ _ _).trans ?_
  refine congrArg₂ (· * ·) (congrFun (shapeCast_self x0 _) _) ?_
  exact (scale2_column_across _ _ p q).trans (congrFun (shapeCast_self x1 _) _)

/-- The printed index maps, decided over the grid: at point t every window is on block row t, block column 0. -/
theorem scale2_block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Entry (p, q) of the feature block at point t is entry (5000 t + p, q) of the feature array. -/
theorem scale2_feature_block (c : Dev nD) (t : Fin cfg2.N) (p : Fin 5000) (q : Fin 256) (k : S110000x256.Idx)
    (hk0 : (k 0).val = 5000 * t.val + p.val) (hk1 : (k 1).val = q.val) :
    (iblk2 V c 0 t : Vec Ideal S5000x256 .f32) (ix2 p q) = (V c main_v24_0 : S110000x256.Idx → EReal) k := by
  obtain ⟨e0, e1, -⟩ := scale2_block_index t
  unfold iblk2
  rw [View.read_apply]
  show (V c main_v24_0 : S110000x256.Idx → EReal) _ = _
  congr 1
  funext a
  apply Fin.ext
  match a with
  | ⟨0, _⟩ => show win2_0.index t (0 : Fin 2) * 5000 + 1 * p.val = (k 0).val; rw [e0, hk0]; omega
  | ⟨1, _⟩ => show win2_0.index t (1 : Fin 2) * 256 + 1 * q.val = (k 1).val; rw [e1, hk1]; omega

/-- Entry (p, 0) of the column block at point t is entry (5000 t + p, 0) of the column. -/
theorem scale2_column_block (c : Dev nD) (t : Fin cfg2.N) (p : Fin 5000) (k : S110000x1.Idx)
    (hk0 : (k 0).val = 5000 * t.val + p.val) :
    (iblk2 V c 1 t : Vec Ideal S5000x1 .f32) (ix2 p (0 : Fin 1)) = (V c main_v35 : S110000x1.Idx → EReal) k := by
  obtain ⟨-, -, e0, e1, -⟩ := scale2_block_index t
  unfold iblk2
  rw [View.read_apply]
  show (V c main_v35 : S110000x1.Idx → EReal) _ = _
  congr 1
  funext a
  apply Fin.ext
  match a with
  | ⟨0, _⟩ => show win2_1.index t (0 : Fin 2) * 5000 + 1 * p.val = (k 0).val; rw [e0, hk0]; omega
  | ⟨1, _⟩ =>
    show win2_1.index t (1 : Fin 2) * 1 + 1 * (0 : Fin 1).val = (k 1).val
    have hk1 : (k 1).val < 1 := (k 1).isLt
    rw [e1]
    show 0 * 1 + 1 * 0 = (k 1).val
    omega

/-- One entry, over any blocks: if the feature block's entry (p, q) is the array's entry (r, q) and the column block's
    entry in row p is the column's in row r, and the column holds the inverse square roots of the degrees, then the
    body's product at (p, q) is the scaled array's entry (r, q). -/
theorem scale2_entry (h : Cert.Gcn.Mat 110000 256) (col : Cert.Gcn.Mat 110000 1) (deg : Cert.Gcn.Vec1 110000)
    (hcol : ∀ p : Fin 110000, col (ix2 p (0 : Fin 1)) = Ideal.rsqrt (deg (ix1 p)))
    (x0 : Vec Ideal S5000x256 .f32) (x1 : Vec Ideal S5000x1 .f32) (r : Fin 110000) (p : Fin 5000) (q : Fin 256)
    (h0 : x0 (ix2 p q) = h (ix2 r q)) (h1 : x1 (ix2 p (0 : Fin 1)) = col (ix2 r (0 : Fin 1))) :
    k2_pay1 x0 x1 (ix2 p q) = Cert.Gcn.scale h deg (ix2 r q) := by
  rw [scale2_body_apply, h0, h1, hcol, Cert.Gcn.scale_apply]

/-- WHAT POINT t WRITES BACK is block t of the feature array scaled row by row. -/
theorem scale2_written (c : Dev nD) (deg : Cert.Gcn.Vec1 110000)
    (hcol : ∀ p : Fin 110000, V c main_v35 (ix2 p (0 : Fin 1)) = Ideal.rsqrt (deg (ix1 p))) (t : Fin cfg2.N) :
    (dat2 (F := Ideal) V c).flushed 2 t
      = ((cfg2.win 2).blk t).view.read (Elt Ideal) (Cert.Gcn.scale (V c main_v24_0) deg) := by
  show (cfg2.win 2).cut (grid2.coords t) ((dat2 V c).after 2 t) = _
  rw [after2_2]
  unfold out2_2
  rw [View.canon_unit_zero scale2_offsets]
  simp only [View.ld_unit_zero (S := S5000x256) scale2_offsets, View.ld_unit_zero (S := S5000x1) scale2_offsets]
  refine funext fun (j : S5000x256.Idx) => ?_
  obtain ⟨p, q, rfl⟩ : ∃ (p : Fin 5000) (q : Fin 256), j = ix2 p q := ⟨j 0, j 1, eq_ix2 j⟩
  have hN : cfg2.N = 22 := N_2
  have hr : 5000 * t.val + p.val < 110000 := by have := t.isLt; have := p.isLt; omega
  obtain ⟨-, -, -, -, e0, e1⟩ := scale2_block_index t
  have hemb : ((cfg2.win 2).blk t).view.emb (ix2 p q) = ix2 (⟨5000 * t.val + p.val, hr⟩ : Fin 110000) q := by
    funext a
    apply Fin.ext
    match a with
    | ⟨0, _⟩ => show win2_2.index t (0 : Fin 2) * 5000 + 1 * p.val = 5000 * t.val + p.val; rw [e0]; omega
    | ⟨1, _⟩ => show win2_2.index t (1 : Fin 2) * 256 + 1 * q.val = q.val; rw [e1]; omega
  show k2_pay1 (iblk2 V c 0 t) (iblk2 V c 1 t) (ix2 p q)
    = Cert.Gcn.scale (V c main_v24_0) deg (((cfg2.win 2).blk t).view.emb (ix2 p q))
  rw [hemb]
  exact scale2_entry (V c main_v24_0) (V c main_v35) deg hcol (iblk2 V c 0 t) (iblk2 V c 1 t) ⟨_, hr⟩ p q
    (scale2_feature_block V c t p q _ rfl rfl) (scale2_column_block V c t p _ rfl)

/-- An index of the result array is in point t's block iff each coordinate is in the block's range on its axis. -/
theorem scale2_mem_block (t : Fin cfg2.N) (i : S110000x256.Idx) :
    i ∈ ((cfg2.win 2).blk t).view.set
      ↔ ∀ a : Fin 2, win2_2.index t a * S5000x256.size a ≤ (i a).val
          ∧ (i a).val < win2_2.index t a * S5000x256.size a + S5000x256.size a := by
  show i ∈ ((View.whole main_v36).slice (win2_2.rect t)).set ↔ _
  rw [View.set_slice_whole, Rect.mem_set_unit]
  exact Iff.rfl

/-- THE BLOCKS TILE THE ARRAY: row r lies in the block of point r / 5000, which is written back. -/
theorem scale2_tiled (i : S110000x256.Idx) :
    ∃ t : Fin cfg2.N, (cfg2.win 2).flush t = true ∧ i ∈ ((cfg2.win 2).blk t).view.set := by
  have hi0 : (i 0).val < 110000 := (i 0).isLt
  have hi1 : (i 1).val < 256 := (i 1).isLt
  have hN : cfg2.N = 22 := N_2
  have ht : (i 0).val / 5000 < cfg2.N := by rw [hN]; omega
  obtain ⟨-, -, -, -, e0, e1⟩ := scale2_block_index ⟨(i 0).val / 5000, ht⟩
  refine ⟨⟨(i 0).val / 5000, ht⟩, flush2_2 _, ?_⟩
  rw [scale2_mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_2.index ⟨(i 0).val / 5000, ht⟩ (1 : Fin 2) * 256 ≤ (i 1).val
      ∧ (i 1).val < win2_2.index ⟨(i 0).val / 5000, ht⟩ (1 : Fin 2) * 256 + 256
    rw [e1]
    omega

/-- THE RESULT ARRAY after the region: the feature array with row p scaled by the inverse square root of deg p. -/
theorem scale2_value (c : Dev nD) (deg : Cert.Gcn.Vec1 110000)
    (hcol : ∀ p : Fin 110000, V c main_v35 (ix2 p (0 : Fin 1)) = Ideal.rsqrt (deg (ix1 p))) :
    (dat2 (F := Ideal) V c).arrAt 2 cfg2.N = Cert.Gcn.scale (V c main_v24_0) deg :=
  (dat2 (F := Ideal) V c).arrAt_eq_of_cover 2 (Cert.Gcn.scale (V c main_v24_0) deg)
    (fun t _ => scale2_written V c deg hcol t) scale2_tiled

end Cert.KernelIdeal.GcnValue

end
-- ==== Proof.Gate3.lean ====
/-
  The second gate region of the two-layer graph convolution, read as mathematics.

  The region has one block: the whole arrays. It takes the aggregated features agg [10000, 256], the in-degree
  column [10000, 1], the weights W [256, 128], the bias row [1, 128] and the attention column [128, 1], and computes,
  with hd (p, q) = (sum over k of agg (p, k) * rsqrt (deg p) * W (k, q)) + bias q, the gate
  logistic (sum over k of hd (p, k) * attn (k, 0)) of every row p and the product hd (p, q) * gate p. After the
  region the result array holds the gated rows and the gate column holds the gates, as functions of the arrays
  the region found.
-/
import proofs.«155848_j37503654429370_1_alg».proof.Proof.Gen.KernelIdeal.Frame
import proofs.«155848_j37503654429370_1_alg».proof.Proof.Spec
import proofs.«155848_j37503654429370_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GcnValue

open Cert.KernelIdeal Cert.KernelIdeal.Gen Idealize.ShloMosaic Idealize.ShloMosaic.ValueIdx Idealize.ShloMosaic.TcCoe

/-! ## A column broadcast across the columns -/

/-- A column [a, 1] broadcast across the columns of [a, b]: at (p, q), the column at p. -/
theorem column_bcast3_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The two products of the body, each a plain sum over the contracted axis -/

theorem lhs_dotA3_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl
theorem lhs_dotA3_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs_dotA3_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs_dotA3_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The [10000, 256] by [256, 128] product into a zero accumulator, at (p, q): the sum over k of x (p, k) * w (k, q). -/
theorem dotA3_apply (x : FVec Ideal S10000x256 .bf16) (w : FVec Ideal S256x128 .bf16) (p : Fin 10000) (q : Fin 128) :
    matmul dot_S10000x256_S256x128_S10000x128_1_0_0_1_n_n none x w (constant (F := Ideal) S10000x128 .f32 0x00000000#32) (ix2 p q)
      = ∑ k : Fin 256, x (ix2 p k) * w (ix2 k q) := by
  simp only [matmul]
  rw [Ideal.matmul_constant_zero_apply, ← Equiv.sum_comp (ValueIdx.contrEquiv1 dot_S10000x256_S256x128_S10000x128_1_0_0_1_n_n 256 rfl rfl).symm]
  refine Finset.sum_congr rfl fun k _ => ?_
  have hk := ValueIdx.contrEquiv1_symm_val dot_S10000x256_S256x128_S10000x128_1_0_0_1_n_n 256 rfl rfl k
  have el : dot_S10000x256_S256x128_S10000x128_1_0_0_1_n_n.lhsIdx (ix2 p q) ((ValueIdx.contrEquiv1 dot_S10000x256_S256x128_S10000x128_1_0_0_1_n_n 256 rfl rfl).symm k) = ix2 p k := funext fun a => Fin.ext (by
    match a with
    | ⟨0, _⟩ => exact lhs_dotA3_0 _ _
    | ⟨1, _⟩ => exact (lhs_dotA3_1 _ _).trans hk)
  have er : dot_S10000x256_S256x128_S10000x128_1_0_0_1_n_n.rhsIdx (ix2 p q) ((ValueIdx.contrEquiv1 dot_S10000x256_S256x128_S10000x128_1_0_0_1_n_n 256 rfl rfl).symm k) = ix2 k q := funext fun a => Fin.ext (by
    match a with
    | ⟨0, _⟩ => exact (rhs_dotA3_0 _ _).trans hk
    | ⟨1, _⟩ => exact rhs_dotA3_1 _ _)
  rw [el, er]

theorem lhs_dotB3_0 (i : S10000x1.Idx) (q : dot_S10000x128_S128x1_S10000x1_1_0_0_1_n_n.contr.Idx) :
    (dot_S10000x128_S128x1_S10000x1_1_0_0_1_n_n.lhsIdx i q 0).val = (i 0).val := by
  unfold DotDims.lhsIdx
  rw [dif_neg (show ¬(0 : Fin S10000x128.rank) ∈ dot_S10000x128_S128x1_S10000x1_1_0_0_1_n_n.lhsBatch by decide), dif_pos (show (0 : Fin S10000x128.rank) ∈ dot_S10000x128_S128x1_S10000x1_1_0_0_1_n_n.lhsNonContracting by decide)]
  rfl
theorem lhs_dotB3_1 (i : S10000x1.Idx) (q : dot_S10000x128_S128x1_S10000x1_1_0_0_1_n_n.contr.Idx) :
    (dot_S10000x128_S128x1_S10000x1_1_0_0_1_n_n.lhsIdx i q 1).val = (q ⟨0, by decide⟩).val :=
  dot_S10000x128_S128x1_S10000x1_1_0_0_1_n_n.lhsIdx_val_of_single rfl i q
theorem rhs_dotB3_0 (i : S10000x1.Idx) (q : dot_S10000x128_S128x1_S10000x1_1_0_0_1_n_n.contr.Idx) :
    (dot_S10000x128_S128x1_S10000x1_1_0_0_1_n_n.rhsIdx i q 0).val = (q ⟨0, by decide⟩).val :=
  dot_S10000x128_S128x1_S10000x1_1_0_0_1_n_n.rhsIdx_val_of_single rfl i q
theorem rhs_dotB3_1 (i : S10000x1.Idx) (q : dot_S10000x128_S128x1_S10000x1_1_0_0_1_n_n.contr.Idx) :
    (dot_S10000x128_S128x1_S10000x1_1_0_0_1_n_n.rhsIdx i q 1).val = (i 1).val := by
  unfold DotDims.rhsIdx
  rw [dif_neg (show ¬(1 : Fin S128x1.rank) ∈ dot_S10000x128_S128x1_S10000x1_1_0_0_1_n_n.rhsBatch by decide), dif_pos (show (1 : Fin S128x1.rank) ∈ dot_S10000x128_S128x1_S10000x1_1_0_0_1_n_n.rhsNonContracting by decide)]
  rfl

/-- The [10000, 128] by [128, 1] product into a zero accumulator, at (p, 0): the sum over k of x (p, k) * w (k, 0). -/
theorem dotB3_apply (x : FVec Ideal S10000x128 .bf16) (w : FVec Ideal S128x1 .bf16) (p : Fin 10000) :
    matmul dot_S10000x128_S128x1_S10000x1_1_0_0_1_n_n none x w (constant (F := Ideal) S10000x1 .f32 0x00000000#32) (ix2 p (0 : Fin 1))
      = ∑ k : Fin 128, x (ix2 p k) * w (ix2 k (0 : Fin 1)) := by
  simp only [matmul]
  rw [Ideal.matmul_constant_zero_apply, ← Equiv.sum_comp (ValueIdx.contrEquiv1 dot_S10000x128_S128x1_S10000x1_1_0_0_1_n_n 128 rfl rfl).symm]
  refine Finset.sum_congr rfl fun k _ => ?_
  have hk := ValueIdx.contrEquiv1_symm_val dot_S10000x128_S128x1_S10000x1_1_0_0_1_n_n 128 rfl rfl k
  have el : dot_S10000x128_S128x1_S10000x1_1_0_0_1_n_n.lhsIdx (ix2 p (0 : Fin 1)) ((ValueIdx.contrEquiv1 dot_S10000x128_S128x1_S10000x1_1_0_0_1_n_n 128 rfl rfl).symm k) = ix2 p k := funext fun a => Fin.ext (by
    match a with
    | ⟨0, _⟩ => exact lhs_dotB3_0 _ _
    | ⟨1, _⟩ => exact (lhs_dotB3_1 _ _).trans hk)
  have er : dot_S10000x128_S128x1_S10000x1_1_0_0_1_n_n.rhsIdx (ix2 p (0 : Fin 1)) ((ValueIdx.contrEquiv1 dot_S10000x128_S128x1_S10000x1_1_0_0_1_n_n 128 rfl rfl).symm k) = ix2 k (0 : Fin 1) := funext fun a => Fin.ext (by
    match a with
    | ⟨0, _⟩ => exact (rhs_dotB3_0 _ _).trans hk
    | ⟨1, _⟩ => exact rhs_dotB3_1 _ _)
  rw [el, er]

/-! ## The body's three values at an index -/

/-- The linear stage of a block at (p, q): the sum over k of agg (p, k) * rsqrt (deg p) * W (k, q), plus the bias at q. -/
theorem lin3_apply (v0 : Vec Ideal S10000x1 .f32) (v3 : Vec Ideal S10000x256 .f32) (v8 : Vec Ideal S256x128 .f32) (v1 : Vec Ideal S1x128 .f32)
    (p : Fin 10000) (q : Fin 128) :
    k3_pay1 (F := Ideal) v0 v3 v8 v1 (ix2 p q)
      = (∑ k : Fin 256, v3 (ix2 p k) * Ideal.rsqrt (v0 (ix2 p (0 : Fin 1))) * v8 (ix2 k q)) + v1 (ix2 (0 : Fin 1) q) := by
  unfold k3_pay1
  refine (addf_apply _ _ _).trans ?_
  refine congrArg₂ (· + ·) ?_ ?_
  · refine (dotA3_apply _ _ p q).trans (Finset.sum_congr rfl fun k _ => ?_)
    refine congrArg₂ (· * ·) ?_ rfl
    refine (mulf_apply _ _ _).trans ?_
    refine congrArg₂ (· * ·) (congrFun (shapeCast_self v3 _) _) ?_
    refine (column_bcast3_apply _ _ p k).trans ?_
    show Ideal.rsqrt (shapeCast S10000x1 v0 _ (ix2 p (0 : Fin 1))) = _
    rw [shapeCast_self]
  · exact Cert.LibKeepdims.row_broadcast_apply v1 _ _ p q

/-- The gate of a block's row p: the logistic function of the sum over k of hd (p, k) * attn (k, 0). -/
theorem gate3_apply (v0 : Vec Ideal S10000x1 .f32) (v3 : Vec Ideal S10000x256 .f32) (v8 : Vec Ideal S256x128 .f32) (v1 : Vec Ideal S1x128 .f32)
    (v16 : Vec Ideal S128x1 .f32) (p : Fin 10000) :
    k3_pay2 (F := Ideal) v0 v3 v8 v1 v16 (ix2 p (0 : Fin 1))
      = Ideal.logistic (∑ k : Fin 128, k3_pay1 (F := Ideal) v0 v3 v8 v1 (ix2 p k) * v16 (ix2 k (0 : Fin 1))) := by
  unfold k3_pay2
  show Ideal.logistic (matmul (F := Ideal) _ none _ _ _ (ix2 p (0 : Fin 1))) = _
  rw [dotB3_apply]
  rfl

/-- The gated block at (p, q): hd (p, q) times the gate of row p. -/
theorem gated3_apply (v0 : Vec Ideal S10000x1 .f32) (v3 : Vec Ideal S10000x256 .f32) (v8 : Vec Ideal S256x128 .f32) (v1 : Vec Ideal S1x128 .f32)
    (v16 : Vec Ideal S128x1 .f32) (p : Fin 10000) (q : Fin 128) :
    k3_pay3 (F := Ideal) v0 v3 v8 v1 v16 (ix2 p q)
      = k3_pay1 (F := Ideal) v0 v3 v8 v1 (ix2 p q) * k3_pay2 (F := Ideal) v0 v3 v8 v1 v16 (ix2 p (0 : Fin 1)) := by
  unfold k3_pay3
  refine (mulf_apply _ _ _).trans ?_
  exact congrArg₂ (· * ·) rfl (column_bcast3_apply _ _ p q)

/-! ## From the blocks to the arrays -/

variable (V : (c : Dev nD) → (b : Ref sig .tc) → Buf (Elt Ideal) ((c : Thread nD τ).loc b))

theorem zero_offsets3 : (![0, 0] : Fin 2 → Nat) = fun _ => 0 := funext fun a => by fin_cases a <;> rfl

/-- The printed index maps over the one point: the row blocks of agg, of the degree column, of the result and of
    the gate column are at block row t; W, the bias row and the attention column are read whole at every point. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- Row p of the block of agg at point t is row 10000 t + p of agg. -/
theorem agg_block3_apply (c : Dev nD) (t : Fin cfg3.N) (p : Fin 10000) (k : Fin 256) (r : Fin 10000)
    (hr : r.val = t.val * 10000 + p.val) :
    (iblk3 V c 0 t : Vec Ideal S10000x256 .f32) (ix2 p k) = (V c main_v46 : S10000x256.Idx → EReal) (ix2 r k) := by
  obtain ⟨e0, e1, -⟩ := idx_facts3 t
  unfold iblk3
  rw [View.read_apply]
  show V c main_v46 _ = V c main_v46 _
  congr 1
  funext a
  apply Fin.ext
  match a with
  | ⟨0, _⟩ => show win3_0.index t (0 : Fin 2) * 10000 + 1 * p.val = r.val; rw [e0, hr]; omega
  | ⟨1, _⟩ => show win3_0.index t (1 : Fin 2) * 256 + 1 * k.val = k.val; rw [e1]; omega

/-- Row p of the block of the degree column at point t is row 10000 t + p of the column. -/
theorem deg_block3_apply (c : Dev nD) (t : Fin cfg3.N) (p : Fin 10000) (r : Fin 10000)
    (hr : r.val = t.val * 10000 + p.val) :
    (iblk3 V c 1 t : Vec Ideal S10000x1 .f32) (ix2 p (0 : Fin 1)) = (V c main_v47 : S10000x1.Idx → EReal) (ix2 r (0 : Fin 1)) := by
  obtain ⟨-, -, e0, e1, -⟩ := idx_facts3 t
  unfold iblk3
  rw [View.read_apply]
  show V c main_v47 _ = V c main_v47 _
  congr 1
  funext a
  apply Fin.ext
  match a with
  | ⟨0, _⟩ => show win3_1.index t (0 : Fin 2) * 10000 + 1 * p.val = r.val; rw [e0, hr]; omega
  | ⟨1, _⟩ => show win3_1.index t (1 : Fin 2) * 1 + 1 * 0 = 0; rw [e1]

/-- The block of W at every point is W. -/
theorem W_block3_eq (c : Dev nD) (t : Fin cfg3.N) :
    (iblk3 V c 2 t : Vec Ideal S256x128 .f32) = (V c main_arg4 : S256x128.Idx → EReal) := by
  obtain ⟨-, -, -, -, e0, e1, -⟩ := idx_facts3 t
  funext y
  unfold iblk3
  rw [View.read_apply]
  show V c main_arg4 _ = V c main_arg4 y
  congr 1
  funext a
  apply Fin.ext
  match a with
  | ⟨0, _⟩ => show win3_2.index t (0 : Fin 2) * 256 + 1 * (y 0).val = (y 0).val; rw [e0]; omega
  | ⟨1, _⟩ => show win3_2.index t (1 : Fin 2) * 128 + 1 * (y 1).val = (y 1).val; rw [e1]; omega

/-- The block of the bias row at every point is the bias row. -/
theorem bias_block3_eq (c : Dev nD) (t : Fin cfg3.N) :
    (iblk3 V c 3 t : Vec Ideal S1x128 .f32) = (V c main_v48 : S1x128.Idx → EReal) := by
  obtain ⟨-, -, -, -, -, -, e0, e1, -⟩ := idx_facts3 t
  funext y
  unfold iblk3
  rw [View.read_apply]
  show V c main_v48 _ = V c main_v48 y
  congr 1
  funext a
  apply Fin.ext
  match a with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

/-- The block of the attention column at every point is the attention column. -/
theorem attn_block3_eq (c : Dev nD) (t : Fin cfg3.N) :
    (iblk3 V c 4 t : Vec Ideal S128x1 .f32) = (V c main_arg6 : S128x1.Idx → EReal) := by
  obtain ⟨-, -, -, -, -, -, -, -, e0, e1, -⟩ := idx_facts3 t
  funext y
  unfold iblk3
  rw [View.read_apply]
  show V c main_arg6 _ = V c main_arg6 y
  congr 1
  funext a
  apply Fin.ext
  match a with
  | ⟨0, _⟩ => show win3_4.index t (0 : Fin 2) * 128 + 1 * (y 0).val = (y 0).val; rw [e0]; omega
  | ⟨1, _⟩ => show win3_4.index t (1 : Fin 2) * 1 + 1 * (y 1).val = (y 1).val; rw [e1]; omega

/-- One row of a block, over any arrays: if row p of the agg block is row r of agg, the degree block at p is the
    degree of r and the bias block is the bias, then on row p the body's linear stage is hd on row r, its gate the
    gate of r, and its product the gated row r. -/
theorem row_values3 (agg : Cert.Gcn.Mat 10000 256) (W : Cert.Gcn.Mat 256 128) (attn : Cert.Gcn.Mat 128 1)
    (deg : Cert.Gcn.Vec1 10000) (bias : Cert.Gcn.Vec1 128)
    (x0 : Vec Ideal S10000x256 .f32) (x1 : Vec Ideal S10000x1 .f32) (x3 : Vec Ideal S1x128 .f32)
    (r : Fin 10000) (p : Fin 10000)
    (h0 : ∀ k : Fin 256, x0 (ix2 p k) = agg (ix2 r k))
    (h1 : x1 (ix2 p (0 : Fin 1)) = deg (ix1 r))
    (h3 : ∀ q : Fin 128, x3 (ix2 (0 : Fin 1) q) = bias (ix1 q)) :
    (∀ q : Fin 128, k3_pay1 (F := Ideal) x1 x0 W x3 (ix2 p q) = Cert.Gcn.lin agg deg W bias (ix2 r q))
    ∧ k3_pay2 (F := Ideal) x1 x0 W x3 attn (ix2 p (0 : Fin 1))
        = Cert.Gcn.gate (Cert.Gcn.lin agg deg W bias) attn (ix2 r (0 : Fin 1))
    ∧ (∀ q : Fin 128, k3_pay3 (F := Ideal) x1 x0 W x3 attn (ix2 p q)
        = Cert.Gcn.gated (Cert.Gcn.lin agg deg W bias) (Cert.Gcn.gate (Cert.Gcn.lin agg deg W bias) attn) (ix2 r q)) := by
  have hlin : ∀ q : Fin 128, k3_pay1 (F := Ideal) x1 x0 W x3 (ix2 p q) = Cert.Gcn.lin agg deg W bias (ix2 r q) := fun q => by
    rw [lin3_apply, Cert.Gcn.lin_apply, h1, h3 q]
    exact congrArg₂ (· + ·) (Finset.sum_congr rfl fun k _ => by rw [h0 k]) rfl
  have hgate : k3_pay2 (F := Ideal) x1 x0 W x3 attn (ix2 p (0 : Fin 1))
      = Cert.Gcn.gate (Cert.Gcn.lin agg deg W bias) attn (ix2 r (0 : Fin 1)) := by
    rw [gate3_apply, Cert.Gcn.gate_apply]
    exact congrArg Ideal.logistic (Finset.sum_congr rfl fun k _ => by rw [hlin k])
  refine ⟨hlin, hgate, fun q => ?_⟩
  rw [gated3_apply, Cert.Gcn.gated_apply, hlin q, hgate]

section Arrays

variable (c : Dev nD) (deg : Cert.Gcn.Vec1 10000) (bias : Cert.Gcn.Vec1 128)

/-- hd of the arrays the region finds. -/
abbrev hd3 : Cert.Gcn.Mat 10000 128 := Cert.Gcn.lin (V c main_v46) deg (V c main_arg4) bias

/-- On row p of the blocks at point t, the body's three values are those of row 10000 t + p of the arrays. -/
theorem point_values3
    (hcol : ∀ p : Fin 10000, V c main_v47 (ix2 p (0 : Fin 1)) = deg (ix1 p))
    (hrow : ∀ q : Fin 128, V c main_v48 (ix2 (0 : Fin 1) q) = bias (ix1 q))
    (t : Fin cfg3.N) (p : Fin 10000) (r : Fin 10000) (hr : r.val = t.val * 10000 + p.val) :
    k3_pay2 (F := Ideal) (iblk3 V c 1 t) (iblk3 V c 0 t) (iblk3 V c 2 t) (iblk3 V c 3 t) (iblk3 V c 4 t) (ix2 p (0 : Fin 1))
        = Cert.Gcn.gate (hd3 V c deg bias) (V c main_arg6) (ix2 r (0 : Fin 1))
    ∧ (∀ q : Fin 128, k3_pay3 (F := Ideal) (iblk3 V c 1 t) (iblk3 V c 0 t) (iblk3 V c 2 t) (iblk3 V c 3 t) (iblk3 V c 4 t) (ix2 p q)
        = Cert.Gcn.gated (hd3 V c deg bias) (Cert.Gcn.gate (hd3 V c deg bias) (V c main_arg6)) (ix2 r q)) := by
  rw [W_block3_eq V c t, bias_block3_eq V c t, attn_block3_eq V c t]
  exact (row_values3 (V c main_v46) (V c main_arg4) (V c main_arg6) deg bias (iblk3 V c 0 t) (iblk3 V c 1 t) (V c main_v48) r p
    (fun k => agg_block3_apply V c t p k r hr)
    ((deg_block3_apply V c t p r hr).trans (hcol r))
    hrow).2

end Arrays

section Final

variable (c : Dev nD) (deg : Cert.Gcn.Vec1 10000) (bias : Cert.Gcn.Vec1 128)
  (hcol : ∀ p : Fin 10000, V c main_v47 (ix2 p (0 : Fin 1)) = deg (ix1 p))
  (hrow : ∀ q : Fin 128, V c main_v48 (ix2 (0 : Fin 1) q) = bias (ix1 q))

include hcol hrow

/-- What point t writes back to the result window is block t of the gated rows of the arrays. -/
theorem gated_flushed3 (t : Fin cfg3.N) :
    (dat3 (F := Ideal) V c).flushed 5 t = ((cfg3.win 5).blk t).view.read (Elt Ideal)
      (Cert.Gcn.gated (hd3 V c deg bias) (Cert.Gcn.gate (hd3 V c deg bias) (V c main_arg6))) := by
  show (cfg3.win 5).cut (grid3.coords t) ((dat3 V c).after 5 t) = _
  rw [after3_5]
  unfold out3_5
  rw [View.canon_unit_zero zero_offsets3]
  simp only [View.ld_unit_zero (S := S10000x256) zero_offsets3, View.ld_unit_zero (S := S10000x1) zero_offsets3,
    View.ld_unit_zero (S := S256x128) zero_offsets3, View.ld_unit_zero (S := S1x128) zero_offsets3,
    View.ld_unit_zero (S := S128x1) zero_offsets3]
  funext j
  obtain ⟨p, q, rfl⟩ : ∃ (p : Fin 10000) (q : Fin 128), j = ix2 p q := ⟨j 0, j 1, eq_ix2 j⟩
  obtain ⟨-, -, -, -, -, -, -, -, -, -, e0, e1, -⟩ := idx_facts3 t
  have ht : t.val < 1 := lt_of_lt_of_eq t.isLt (show cfg3.N = 1 from N_3)
  have hr : (⟨t.val * 10000 + p.val, by have := p.isLt; omega⟩ : Fin 10000).val = t.val * 10000 + p.val := rfl
  rw [View.read_apply]
  refine ((point_values3 V c deg bias hcol hrow t p _ hr).2 q).trans ?_
  show _ = Cert.Gcn.gated (hd3 V c deg bias) (Cert.Gcn.gate (hd3 V c deg bias) (V c main_arg6)) (((cfg3.win 5).blk t).view.emb (ix2 p q))
  congr 1
  funext a
  apply Fin.ext
  match a with
  | ⟨0, _⟩ => show t.val * 10000 + p.val = win3_5.index t (0 : Fin 2) * 10000 + 1 * p.val; rw [e0]; omega
  | ⟨1, _⟩ => show q.val = win3_5.index t (1 : Fin 2) * 128 + 1 * q.val; rw [e1]; omega

/-- What point t writes back to the gate window is block t of the gate column of the arrays. -/
theorem gate_flushed3 (t : Fin cfg3.N) :
    (dat3 (F := Ideal) V c).flushed 6 t = ((cfg3.win 6).blk t).view.read (Elt Ideal)
      (Cert.Gcn.gate (hd3 V c deg bias) (V c main_arg6)) := by
  show (cfg3.win 6).cut (grid3.coords t) ((dat3 V c).after 6 t) = _
  rw [after3_6]
  unfold out3_6
  rw [View.canon_unit_zero zero_offsets3]
  simp only [View.ld_unit_zero (S := S10000x256) zero_offsets3, View.ld_unit_zero (S := S10000x1) zero_offsets3,
    View.ld_unit_zero (S := S256x128) zero_offsets3, View.ld_unit_zero (S := S1x128) zero_offsets3,
    View.ld_unit_zero (S := S128x1) zero_offsets3]
  funext j
  obtain ⟨p, q, rfl⟩ : ∃ (p : Fin 10000) (q : Fin 1), j = ix2 p q := ⟨j 0, j 1, eq_ix2 j⟩
  obtain rfl : q = 0 := Subsingleton.elim _ _
  obtain ⟨-, -, -, -, -, -, -, -, -, -, -, -, e0, e1⟩ := idx_facts3 t
  have ht : t.val < 1 := lt_of_lt_of_eq t.isLt (show cfg3.N = 1 from N_3)
  have hr : (⟨t.val * 10000 + p.val, by have := p.isLt; omega⟩ : Fin 10000).val = t.val * 10000 + p.val := rfl
  rw [View.read_apply]
  refine (point_values3 V c deg bias hcol hrow t p _ hr).1.trans ?_
  show _ = Cert.Gcn.gate (hd3 V c deg bias) (V c main_arg6) (((cfg3.win 6).blk t).view.emb (ix2 p (0 : Fin 1)))
  congr 1
  funext a
  apply Fin.ext
  match a with
  | ⟨0, _⟩ => show t.val * 10000 + p.val = win3_6.index t (0 : Fin 2) * 10000 + 1 * p.val; rw [e0]; omega
  | ⟨1, _⟩ => show 0 = win3_6.index t (1 : Fin 2) * 1 + 1 * 0; rw [e1]

omit hcol hrow

/-- An index of the result array is in point t's block iff each coordinate is in the block's range on its axis. -/
theorem mem_gated_blk3 (t : Fin cfg3.N) (i : S10000x128.Idx) :
    i ∈ ((cfg3.win 5).blk t).view.set ↔ ∀ a : Fin 2, win3_5.index t a * S10000x128.size a ≤ (i a).val ∧ (i a).val < win3_5.index t a * S10000x128.size a + S10000x128.size a := by
  show i ∈ ((View.whole main_v49_0).slice (win3_5.rect t)).set ↔ _
  rw [View.set_slice_whole, Rect.mem_set_unit]
  exact Iff.rfl

/-- An index of the gate column is in point t's block iff each coordinate is in the block's range on its axis. -/
theorem mem_gate_blk3 (t : Fin cfg3.N) (i : S10000x1.Idx) :
    i ∈ ((cfg3.win 6).blk t).view.set ↔ ∀ a : Fin 2, win3_6.index t a * S10000x1.size a ≤ (i a).val ∧ (i a).val < win3_6.index t a * S10000x1.size a + S10000x1.size a := by
  show i ∈ ((View.whole main_v49_1).slice (win3_6.rect t)).set ↔ _
  rw [View.set_slice_whole, Rect.mem_set_unit]
  exact Iff.rfl

/-- The blocks of the result window tile the array: row r is in the block of point r / 10000. -/
theorem gated_cover3 (i : S10000x128.Idx) :
    ∃ t : Fin cfg3.N, (cfg3.win 5).flush t = true ∧ i ∈ ((cfg3.win 5).blk t).view.set := by
  have hi0 : (i 0).val < 10000 := (i 0).isLt
  have hi1 : (i 1).val < 128 := (i 1).isLt
  have hN : cfg3.N = 1 := N_3
  have ht : (i 0).val / 10000 < cfg3.N := by rw [hN]; omega
  obtain ⟨-, -, -, -, -, -, -, -, -, -, e0, e1, -⟩ := idx_facts3 ⟨(i 0).val / 10000, ht⟩
  refine ⟨⟨(i 0).val / 10000, ht⟩, flush3_5 _, ?_⟩
  rw [mem_gated_blk3]
  intro a
  match a with
  | ⟨0, _⟩ =>
    show win3_5.index ⟨(i 0).val / 10000, ht⟩ (0 : Fin 2) * 10000 ≤ (i 0).val ∧ (i 0).val < win3_5.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_5.index ⟨(i 0).val / 10000, ht⟩ (1 : Fin 2) * 128 ≤ (i 1).val ∧ (i 1).val < win3_5.index ⟨(i 0).val / 10000, ht⟩ (1 : Fin 2) * 128 + 128
    rw [e1]; omega

/-- The blocks of the gate window tile the column: row r is in the block of point r / 10000. -/
theorem gate_cover3 (i : S10000x1.Idx) :
    ∃ t : Fin cfg3.N, (cfg3.win 6).flush t = true ∧ i ∈ ((cfg3.win 6).blk t).view.set := by
  have hi0 : (i 0).val < 10000 := (i 0).isLt
  have hi1 : (i 1).val < 1 := (i 1).isLt
  have hN : cfg3.N = 1 := N_3
  have ht : (i 0).val / 10000 < cfg3.N := by rw [hN]; omega
  obtain ⟨-, -, -, -, -, -, -, -, -, -, -, -, e0, e1⟩ := idx_facts3 ⟨(i 0).val / 10000, ht⟩
  refine ⟨⟨(i 0).val / 10000, ht⟩, flush3_6 _, ?_⟩
  rw [mem_gate_blk3]
  intro a
  match a with
  | ⟨0, _⟩ =>
    show win3_6.index ⟨(i 0).val / 10000, ht⟩ (0 : Fin 2) * 10000 ≤ (i 0).val ∧ (i 0).val < win3_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win3_6.index ⟨(i 0).val / 10000, ht⟩ (1 : Fin 2) * 1 ≤ (i 1).val ∧ (i 1).val < win3_6.index ⟨(i 0).val / 10000, ht⟩ (1 : Fin 2) * 1 + 1
    rw [e1]; omega

end Final

/-- AFTER THE REGION: if the degree column holds the in-degree of every row and the bias row holds the bias, the
    result array holds hd (p, q) times the gate of p and the gate column holds the gate of p, where
    hd (p, q) = (sum over k of agg (p, k) * rsqrt (deg p) * W (k, q)) + bias q and the gate of p is the logistic
    function of the sum over k of hd (p, k) * attn (k, 0). -/
theorem gate3_value (c : Dev nD) (deg : Cert.Gcn.Vec1 10000) (bias : Cert.Gcn.Vec1 128)
    (hcol : ∀ p : Fin 10000, V c main_v47 (ix2 p (0 : Fin 1)) = deg (ix1 p))
    (hrow : ∀ q : Fin 128, V c main_v48 (ix2 (0 : Fin 1) q) = bias (ix1 q)) :
    (dat3 (F := Ideal) V c).arrAt 5 cfg3.N
        = Cert.Gcn.gated (Cert.Gcn.lin (V c main_v46) deg (V c main_arg4) bias)
            (Cert.Gcn.gate (Cert.Gcn.lin (V c main_v46) deg (V c main_arg4) bias) (V c main_arg6))
    ∧ (dat3 (F := Ideal) V c).arrAt 6 cfg3.N
        = Cert.Gcn.gate (Cert.Gcn.lin (V c main_v46) deg (V c main_arg4) bias) (V c main_arg6) :=
  ⟨(dat3 (F := Ideal) V c).arrAt_eq_of_cover 5 _ (fun t _ => gated_flushed3 V c deg bias hcol hrow t) (gated_cover3),
   (dat3 (F := Ideal) V c).arrAt_eq_of_cover 6 _ (fun t _ => gate_flushed3 V c deg bias hcol hrow t) (gate_cover3)⟩

end Cert.KernelIdeal.GcnValue

end
-- ==== Proof.KValue.lean ====
/-
  The kernel program's two results as the composition of the specification.

  Region by region: the first region scales the feature rows by the inverse square roots of the out-degrees; the
  host aggregates its result along the edges; the second region applies the linear stage, the gate and the gated
  product, and its gated output is the second layer's feature array; the third and fourth regions repeat this with
  the second layer's degrees, weights, bias and attention column. At each region the column operand holds, in row
  p, the degree of p (or its inverse square root) and the row operand holds the bias, which is what the region's
  value needs; every other operand is an argument array as launched or the region before it.
-/
import proofs.«155848_j37503654429370_1_alg».proof.Proof.KHost
import proofs.«155848_j37503654429370_1_alg».proof.Proof.Scale0
import proofs.«155848_j37503654429370_1_alg».proof.Proof.Gate1
import proofs.«155848_j37503654429370_1_alg».proof.Proof.Scale2
import proofs.«155848_j37503654429370_1_alg».proof.Proof.Gate3

set_option maxRecDepth 16384

noncomputable section

namespace Cert.KernelIdeal.GcnHost

open Cert.KernelIdeal Cert.KernelIdeal.Gen Cert.KernelIdeal.GcnChain Cert.KernelIdeal.GcnValue
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- After the first region its result array holds the first layer's scaled source rows. -/
theorem W6_v11 (c : Dev nD) : W6 (F := Ideal) m ρ c (Proc.devRef .tc main_v11) = hs1 (m ((c : Thread nD τ).loc main_arg0)) (m ((c : Thread nD τ).loc main_arg7)) := by
  have hcol : ∀ p : Fin 1210000, V5 (F := Ideal) m ρ c main_v10 (ix2 p (0 : Fin 1)) = Ideal.rsqrt (degOut1 (m ((c : Thread nD τ).loc main_arg7)) (ix1 p)) := fun p => by
    show W5 (F := Ideal) m ρ c (Proc.devRef .tc main_v10) (ix2 p (0 : Fin 1)) = _
    rw [W5_v10, column_apply]
    exact Ideal.hostUnary_rsqrt_def _
  have e : V5 (F := Ideal) m ρ c main_arg0 = (m ((c : Thread nD τ).loc main_arg0)) := W5_arg0 m ρ c
  refine (W6_arr m ρ c 2).trans ((scale0_value (V5 m ρ) c (degOut1 (m ((c : Thread nD τ).loc main_arg7))) hcol).trans ?_)
  rw [e]
  rfl

/-- After the second region its first result array holds the first layer's gated output. -/
theorem W8_v24_0 (c : Dev nD) : W8 (F := Ideal) m ρ c (Proc.devRef .tc main_v24_0)
    = h1 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
  have hcol : ∀ p : Fin 110000, V7 (F := Ideal) m ρ c main_v22 (ix2 p (0 : Fin 1)) = degIn1 (m ((c : Thread nD τ).loc main_arg8)) (ix1 p) := fun p => by
    show W7 (F := Ideal) m ρ c (Proc.devRef .tc main_v22) (ix2 p (0 : Fin 1)) = _
    rw [W7_v22, column_apply]
  have hrow : ∀ q : Fin 256, V7 (F := Ideal) m ρ c main_v23 (ix2 (0 : Fin 1) q) = (m ((c : Thread nD τ).loc main_arg2)) (ix1 q) := fun q => W7_v23 m ρ c q
  have e21 : V7 (F := Ideal) m ρ c main_v21 = agg1 (hs1 (m ((c : Thread nD τ).loc main_arg0)) (m ((c : Thread nD τ).loc main_arg7))) (m ((c : Thread nD τ).loc main_arg7)) (m ((c : Thread nD τ).loc main_arg8)) := by
    show W7 (F := Ideal) m ρ c (Proc.devRef .tc main_v21) = _
    rw [W7_v21, W6_v11]
  have e1 : V7 (F := Ideal) m ρ c main_arg1 = (m ((c : Thread nD τ).loc main_arg1)) := W7_arg1 m ρ c
  have e3 : V7 (F := Ideal) m ρ c main_arg3 = (m ((c : Thread nD τ).loc main_arg3)) := W7_arg3 m ρ c
  refine (W8_arr m ρ c 5).trans ((gate1_value (V7 m ρ) c (degIn1 (m ((c : Thread nD τ).loc main_arg8))) (m ((c : Thread nD τ).loc main_arg2)) hcol hrow).1.trans ?_)
  rw [e21, e1, e3]
  rfl

/-- After the third region its result array holds the second layer's scaled source rows. -/
theorem W14_v36 (c : Dev nD) : W14 (F := Ideal) m ρ c (Proc.devRef .tc main_v36)
    = hs2 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9)) := by
  have hcol : ∀ p : Fin 110000, V13 (F := Ideal) m ρ c main_v35 (ix2 p (0 : Fin 1)) = Ideal.rsqrt (degOut2 (m ((c : Thread nD τ).loc main_arg9)) (ix1 p)) := fun p => by
    show W13 (F := Ideal) m ρ c (Proc.devRef .tc main_v35) (ix2 p (0 : Fin 1)) = _
    rw [W13_v35, column_apply]
    exact Ideal.hostUnary_rsqrt_def _
  have e : V13 (F := Ideal) m ρ c main_v24_0 = h1 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) := by
    show W13 (F := Ideal) m ρ c (Proc.devRef .tc main_v24_0) = _
    rw [W13_v24_0, W8_v24_0]
  refine (W14_arr m ρ c 2).trans ((scale2_value (V13 m ρ) c (degOut2 (m ((c : Thread nD τ).loc main_arg9))) hcol).trans ?_)
  rw [e]
  rfl

/-- What the fourth region's value needs of its operands. -/
theorem gate3_at (c : Dev nD) :
    (dat3 (F := Ideal) (V15 m ρ) c).arrAt 5 cfg3.N
        = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    ∧ (dat3 (F := Ideal) (V15 m ρ) c).arrAt 6 cfg3.N
        = al2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have hcol : ∀ p : Fin 10000, V15 (F := Ideal) m ρ c main_v47 (ix2 p (0 : Fin 1)) = degIn2 (m ((c : Thread nD τ).loc main_arg10)) (ix1 p) := fun p => by
    show W15 (F := Ideal) m ρ c (Proc.devRef .tc main_v47) (ix2 p (0 : Fin 1)) = _
    rw [W15_v47, column_apply]
  have hrow : ∀ q : Fin 128, V15 (F := Ideal) m ρ c main_v48 (ix2 (0 : Fin 1) q) = (m ((c : Thread nD τ).loc main_arg5)) (ix1 q) := fun q => W15_v48 m ρ c q
  have e46 : V15 (F := Ideal) m ρ c main_v46 = agg2 (hs2 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) (m ((c : Thread nD τ).loc main_arg9))) (m ((c : Thread nD τ).loc main_arg9)) (m ((c : Thread nD τ).loc main_arg10)) := by
    show W15 (F := Ideal) m ρ c (Proc.devRef .tc main_v46) = _
    rw [W15_v46, W14_v36]
  have e4 : V15 (F := Ideal) m ρ c main_arg4 = (m ((c : Thread nD τ).loc main_arg4)) := W15_arg4 m ρ c
  have e6 : V15 (F := Ideal) m ρ c main_arg6 = (m ((c : Thread nD τ).loc main_arg6)) := W15_arg6 m ρ c
  have h := gate3_value (V15 m ρ) c (degIn2 (m ((c : Thread nD τ).loc main_arg10))) (m ((c : Thread nD τ).loc main_arg5)) hcol hrow
  rw [e46, e4, e6] at h
  exact h

/-- The program's first result buffer at the last boundary: the second layer's gated output. -/
theorem W16_out (c : Dev nD) : W16 (F := Ideal) m ρ c (Proc.devRef .tc main_v49_0)
    = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W16_arr m ρ c 5).trans (gate3_at m ρ c).1

/-- The program's second result buffer at the last boundary: the second layer's gate. -/
theorem W16_al2 (c : Dev nD) : W16 (F := Ideal) m ρ c (Proc.devRef .tc main_v49_1)
    = al2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W16_arr m ρ c 6).trans (gate3_at m ρ c).2

end Cert.KernelIdeal.GcnHost

end
-- ==== Proof.RefLayer1.lean ====
/-
  The reference's first layer, stage by stage, is the specification's first layer.

  The clipped degrees and the aggregation along the edges are the same host terms on both sides. The scaled
  source rows are x0 (p, q) · rsqrt (out-degree of p); the linear stage at (p, q) is the sum over k of
  agg (p, k) · rsqrt (in-degree of p) · x1 (k, q), plus x2 q; the gate of row p is 1 / (1 + exp (−s)) for s the
  inner product of row p with the attention column, which is the logistic function of s; and the output at (p, q)
  is the linear stage at (p, q) times the gate of p.
-/
import proofs.«155848_j37503654429370_1_alg».proof.Proof.Gen.ReferenceIdeal.Read
import proofs.«155848_j37503654429370_1_alg».proof.Proof.Chain

noncomputable section

namespace Cert.ReferenceIdeal.GcnRef

open Cert.ReferenceIdeal Cert.ReferenceIdeal.Read Idealize.ShloMosaic Idealize.ShloMosaic.ValueIdx
open Cert.KernelIdeal.GcnChain (F32 I32)

variable (x0 : F32 S1210000x128) (x1 : F32 S128x256) (x2 : F32 S256) (x3 : F32 S256x1)
  (x7 x8 : I32 S1100000)

/-- The word 0x3F800000 is the number one. -/
theorem one_word_is_one : Ideal.ofBits .f32 0x3F800000#32 = 1 := by
  simp [Ideal.ofBits, Ideal.ieee, -EReal.coe_mul]; norm_num

/-! ## The degrees -/

/-- The reference's clipped out-degrees are the specification's. -/
theorem ref_degOut1 : val_main_v4 (F := Ideal) x7 = Cert.KernelIdeal.GcnChain.degOut1 x7 := by
  unfold val_main_v4 val_main_call0_v1 val_main_call0_v0 val_main_cst_1 val_main_v3 val_main_v1 val_main_cst_0
    val_main_v2 val_main_v0 val_main_cst Cert.KernelIdeal.GcnChain.degOut1
  rfl

/-- The reference's clipped in-degrees are the specification's. -/
theorem ref_degIn1 : val_main_v8 (F := Ideal) x8 = Cert.KernelIdeal.GcnChain.degIn1 x8 := by
  unfold val_main_v8 val_main_call1_v1 val_main_call1_v0 val_main_cst_3 val_main_v7 val_main_v5 val_main_cst_2
    val_main_v6 val_main_v0 val_main_cst Cert.KernelIdeal.GcnChain.degIn1
  rfl

/-! ## The scaled source rows -/

theorem idx_v10_v11 (p : Fin 1210000) (q : Fin 128) :
    idx_main_v10 (idx_main_v11 (ix2 p q)) = ix1 p :=
  funext fun a => Fin.ext (by match a with | ⟨0, _⟩ => rfl)

/-- The reference's scaled source rows are the specification's. -/
theorem ref_hs1 : val_main_v12 (F := Ideal) x0 x7 = Cert.KernelIdeal.GcnChain.hs1 x0 x7 := by
  funext i
  obtain ⟨p, q, rfl⟩ : ∃ (p : Fin 1210000) (q : Fin 128), i = ix2 p q := ⟨i 0, i 1, eq_ix2 i⟩
  rw [val_main_v12_apply, val_main_v11_apply, val_main_v10_apply, val_main_v9_apply, idx_v10_v11, ref_degOut1]
  simp only [Ideal.mulf_def, Ideal.hostUnary_rsqrt_def]
  rfl

/-! ## The aggregation along the edges -/

/-- The reference's aggregated rows are the specification's aggregation of the scaled source rows. -/
theorem ref_agg1 : val_main_v22 (F := Ideal) x0 x7 x8
    = Cert.KernelIdeal.GcnChain.agg1 (Cert.KernelIdeal.GcnChain.hs1 x0 x7) x7 x8 := by
  unfold val_main_v22 val_main_v21 val_main_v20 val_main_cst_5 val_main_v19 val_main_v18 val_main_v17 val_main_v16
    val_main_v15 val_main_c_4 val_main_v14 val_main_v13 val_main_c
  rw [ref_hs1]
  unfold Cert.KernelIdeal.GcnChain.agg1
  rfl

/-! ## The linear stage -/

theorem lidx_v27 (p : Fin 110000) (q : Fin 256) (k : Fin 128) : lidx_main_v27 (ix2 p q) k = ix2 p k :=
  funext fun a => Fin.ext (by match a with | ⟨0, _⟩ => rfl | ⟨1, _⟩ => rfl)

theorem ridx_v27 (p : Fin 110000) (q : Fin 256) (k : Fin 128) : ridx_main_v27 (ix2 p q) k = ix2 k q :=
  funext fun a => Fin.ext (by match a with | ⟨0, _⟩ => rfl | ⟨1, _⟩ => rfl)

theorem idx_v24_v25 (p : Fin 110000) (k : Fin 128) : idx_main_v24 (idx_main_v25 (ix2 p k)) = ix1 p :=
  funext fun a => Fin.ext (by match a with | ⟨0, _⟩ => rfl)

theorem idx_v28_v29 (p : Fin 110000) (q : Fin 256) : idx_main_v28 (idx_main_v29 (ix2 p q)) = ix1 q :=
  funext fun a => Fin.ext (by match a with | ⟨0, _⟩ => rfl)

/-- The scaled aggregated rows at (p, k): the aggregation times the inverse square root of the in-degree of p. -/
theorem v26_at (p : Fin 110000) (k : Fin 128) :
    val_main_v26 (F := Ideal) x0 x7 x8 (ix2 p k)
      = Cert.KernelIdeal.GcnChain.agg1 (Cert.KernelIdeal.GcnChain.hs1 x0 x7) x7 x8 (ix2 p k)
        * Ideal.rsqrt (Cert.KernelIdeal.GcnChain.degIn1 x8 (ix1 p)) := by
  rw [val_main_v26_apply, val_main_v25_apply, val_main_v24_apply, val_main_v23_apply, idx_v24_v25, ref_agg1,
    ref_degIn1]
  simp only [Ideal.mulf_def, Ideal.hostUnary_rsqrt_def]

/-- The contraction with the weights at (p, q). -/
theorem v27_at (p : Fin 110000) (q : Fin 256) :
    val_main_v27 (F := Ideal) x0 x1 x7 x8 (ix2 p q)
      = ∑ k : Fin 128, Cert.KernelIdeal.GcnChain.agg1 (Cert.KernelIdeal.GcnChain.hs1 x0 x7) x7 x8 (ix2 p k)
        * Ideal.rsqrt (Cert.KernelIdeal.GcnChain.degIn1 x8 (ix1 p)) * x1 (ix2 k q) := by
  rw [val_main_v27_apply]
  refine Finset.sum_congr rfl fun k _ => ?_
  rw [lidx_v27, ridx_v27, v26_at]

/-- The reference's linear stage is the specification's. -/
theorem ref_hd1 : val_main_v30 (F := Ideal) x0 x1 x2 x7 x8 = Cert.KernelIdeal.GcnChain.hd1 x0 x1 x2 x7 x8 := by
  funext i
  obtain ⟨p, q, rfl⟩ : ∃ (p : Fin 110000) (q : Fin 256), i = ix2 p q := ⟨i 0, i 1, eq_ix2 i⟩
  unfold Cert.KernelIdeal.GcnChain.hd1
  rw [Cert.Gcn.lin_apply, val_main_v30_apply, v27_at, val_main_v29_apply, val_main_v28_apply, idx_v28_v29,
    Ideal.addf_def]

/-! ## The gate -/

theorem lidx_v31 (p : Fin 110000) (k : Fin 256) : lidx_main_v31 (ix2 p (0 : Fin 1)) k = ix2 p k :=
  funext fun a => Fin.ext (by match a with | ⟨0, _⟩ => rfl | ⟨1, _⟩ => rfl)

theorem ridx_v31 (p : Fin 110000) (k : Fin 256) : ridx_main_v31 (ix2 p (0 : Fin 1)) k = ix2 k (0 : Fin 1) :=
  funext fun a => Fin.ext (by match a with | ⟨0, _⟩ => rfl | ⟨1, _⟩ => rfl)

/-- The inner product of row p of the linear stage with the attention column. -/
theorem v31_at (p : Fin 110000) :
    val_main_v31 (F := Ideal) x0 x1 x2 x3 x7 x8 (ix2 p (0 : Fin 1))
      = ∑ k : Fin 256, Cert.KernelIdeal.GcnChain.hd1 x0 x1 x2 x7 x8 (ix2 p k) * x3 (ix2 k (0 : Fin 1)) := by
  rw [val_main_v31_apply]
  refine Finset.sum_congr rfl fun k _ => ?_
  rw [lidx_v31, ridx_v31, ref_hd1]

/-- The reference's gate, 1 / (1 + exp (−s)), is the specification's logistic gate. -/
theorem ref_al1 : val_main_v37 (F := Ideal) x0 x1 x2 x3 x7 x8 = Cert.KernelIdeal.GcnChain.al1 x0 x1 x2 x3 x7 x8 := by
  funext i
  obtain ⟨p, q, rfl⟩ : ∃ (p : Fin 110000) (q : Fin 1), i = ix2 p q := ⟨i 0, i 1, eq_ix2 i⟩
  obtain rfl : q = 0 := Subsingleton.elim _ _
  unfold Cert.KernelIdeal.GcnChain.al1
  rw [Cert.Gcn.gate_apply, Ideal.logistic, val_main_v37_apply, val_main_v36_apply, val_main_cst_7_apply,
    val_main_v35_apply, val_main_v34_apply, val_main_cst_6_apply, val_main_v33_apply, val_main_v32_apply, v31_at]
  simp only [Ideal.ofBits_def, one_word_is_one, Ideal.hostDivf_def, Ideal.addf_def, Ideal.hostUnary_exp_def,
    Ideal.hostNegf_def, Ideal.negf_def]

/-! ## The gated output -/

theorem idx_v38 (p : Fin 110000) (q : Fin 256) : idx_main_v38 (ix2 p q) = ix2 p (0 : Fin 1) :=
  funext fun a => Fin.ext (by match a with | ⟨0, _⟩ => rfl | ⟨1, _⟩ => rfl)

/-- The reference's first gated output is the specification's. -/
theorem ref_h1 : val_main_v39 (F := Ideal) x0 x1 x2 x3 x7 x8 = Cert.KernelIdeal.GcnChain.h1 x0 x1 x2 x3 x7 x8 := by
  funext i
  obtain ⟨p, q, rfl⟩ : ∃ (p : Fin 110000) (q : Fin 256), i = ix2 p q := ⟨i 0, i 1, eq_ix2 i⟩
  unfold Cert.KernelIdeal.GcnChain.h1
  rw [Cert.Gcn.gated_apply, val_main_v39_apply, val_main_v38_apply, idx_v38, ref_hd1, ref_al1, Ideal.mulf_def]

end Cert.ReferenceIdeal.GcnRef

end
-- ==== Proof.RefLayer2.lean ====
/-
  The reference's second layer, stage by stage, is the specification's second layer.

  The second layer's features are the first layer's gated output. Its degree vectors are the clipped edge counts
  of the second edge list; its source rows are the features times the inverse square root of their out-degree;
  the aggregation along the edges is the shared host term, applied to those rows; a destination row is scaled by
  the inverse square root of its in-degree, multiplied by the weights and shifted by the bias; the gate is
  1 / (1 + exp (−s)) of the row's inner product s with the attention column, which is the logistic function of s;
  and the result is the row times its gate.
-/
import proofs.«155848_j37503654429370_1_alg».proof.Proof.RefLayer1

noncomputable section

namespace Cert.ReferenceIdeal.GcnRef

open Cert.ReferenceIdeal Cert.ReferenceIdeal.Read Idealize.ShloMosaic Idealize.ShloMosaic.ValueIdx
open Cert.KernelIdeal.GcnChain (F32 I32)

variable (x0 : F32 S1210000x128) (x1 : F32 S128x256) (x2 : F32 S256) (x3 : F32 S256x1)
  (x4 : F32 S256x128) (x5 : F32 S128) (x6 : F32 S128x1)
  (x7 x8 : I32 S1100000) (x9 x10 : I32 S100000)

/-- The f32 word of one is the real number one. -/
theorem ofBits_one_f32 : Ideal.ofBits .f32 0x3F800000#32 = 1 := by
  simp [Ideal.ofBits, Ideal.ieee, -EReal.coe_mul]; norm_num

/-! ## Degrees -/

/-- The second layer's clipped out-degrees. -/
theorem ref_degOut2 : val_main_v44 (F := Ideal) x9 = Cert.KernelIdeal.GcnChain.degOut2 x9 := by
  unfold val_main_v44 val_main_call2_v1 val_main_call2_v0 val_main_cst_10 val_main_v43 val_main_v41 val_main_v42
    val_main_v40 val_main_cst_9 val_main_cst_8 Cert.KernelIdeal.GcnChain.degOut2
  rfl

/-- The second layer's clipped in-degrees. -/
theorem ref_degIn2 : val_main_v48 (F := Ideal) x10 = Cert.KernelIdeal.GcnChain.degIn2 x10 := by
  unfold val_main_v48 val_main_call3_v1 val_main_call3_v0 val_main_cst_12 val_main_v47 val_main_v45 val_main_v46
    val_main_v40 val_main_cst_11 val_main_cst_8 Cert.KernelIdeal.GcnChain.degIn2
  rfl

/-! ## Scaled source rows -/

/-- Row p of the first layer's output times the inverse square root of the out-degree of p. -/
theorem ref_hs2 : val_main_v52 (F := Ideal) x0 x1 x2 x3 x7 x8 x9
    = Cert.KernelIdeal.GcnChain.hs2 x0 x1 x2 x3 x7 x8 x9 := by
  funext i
  obtain ⟨p, q, rfl⟩ : ∃ (p : Fin 110000) (q : Fin 256), i = ix2 p q := ⟨i 0, i 1, eq_ix2 i⟩
  have e51 : idx_main_v51 (ix2 p q) = ix2 p (0 : Fin 1) :=
    funext fun a => Fin.ext (by match a with | ⟨0, _⟩ => rfl | ⟨1, _⟩ => rfl)
  have e50 : idx_main_v50 (ix2 p (0 : Fin 1)) = ix1 p :=
    funext fun a => Fin.ext (by match a with | ⟨0, _⟩ => rfl)
  rw [val_main_v52_apply, val_main_v51_apply, e51, val_main_v50_apply, e50, val_main_v49_apply, ref_h1, ref_degOut2]
  simp only [Ideal.mulf_def, Ideal.hostUnary_rsqrt_def]
  unfold Cert.KernelIdeal.GcnChain.hs2
  exact (Cert.Gcn.scale_apply _ _ p q).symm

/-! ## Aggregation along the edges -/

/-- The shared host aggregation, applied to the scaled source rows. -/
theorem ref_agg2 : val_main_v62 (F := Ideal) x0 x1 x2 x3 x7 x8 x9 x10
    = Cert.KernelIdeal.GcnChain.agg2 (Cert.KernelIdeal.GcnChain.hs2 x0 x1 x2 x3 x7 x8 x9) x9 x10 := by
  unfold val_main_v62 val_main_v61 val_main_v60 val_main_v59 val_main_v58 val_main_v57 val_main_v56 val_main_v55
    val_main_v54 val_main_v53 val_main_c_13 val_main_c_14 val_main_cst_15
  rw [ref_hs2]
  unfold Cert.KernelIdeal.GcnChain.agg2
  rfl

/-! ## The linear stage -/

/-- Entry (p, q): the sum over k of the aggregate (p, k) times the inverse square root of the in-degree of p
    times the weight (k, q), plus the bias at q. -/
theorem ref_hd2 : val_main_v70 (F := Ideal) x0 x1 x2 x3 x4 x5 x7 x8 x9 x10
    = Cert.KernelIdeal.GcnChain.hd2 x0 x1 x2 x3 x4 x5 x7 x8 x9 x10 := by
  funext i
  obtain ⟨p, q, rfl⟩ : ∃ (p : Fin 10000) (q : Fin 128), i = ix2 p q := ⟨i 0, i 1, eq_ix2 i⟩
  have el : ∀ k : Fin 256, lidx_main_v67 (ix2 p q) k = ix2 p k := fun k =>
    funext fun a => Fin.ext (by match a with | ⟨0, _⟩ => rfl | ⟨1, _⟩ => rfl)
  have er : ∀ k : Fin 256, ridx_main_v67 (ix2 p q) k = ix2 k q := fun k =>
    funext fun a => Fin.ext (by match a with | ⟨0, _⟩ => rfl | ⟨1, _⟩ => rfl)
  have e65 : ∀ k : Fin 256, idx_main_v65 (ix2 p k) = ix2 p (0 : Fin 1) := fun k =>
    funext fun a => Fin.ext (by match a with | ⟨0, _⟩ => rfl | ⟨1, _⟩ => rfl)
  have e64 : idx_main_v64 (ix2 p (0 : Fin 1)) = ix1 p :=
    funext fun a => Fin.ext (by match a with | ⟨0, _⟩ => rfl)
  have e69 : idx_main_v69 (ix2 p q) = ix2 (0 : Fin 1) q :=
    funext fun a => Fin.ext (by match a with | ⟨0, _⟩ => rfl | ⟨1, _⟩ => rfl)
  have e68 : idx_main_v68 (ix2 (0 : Fin 1) q) = ix1 q :=
    funext fun a => Fin.ext (by match a with | ⟨0, _⟩ => rfl)
  rw [val_main_v70_apply, val_main_v67_apply, val_main_v69_apply, e69, val_main_v68_apply, e68]
  simp only [el, er, val_main_v66_apply, val_main_v65_apply, e65, val_main_v64_apply, e64, val_main_v63_apply,
    ref_agg2, ref_degIn2, Ideal.mulf_def, Ideal.addf_def, Ideal.hostUnary_rsqrt_def]
  unfold Cert.KernelIdeal.GcnChain.hd2
  exact (Cert.Gcn.lin_apply _ _ _ _ p q).symm

/-! ## The gate -/

/-- The gate of row p: 1 / (1 + exp (−s)) at the inner product s of row p with the attention column. -/
theorem ref_alpha : val_main_v77 (F := Ideal) x0 x1 x2 x3 x4 x5 x6 x7 x8 x9 x10
    = Cert.KernelIdeal.GcnChain.al2 x0 x1 x2 x3 x4 x5 x6 x7 x8 x9 x10 := by
  funext i
  obtain ⟨p, z, rfl⟩ : ∃ (p : Fin 10000) (z : Fin 1), i = ix2 p z := ⟨i 0, i 1, eq_ix2 i⟩
  obtain rfl : z = 0 := Subsingleton.elim _ _
  have el : ∀ k : Fin 128, lidx_main_v71 (ix2 p (0 : Fin 1)) k = ix2 p k := fun k =>
    funext fun a => Fin.ext (by match a with | ⟨0, _⟩ => rfl | ⟨1, _⟩ => rfl)
  have er : ∀ k : Fin 128, ridx_main_v71 (ix2 p (0 : Fin 1)) k = ix2 k (0 : Fin 1) := fun k =>
    funext fun a => Fin.ext (by match a with | ⟨0, _⟩ => rfl | ⟨1, _⟩ => rfl)
  rw [val_main_v77_apply, val_main_v76_apply, val_main_cst_17_apply, val_main_v75_apply, val_main_v74_apply,
    val_main_cst_16_apply, val_main_v73_apply, val_main_v72_apply, val_main_v71_apply]
  simp only [el, er, ref_hd2, Ideal.hostDivf_def, Ideal.addf_def, Ideal.hostUnary_exp_def, Ideal.hostNegf_def,
    Ideal.negf_def, Ideal.ofBits_def, ofBits_one_f32]
  unfold Cert.KernelIdeal.GcnChain.al2
  exact (Cert.Gcn.gate_apply _ _ p).symm

/-! ## The gated output -/

/-- Row p of the linear stage times the gate of p. -/
theorem ref_out : val_main_v79 (F := Ideal) x0 x1 x2 x3 x4 x5 x6 x7 x8 x9 x10
    = Cert.KernelIdeal.GcnChain.out x0 x1 x2 x3 x4 x5 x6 x7 x8 x9 x10 := by
  funext i
  obtain ⟨p, q, rfl⟩ : ∃ (p : Fin 10000) (q : Fin 128), i = ix2 p q := ⟨i 0, i 1, eq_ix2 i⟩
  have e78 : idx_main_v78 (ix2 p q) = ix2 p (0 : Fin 1) :=
    funext fun a => Fin.ext (by match a with | ⟨0, _⟩ => rfl | ⟨1, _⟩ => rfl)
  rw [val_main_v79_apply, val_main_v78_apply, e78, ref_hd2, ref_alpha]
  simp only [Ideal.mulf_def]
  unfold Cert.KernelIdeal.GcnChain.out
  exact (Cert.Gcn.gated_apply _ _ p q).symm

end Cert.ReferenceIdeal.GcnRef

end
-- ==== Proof.lean ====
/-
  A two-layer graph convolution with a sigmoid gate, as a program of four kernel regions against a plain array
  program, over the extended reals.

  Per layer both programs compute: the out-degree of every source row and the in-degree of every destination row
  (at least one); the feature rows scaled by the inverse square root of their out-degree; those rows gathered along
  the edges and summed into their destination rows; each destination row scaled by the inverse square root of its
  in-degree, multiplied by the weight matrix and shifted by the bias; the gate of a row, the logistic function of
  the row's inner product with the attention column; and the row times its gate. The second layer's features are
  the first layer's output; the results are the second layer's output and its gate.

  The kernel program does the two row scalings and the two linear-and-gate stages in its four regions, block of
  rows by block of rows, and the degrees and the aggregation on the host; the reference does everything on the
  host. At the ideal values a change of float format is the identity, a matrix product into a zero accumulator is
  the plain sum over the contracted axis, and the reference's 1 / (1 + exp (−x)) is the logistic function by
  definition, so both programs' results are the same composition of the same formulas applied to the same
  arguments. The two sides group their products alike, so no distributive or cancelling law is needed, and the
  inputs' finiteness is never opened.
  The kernel never rewrites its program for the ideal reading, so the idealization claim is trivial.
-/
import proofs.«155848_j37503654429370_1_alg».proof.Defs
import proofs.«155848_j37503654429370_1_alg».proof.Proof.Gen.Kernel
import proofs.«155848_j37503654429370_1_alg».proof.Proof.Gen.Kernel.Frame
import proofs.«155848_j37503654429370_1_alg».proof.Proof.Gen.KernelIdeal
import proofs.«155848_j37503654429370_1_alg».proof.Proof.Gen.KernelIdeal.Frame
import proofs.«155848_j37503654429370_1_alg».proof.Proof.Gen.ReferenceIdeal
import proofs.«155848_j37503654429370_1_alg».proof.Proof.Gen.Pre_finite_inputs
import proofs.«155848_j37503654429370_1_alg».proof.Proof.Gen.ReferenceIdeal.Run
import proofs.«155848_j37503654429370_1_alg».proof.Proof.Gen.ReferenceIdeal.Read
import proofs.«155848_j37503654429370_1_alg».proof.Proof.KRun
import proofs.«155848_j37503654429370_1_alg».proof.Proof.KValue
import proofs.«155848_j37503654429370_1_alg».proof.Proof.RefLayer2

noncomputable section

namespace Cert.Proof

open Idealize.ShloMosaic Idealize.SL.Sem

/-- The kernel program as printed runs, and its arguments end as launched. -/
theorem frame_kernel : Cert.frame_Kernel := fun m ρ _ => Cert.Kernel.Gen.frame m ρ

/-- The kernel program at the ideal values runs, and its arguments end as launched. -/
theorem frame_kernel_ideal : Cert.frame_KernelIdeal := fun m ρ _ => Cert.KernelIdeal.Gen.frame m ρ

/-- The reference runs, and its arguments end as launched: its run with the two results dropped. -/
theorem frame_reference_ideal : Cert.frame_ReferenceIdeal := fun m ρ _ =>
  (θ_run Cert.ReferenceIdeal.defs _ _).mono (fun _ h c => (h c).2.2) (Cert.ReferenceIdeal.Value.run (F := Ideal) m ρ)

/-- Nothing was rewritten for the ideal reading. -/
theorem preserves : Cert.preserves_Kernel_KernelIdeal := trivial

/-- From memories that agree on the arguments both programs end with the second layer's gated output and its
    gate, as the one composition of the specification applied to the kernel program's argument arrays. -/
theorem algebraic : Cert.algebraic_KernelIdeal_ReferenceIdeal := by
  intro m ρ m' ρ' _ hagree
  refine ⟨fun c => Cert.KernelIdeal.GcnChain.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.GcnChain.al2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.GcnHost.W16_out m ρ c),
        (h c).2.1.trans (Cert.KernelIdeal.GcnHost.W16_al2 m ρ c), (h c).2.2⟩)
      (Cert.KernelIdeal.GcnRun.run_results m ρ)
  · refine (θ_run Cert.ReferenceIdeal.defs _ _).mono (fun r h c => ?_) (Cert.ReferenceIdeal.Value.run (F := Ideal) m' ρ')
    obtain ⟨e0, e1, e2, e3, e4, e5, e6, e7, e8, e9, e10⟩ := hagree c
    refine ⟨(h c).1.trans ?_, (h c).2.1.trans ?_, (h c).2.2⟩
    · rw [Cert.ReferenceIdeal.Read.val_main_v79_eq, Cert.ReferenceIdeal.GcnRef.ref_out, e0, e1, e2, e3, e4, e5, e6, e7, e8, e9, e10]
    · rw [Cert.ReferenceIdeal.Read.val_main_v77_eq, Cert.ReferenceIdeal.GcnRef.ref_alpha, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
